-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S32000x4096 : S_.BroadcastsInDim S32000x4096 (![] : Fin 0 → Fin S32000x4096.rank)
  reducesTo_S32000x4096_S_d0_1 : S32000x4096.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : IVec S2048 32) (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  let main_c_6 : IVec S_ 32 := constantI S_ 32 4294967196#32
  let main_v19 : IVec S2048 32 := broadcastInDim S2048 ![] bcast_S_S2048 main_c_6
  let main_v20 : IVec S2048 1 := cmpi .eq main_arg4 main_v19
  let main_c_7 : IVec S_ 32 := constantI S_ 32 0#32
  let main_v21 : IVec S2048 32 := broadcastInDim S2048 ![] bcast_S_S2048 main_c_7
  let main_v22 : IVec S2048 1 := cmpi .sge main_arg4 main_v21
  let main_c_8 : IVec S_ 32 := constantI S_ 32 32000#32
  let main_v23 : IVec S2048 32 := broadcastInDim S2048 ![] bcast_S_S2048 main_c_8
  let main_v24 : IVec S2048 1 := cmpi .slt main_arg4 main_v23
  let main_v25 : IVec S2048 1 := andi main_v22 main_v24
  let main_v26 : IVec S2048 1 := ori main_v20 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v18 main_v27
  main_v28

def fn {F : FTy → Type} [FloatOps F] (main_arg0 : FVec F S2048x2048 .f32) (main_arg1 : FVec F S32000x2048 .f32) (main_arg2 : FVec F S2048x4096 .f32) (main_arg3 : FVec F S32000x4096 .f32) (main_arg4 : IVec S2048 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S32000x4096 .f32 := Host.absf main_arg3
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_arg4 main_v13 main_v16
-- ==== Kernel.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S2048x32000 : Shape := ⟨2, ![2048, 32000]⟩
abbrev S256x2048 : Shape := ⟨2, ![256, 2048]⟩
abbrev S640x2048 : Shape := ⟨2, ![640, 2048]⟩
abbrev S256x640 : Shape := ⟨2, ![256, 640]⟩
abbrev S256x4096 : Shape := ⟨2, ![256, 4096]⟩
abbrev S640x4096 : Shape := ⟨2, ![640, 4096]⟩
abbrev S2048x1 : Shape := ⟨2, ![2048, 1]⟩
abbrev S8x128 : Shape := ⟨2, ![8, 128]⟩
abbrev S16x32000 : Shape := ⟨2, ![16, 32000]⟩
abbrev S16x1 : Shape := ⟨2, ![16, 1]⟩
abbrev S16 : Shape := ⟨1, ![16]⟩
abbrev S1 : Shape := ⟨1, ![1]⟩
abbrev S1x1 : Shape := ⟨2, ![1, 1]⟩
abbrev S_ : Shape := ⟨0, ![]⟩

abbrev nBuf : Space → Nat
  | .hbm => 22
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x4096, .f32⟩
  | .hbm, ⟨3, _⟩ => ⟨S32000x4096, .f32⟩
  | .hbm, ⟨4, _⟩ => ⟨S2048, .i32⟩
  | .hbm, ⟨5, _⟩ => ⟨S2048x32000, .f32⟩
  | .hbm, ⟨6, _⟩ => ⟨S2048x32000, .f32⟩
  | .hbm, ⟨7, _⟩ => ⟨S2048x1, .i32⟩
  | .hbm, ⟨8, _⟩ => ⟨S8x128, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S640x2048, .f32⟩
  | .local _ .vmem, ⟨3, _⟩ => ⟨S640x2048, .f32⟩
  | .local _ .vmem, ⟨4, _⟩ => ⟨S256x640, .f32⟩
  | .local _ .vmem, ⟨5, _⟩ => ⟨S256x640, .f32⟩
  | .local _ .vmem, ⟨6, _⟩ => ⟨S256x4096, .f32⟩
  | .local _ .vmem, ⟨7, _⟩ => ⟨S256x4096, .f32⟩
  | .local _ .vmem, ⟨8, _⟩ => ⟨S640x4096, .f32⟩
  | .local _ .vmem, ⟨9, _⟩ => ⟨S640x4096, .f32⟩
  | .local _ .vmem, ⟨10, _⟩ => ⟨S256x640, .f32⟩
  | .local _ .vmem, ⟨11, _⟩ => ⟨S256x640, .f32⟩
  | .local _ .vmem, ⟨12, _⟩ => ⟨S16x32000, .f32⟩
  | .local _ .vmem, ⟨13, _⟩ => ⟨S16x32000, .f32⟩
  | .local _ .vmem, ⟨14, _⟩ => ⟨S16x32000, .f32⟩
  | .local _ .vmem, ⟨15, _⟩ => ⟨S16x32000, .f32⟩
  | .local _ .vmem, ⟨16, _⟩ => ⟨S16x1, .i32⟩
  | .local _ .vmem, ⟨17, _⟩ => ⟨S16x1, .i32⟩
  | .local _ .vmem, ⟨18, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18

abbrev nD : Nat := 1
abbrev τ : Topo := Topo.v7x

variable {F : FTy → Type} [FloatOps F]

abbrev grid0 : Pipeline.Grid := ⟨2, ![8, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 50], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S640x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S16x32000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x32000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S640x2048_S640x2048_0_0 : ∀ a, (![0, 0] : Fin 2 → Nat) a + S640x2048.size a ≤ S640x2048.size a
  h_S640x2048 : 0 < S640x2048.numel
  inb_S256x640_S256x640_0_0 : ∀ a, (![0, 0] : Fin 2 → Nat) a + S256x640.size a ≤ S256x640.size a
  h_S256x640 : 0 < S256x640.numel
  inb_S256x4096_S256x4096_0_0 : ∀ a, (![0, 0] : Fin 2 → Nat) a + S256x4096.size a ≤ S256x4096.size a
  h_S256x4096 : 0 < S256x4096.numel
  inb_S640x4096_S640x4096_0_0 : ∀ a, (![0, 0] : Fin 2 → Nat) a + S640x4096.size a ≤ S640x4096.size a
  h_S640x4096 : 0 < S640x4096.numel
  shapeCasts_S2048_S2048x1 : S2048.ShapeCasts S2048x1
  inb_S16x32000_S16x32000_0_0 : ∀ a, (![0, 0] : Fin 2 → Nat) a + S16x32000.size a ≤ S16x32000.size a
  h_S16x32000 : 0 < S16x32000.numel
  shapeCasts_S16x32000_S16x32000 : S16x32000.ShapeCasts S16x32000
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reduces_S16x32000_S16 : S16x32000.Reduces [1] S16
  shapeCasts_S16_S16x1 : S16.ShapeCasts S16x1
  broadcasts_S16x1_S16x32000 : S16x1.Broadcasts S16x32000
  iota_S16x32000_d1_w32 : S16x32000.Iotas .tc 32 [1]
  reduces_S16x1_S1 : S16x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  slices_S8x128_S1x1_0_0 : S8x128.Slices ![0, 0] S1x1
  shapeCasts_S1x1_S_ : S1x1.ShapeCasts S_
  slices_S8x128_S1x1_0_1 : S8x128.Slices ![0, 1] S1x1
  dot_S256x2048_S640x2048_S256x640_1_1_0_0_n_n_wf : DotDims.WF S256x2048 S640x2048 S256x640 [1] [1] [0] [0] [] []
  dot_S256x4096_S640x4096_S256x640_1_1_0_0_n_n_wf : DotDims.WF S256x4096 S640x4096 S256x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x640.size a ≤ S2048x32000.size a
  hwx0_2 : ∀ i : grid0.Coords, EltTy.bits .f32 = 32 ∨ (Rect.block (s := S2048x32000) S256x640.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S2048x4096.size a
  hwx1_0 : ∀ i : grid1.Coords, EltTy.bits .f32 = 32 ∨ (Rect.block (s := S2048x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x4096.size a ≤ S32000x4096.size a
  hwx1_1 : ∀ i : grid1.Coords, EltTy.bits .f32 = 32 ∨ (Rect.block (s := S32000x4096) S640x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x640.size a ≤ S2048x32000.size a
  hwx1_2 : ∀ i : grid1.Coords, EltTy.bits .f32 = 32 ∨ (Rect.block (s := S2048x32000) S256x640.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x32000.size a ≤ S2048x32000.size a
  hwx2_0 : ∀ i : grid2.Coords, EltTy.bits .f32 = 32 ∨ (Rect.block (s := S2048x32000) S16x32000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x32000.size a ≤ S2048x32000.size a
  hwx2_1 : ∀ i : grid2.Coords, EltTy.bits .f32 = 32 ∨ (Rect.block (s := S2048x32000) S16x32000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S2048x1.size a
  hwx2_2 : ∀ i : grid2.Coords, EltTy.bits .i32 = 32 ∨ (Rect.block (s := S2048x1) S16x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x128.size a ≤ S8x128.size a
  hwx2_3 : ∀ i : grid2.Coords, EltTy.bits .f32 = 32 ∨ (Rect.block (s := S8x128) S8x128.size (cc2_transform_3 i) (hinb2_3 i)).WholeWords (EltTy.packing .f32)

variable [Facts₀]

def dot_S256x2048_S640x2048_S256x640_1_1_0_0_n_n : DotDims S256x2048 S640x2048 S256x640 where
  lhsContracting := [1]
  rhsContracting := [1]
  lhsNonContracting := [0]
  rhsNonContracting := [0]
  lhsBatch := []
  rhsBatch := []
  wf := dot_S256x2048_S640x2048_S256x640_1_1_0_0_n_n_wf
def dot_S256x4096_S640x4096_S256x640_1_1_0_0_n_n : DotDims S256x4096 S640x4096 S256x640 where
  lhsContracting := [1]
  rhsContracting := [1]
  lhsNonContracting := [0]
  rhsNonContracting := [0]
  lhsBatch := []
  rhsBatch := []
  wf := dot_S256x4096_S640x4096_S256x640_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S640x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x640.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S16x32000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S16x32000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S16x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S8x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S2048x32000 : Shape := ⟨2, ![2048, 32000]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 142
  | .vmem => 0
  | .smem => 0
  | _ => 0

abbrev hbmTy0_0 (i : Nat) : BufTy := match i % 128 with
  | 0 => ⟨S2048x2048, .f32⟩
  | 1 => ⟨S32000x2048, .f32⟩
  | 2 => ⟨S2048x4096, .f32⟩
  | 3 => ⟨S32000x4096, .f32⟩
  | 4 => ⟨S2048, .i32⟩
  | 5 => ⟨S2048x32000, .f32⟩
  | 6 => ⟨S2048x32000, .f32⟩
  | 7 => ⟨S_, .i32⟩
  | 8 => ⟨S2048, .i32⟩
  | 9 => ⟨S2048, .i1⟩
  | 10 => ⟨S_, .i32⟩
  | 11 => ⟨S_, .i32⟩
  | 12 => ⟨S2048, .i32⟩
  | 13 => ⟨S2048, .i32⟩
  | 14 => ⟨S_, .f32⟩
  | 15 => ⟨S2048, .f32⟩
  | 16 => ⟨S_, .f32⟩
  | 17 => ⟨S2048, .f32⟩
  | 18 => ⟨S2048, .f32⟩
  | 19 => ⟨S2048x1, .f32⟩
  | 20 => ⟨S2048x32000, .f32⟩
  | 21 => ⟨S2048x32000, .f32⟩
  | 22 => ⟨S2048x32000, .f32⟩
  | 23 => ⟨S_, .f32⟩
  | 24 => ⟨S2048, .f32⟩
  | 25 => ⟨S2048x1, .f32⟩
  | 26 => ⟨S2048x1, .f32⟩
  | 27 => ⟨S2048x32000, .f32⟩
  | 28 => ⟨S2048x32000, .f32⟩
  | 29 => ⟨S2048x1, .i32⟩
  | 30 => ⟨S_, .i32⟩
  | 31 => ⟨S2048x1, .i32⟩
  | 32 => ⟨S2048x1, .i1⟩
  | 33 => ⟨S_, .i32⟩
  | 34 => ⟨S2048x1, .i32⟩
  | 35 => ⟨S2048x1, .i32⟩
  | 36 => ⟨S2048x1, .i32⟩
  | 37 => ⟨S2048x1x1, .i32⟩
  | 38 => ⟨S1, .i32⟩
  | 39 => ⟨S_, .i32⟩
  | 40 => ⟨S2048x1x1, .i32⟩
  | 41 => ⟨S2048x1x1, .i1⟩
  | 42 => ⟨S1x1x1, .i32⟩
  | 43 => ⟨S2048x1x1, .i32⟩
  | 44 => ⟨S2048x1x1, .i1⟩
  | 45 => ⟨S2048x1x1, .i1⟩
  | 46 => ⟨S_, .i1⟩
  | 47 => ⟨S2048x1, .i1⟩
  | 48 => ⟨S2048x1, .f32⟩
  | 49 => ⟨S_, .f32⟩
  | 50 => ⟨S2048x1, .f32⟩
  | 51 => ⟨S2048x1, .f32⟩
  | 52 => ⟨S2048, .f32⟩
  | 53 => ⟨S2048, .f32⟩
  | 54 => ⟨S_, .f32⟩
  | 55 => ⟨S_, .f32⟩
  | 56 => ⟨S2048, .f32⟩
  | 57 => ⟨S2048, .f32⟩
  | 58 => ⟨S_, .f32⟩
  | 59 => ⟨S_, .f32⟩
  | 60 => ⟨S_, .f32⟩
  | 61 => ⟨S_, .f32⟩
  | 62 => ⟨S_, .f32⟩
  | 63 => ⟨S2048x32000, .f32⟩
  | 64 => ⟨S2048x32000, .f32⟩
  | 65 => ⟨S_, .f32⟩
  | 66 => ⟨S2048, .f32⟩
  | 67 => ⟨S_, .f32⟩
  | 68 => ⟨S2048, .f32⟩
  | 69 => ⟨S2048, .f32⟩
  | 70 => ⟨S2048x1, .f32⟩
  | 71 => ⟨S2048x32000, .f32⟩
  | 72 => ⟨S2048x32000, .f32⟩
  | 73 => ⟨S2048x32000, .f32⟩
  | 74 => ⟨S_, .f32⟩
  | 75 => ⟨S2048, .f32⟩
  | 76 => ⟨S2048x1, .f32⟩
  | 77 => ⟨S2048x1, .f32⟩
  | 78 => ⟨S2048x32000, .f32⟩
  | 79 => ⟨S2048x32000, .f32⟩
  | 80 => ⟨S_, .f32⟩
  | 81 => ⟨S2048x32000, .f32⟩
  | 82 => ⟨S2048x32000, .f32⟩
  | 83 => ⟨S_, .f32⟩
  | 84 => ⟨S2048, .f32⟩
  | 85 => ⟨S_, .f32⟩
  | 86 => ⟨S2048, .f32⟩
  | 87 => ⟨S2048, .f32⟩
  | 88 => ⟨S2048x1, .f32⟩
  | 89 => ⟨S2048x32000, .f32⟩
  | 90 => ⟨S2048x32000, .f32⟩
  | 91 => ⟨S2048x32000, .f32⟩
  | 92 => ⟨S_, .f32⟩
  | 93 => ⟨S2048, .f32⟩
  | 94 => ⟨S2048x1, .f32⟩
  | 95 => ⟨S2048x1, .f32⟩
  | 96 => ⟨S2048x32000, .f32⟩
  | 97 => ⟨S2048x32000, .f32⟩
  | 98 => ⟨S_, .f32⟩
  | 99 => ⟨S2048x32000, .f32⟩
  | 100 => ⟨S2048x32000, .f32⟩
  | 101 => ⟨S_, .f32⟩
  | 102 => ⟨S2048x32000, .f32⟩
  | 103 => ⟨S2048x32000, .f32⟩
  | 104 => ⟨S2048x32000, .f32⟩
  | 105 => ⟨S2048x32000, .f32⟩
  | 106 => ⟨S2048x32000, .i1⟩
  | 107 => ⟨S2048x32000, .f32⟩
  | 108 => ⟨S2048x32000, .f32⟩
  | 109 => ⟨S2048x32000, .f32⟩
  | 110 => ⟨S2048x32000, .f32⟩
  | 111 => ⟨S2048x32000, .f32⟩
  | 112 => ⟨S2048x32000, .f32⟩
  | 113 => ⟨S2048x32000, .f32⟩
  | 114 => ⟨S2048x32000, .f32⟩
  | 115 => ⟨S2048x32000, .f32⟩
  | 116 => ⟨S2048x32000, .f32⟩
  | 117 => ⟨S2048x32000, .f32⟩
  | 118 => ⟨S2048x32000, .f32⟩
  | 119 => ⟨S2048x32000, .f32⟩
  | 120 => ⟨S_, .f32⟩
  | 121 => ⟨S2048x32000, .f32⟩
  | 122 => ⟨S2048x32000, .f32⟩
  | 123 => ⟨S_, .f32⟩
  | 124 => ⟨S2048x32000, .f32⟩
  | 125 => ⟨S2048x32000, .f32⟩
  | 126 => ⟨S2048x32000, .f32⟩
  | 127 => ⟨S_, .f32⟩
  | _ => ⟨S2048x2048, .f32⟩

abbrev hbmTy0_1 (i : Nat) : BufTy := match i % 128 with
  | 0 => ⟨S2048, .f32⟩
  | 1 => ⟨S_, .f32⟩
  | 2 => ⟨S_, .f32⟩
  | 3 => ⟨S2048, .f32⟩
  | 4 => ⟨S2048, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v5 : Ref sig .tc := ⟨.hbm, 28, rfl⟩
abbrev main_v6 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_v10 : Ref sig .tc := ⟨.hbm, 57, rfl⟩
abbrev main_cst_1 : Ref sig .tc := ⟨.hbm, 58, rfl⟩
abbrev main_v11 : Ref sig .tc := ⟨.hbm, 59, rfl⟩
abbrev main_cst_2 : Ref sig .tc := ⟨.hbm, 60, rfl⟩
abbrev main_v12 : Ref sig .tc := ⟨.hbm, 61, rfl⟩
abbrev main_cst_3 : Ref sig .tc := ⟨.hbm, 62, rfl⟩
abbrev main_v13 : Ref sig .tc := ⟨.hbm, 63, rfl⟩
abbrev main_v14 : Ref sig .tc := ⟨.hbm, 64, rfl⟩
abbrev main_call4_cst : Ref sig .tc := ⟨.hbm, 65, rfl⟩
abbrev main_call4_v0 : Ref sig .tc := ⟨.hbm, 66, rfl⟩
abbrev main_call4_cst_0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_v6 : Ref sig .tc := ⟨.hbm, 73, rfl⟩
abbrev main_call4_cst_1 : Ref sig .tc := ⟨.hbm, 74, rfl⟩
abbrev main_call4_v7 : Ref sig .tc := ⟨.hbm, 75, rfl⟩
abbrev main_call4_v8 : Ref sig .tc := ⟨.hbm, 76, rfl⟩
abbrev main_call4_v9 : Ref sig .tc := ⟨.hbm, 77, rfl⟩
abbrev main_call4_v10 : Ref sig .tc := ⟨.hbm, 78, rfl⟩
abbrev main_v15 : Ref sig .tc := ⟨.hbm, 79, rfl⟩
abbrev main_cst_4 : Ref sig .tc := ⟨.hbm, 80, rfl⟩
abbrev main_v16 : Ref sig .tc := ⟨.hbm, 81, rfl⟩
abbrev main_v17 : Ref sig .tc := ⟨.hbm, 82, rfl⟩
abbrev main_call5_cst : Ref sig .tc := ⟨.hbm, 83, rfl⟩
abbrev main_call5_v0 : Ref sig .tc := ⟨.hbm, 84, rfl⟩
abbrev main_call5_cst_0 : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_v5 : Ref sig .tc := ⟨.hbm, 90, rfl⟩
abbrev main_call5_v6 : Ref sig .tc := ⟨.hbm, 91, rfl⟩
abbrev main_call5_cst_1 : Ref sig .tc := ⟨.hbm, 92, rfl⟩
abbrev main_call5_v7 : Ref sig .tc := ⟨.hbm, 93, rfl⟩
abbrev main_call5_v8 : Ref sig .tc := ⟨.hbm, 94, rfl⟩
abbrev main_call5_v9 : Ref sig .tc := ⟨.hbm, 95, rfl⟩
abbrev main_call5_v10 : Ref sig .tc := ⟨.hbm, 96, rfl⟩
abbrev main_v18 : Ref sig .tc := ⟨.hbm, 97, rfl⟩
abbrev main_cst_5 : Ref sig .tc := ⟨.hbm, 98, rfl⟩
abbrev main_v19 : Ref sig .tc := ⟨.hbm, 99, rfl⟩
abbrev main_v20 : Ref sig .tc := ⟨.hbm, 100, rfl⟩
abbrev main_cst_6 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_cst_7 : Ref sig .tc := ⟨.hbm, 120, rfl⟩
abbrev main_v39 : Ref sig .tc := ⟨.hbm, 121, rfl⟩
abbrev main_v40 : Ref sig .tc := ⟨.hbm, 122, rfl⟩
abbrev main_cst_8 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_cst_9 : Ref sig .tc := ⟨.hbm, 127, rfl⟩
abbrev main_v44 : Ref sig .tc := ⟨.hbm, 128, rfl⟩
abbrev main_cst_10 : Ref sig .tc := ⟨.hbm, 129, rfl⟩
abbrev main_call6_v0 : Ref sig .tc := ⟨.hbm, 130, rfl⟩
abbrev main_call6_v1 : Ref sig .tc := ⟨.hbm, 131, rfl⟩
abbrev main_v45 : Ref sig .tc := ⟨.hbm, 132, rfl⟩
abbrev main_cst_11 : Ref sig .tc := ⟨.hbm, 133, rfl⟩
abbrev main_v46 : Ref sig .tc := ⟨.hbm, 134, rfl⟩
abbrev main_cst_12 : Ref sig .tc := ⟨.hbm, 135, rfl⟩
abbrev main_v47 : Ref sig .tc := ⟨.hbm, 136, rfl⟩
abbrev main_cst_13 : Ref sig .tc := ⟨.hbm, 137, rfl⟩
abbrev main_v48 : Ref sig .tc := ⟨.hbm, 138, rfl⟩
abbrev main_cst_14 : Ref sig .tc := ⟨.hbm, 139, rfl⟩
abbrev main_v49 : Ref sig .tc := ⟨.hbm, 140, rfl⟩
abbrev main_v50 : Ref sig .tc := ⟨.hbm, 141, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  reducesTo_S2048x32000_S2048_d1 : S2048x32000.ReducesTo [1] S2048
  h_S_ : 0 < S_.numel
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  bcast_S_S2048x32000 : S_.BroadcastsInDim S2048x32000 (![] : Fin 0 → Fin S2048x32000.rank)
  dot_S2048x2048_S32000x2048_S2048x32000_1_1_0_0_n_n_wf : DotDims.WF S2048x2048 S32000x2048 S2048x32000 [1] [1] [0] [0] [] []
  dot_S2048x4096_S32000x4096_S2048x32000_1_1_0_0_n_n_wf : DotDims.WF S2048x4096 S32000x4096 S2048x32000 [1] [1] [0] [0] [] []
  gather_S2048x32000_S2048x1x1_S2048x1_n_1_0_0_1_2_11_wf : GatherDims.WF S2048x32000 S2048x1x1 S2048x1 [] [1] [0] [1] [0] 2 ![1, 1]

variable [Facts₀]

def dot_S2048x2048_S32000x2048_S2048x32000_1_1_0_0_n_n : DotDims S2048x2048 S32000x2048 S2048x32000 where
  lhsContracting := [1]
  rhsContracting := [1]
  lhsNonContracting := [0]
  rhsNonContracting := [0]
  lhsBatch := []
  rhsBatch := []
  wf := dot_S2048x2048_S32000x2048_S2048x32000_1_1_0_0_n_n_wf
def dot_S2048x4096_S32000x4096_S2048x32000_1_1_0_0_n_n : DotDims S2048x4096 S32000x4096 S2048x32000 where
  lhsContracting := [1]
  rhsContracting := [1]
  lhsNonContracting := [0]
  rhsNonContracting := [0]
  lhsBatch := []
  rhsBatch := []
  wf := dot_S2048x4096_S32000x4096_S2048x32000_1_1_0_0_n_n_wf
def gather_S2048x32000_S2048x1x1_S2048x1_n_1_0_0_1_2_11 : GatherDims S2048x32000 S2048x1x1 S2048x1 where
  offsetDims := []
  collapsedSliceDims := [1]
  operandBatchingDims := [0]
  startIndicesBatchingDims := [0]
  startIndexMap := [1]
  indexVectorDim := 2
  sliceSizes := ![1, 1]
  wf := gather_S2048x32000_S2048x1x1_S2048x1_n_1_0_0_1_2_11_wf

class Facts : Prop extends Facts₀ where

variable [Facts]
-- ==== Proof.RefRun.lean ====
/-
  The reference program's run, read back.

  @main of the reference is a straight line of 137 host operations (the operations of the functions it calls standing in
  the calls' places).  `run`: from any memory, every weakly fair execution terminates with the result buffer at the
  operations' composed term of the argument arrays, and the arguments unchanged.

  The program spells a called function's operations through typed references, whose contents are transported along
  the equation "this buffer's type is the value's type"; those equations hold by computation, so each such operation is
  the plain operation at the buffers (`opsT_eq`, entry by entry).  For the three row maxima of the log-softmax calls the
  equality is taken from `binary_of_typed`, which treats the operation's function as a variable: comparing the two
  spellings directly would open the maximum over a row's 32000 entries instead of the transport.
-/
import proofs.«417773_j10737418240013_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 137 operations, in order, as the program spells them: a called function's operations stand in its call's
    place, each through the typed references of the call (its contents transported along the buffers' type equations). -/
abbrev opsT : List (HloOp τ sig (Elt F)) :=
  [ binary main_arg0 main_arg1 main_v0 ((fun l r => Host.dotGeneral dot_S2048x2048_S32000x2048_S2048x32000_1_1_0_0_n_n none l r) : (⟨S2048x2048, .f32⟩ : BufTy).Contents (Elt F) → (⟨S32000x2048, .f32⟩ : BufTy).Contents (Elt F) → (⟨S2048x32000, .f32⟩ : BufTy).Contents (Elt F)),
    binary main_arg2 main_arg3 main_v1 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    nullary main_c (constantI S_ 32 4294967196#32),
    unary main_c main_v2 (broadcastInDim S2048 ![] bcast_S_S2048 : (⟨S_, .i32⟩ : BufTy).Contents (Elt F) → (⟨S2048, .i32⟩ : BufTy).Contents (Elt F)),
    binary main_arg4 main_v2 main_v3 (cmpi .ne : (⟨S2048, .i32⟩ : BufTy).Contents (Elt F) → (⟨S2048, .i32⟩ : BufTy).Contents (Elt F) → (⟨S2048, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S2048, .i32⟩) main_call0_v1) (broadcastInDim S2048 ![] bcast_S_S2048),
    TRef.ternary (TRef.of (T := ⟨S2048, .i1⟩) main_v3) (TRef.of (T := ⟨S2048, .i32⟩) main_arg4) (TRef.of (T := ⟨S2048, .i32⟩) main_call0_v1) (TRef.of (T := ⟨S2048, .i32⟩) main_v4) select,
    TRef.nullary (TRef.of (T := ⟨S_, .f32⟩) main_call1_cst) (constant S_ .f32 0xFF800000#32),
    TRef.binary (TRef.of (T := ⟨S2048x32000, .f32⟩) main_v0) (TRef.of (T := ⟨S_, .f32⟩) main_call1_cst) (TRef.of (T := ⟨S2048, .f32⟩) main_call1_v0) (fun x v => Host.reduce FloatOps.maximumf x v reducesTo_S2048x32000_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x32000, .f32⟩) main_call1_v4) (broadcastInDim S2048x32000 ![0, 1] bcast_S2048x1_S2048x32000_0_1),
    TRef.binary (TRef.of (T := ⟨S2048x32000, .f32⟩) main_v0) (TRef.of (T := ⟨S2048x32000, .f32⟩) main_call1_v4) (TRef.of (T := ⟨S2048x32000, .f32⟩) main_call1_v5) subf,
    TRef.unary (TRef.of (T := ⟨S2048x32000, .f32⟩) main_call1_v5) (TRef.of (T := ⟨S2048x32000, .f32⟩) main_call1_v6) Host.exp,
    TRef.nullary (TRef.of (T := ⟨S_, .f32⟩) main_call1_cst_1) (constant S_ .f32 0x00000000#32),
    TRef.binary (TRef.of (T := ⟨S2048x32000, .f32⟩) main_call1_v6) (TRef.of (T := ⟨S_, .f32⟩) main_call1_cst_1) (TRef.of (T := ⟨S2048, .f32⟩) main_call1_v7) (fun x v => Host.reduceAdd x v reducesTo_S2048x32000_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x32000, .f32⟩) main_call1_v10) (broadcastInDim S2048x32000 ![0, 1] bcast_S2048x1_S2048x32000_0_1),
    TRef.binary (TRef.of (T := ⟨S2048x32000, .f32⟩) main_call1_v5) (TRef.of (T := ⟨S2048x32000, .f32⟩) main_call1_v10) (TRef.of (T := ⟨S2048x32000, .f32⟩) main_v5) subf,
    unary main_v4 main_v6 (broadcastInDim S2048x1 ![0] bcast_S2048_S2048x1_0 : (⟨S2048, .i32⟩ : BufTy).Contents (Elt F) → (⟨S2048x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S2048x1, .i32⟩) main_call2_v0) (broadcastInDim S2048x1 ![] bcast_S_S2048x1),
    TRef.binary (TRef.of (T := ⟨S2048x1, .i32⟩) main_v6) (TRef.of (T := ⟨S2048x1, .i32⟩) main_call2_v0) (TRef.of (T := ⟨S2048x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S2048x1, .i32⟩) main_call2_v2) (broadcastInDim S2048x1 ![] bcast_S_S2048x1),
    TRef.binary (TRef.of (T := ⟨S2048x1, .i32⟩) main_v6) (TRef.of (T := ⟨S2048x1, .i32⟩) main_call2_v2) (TRef.of (T := ⟨S2048x1, .i32⟩) main_call2_v3) addi,
    TRef.ternary (TRef.of (T := ⟨S2048x1, .i1⟩) main_call2_v1) (TRef.of (T := ⟨S2048x1, .i32⟩) main_call2_v3) (TRef.of (T := ⟨S2048x1, .i32⟩) main_v6) (TRef.of (T := ⟨S2048x1, .i32⟩) main_call2_v4) select,
    TRef.reshape (TRef.of (T := ⟨S2048x1, .i32⟩) main_call2_v4) (TRef.of (T := ⟨S2048x1x1, .i32⟩) main_call2_v5) rfl shapeCasts_S2048x1_S2048x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S2048x1x1, .i32⟩) main_call2_v6) (broadcastInDim S2048x1x1 ![] bcast_S_S2048x1x1),
    TRef.binary (TRef.of (T := ⟨S2048x1x1, .i32⟩) main_call2_v5) (TRef.of (T := ⟨S2048x1x1, .i32⟩) main_call2_v6) (TRef.of (T := ⟨S2048x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S2048x1x1, .i32⟩) main_call2_v9) (broadcastInDim S2048x1x1 ![0, 1, 2] bcast_S1x1x1_S2048x1x1_0_1_2),
    TRef.binary (TRef.of (T := ⟨S2048x1x1, .i32⟩) main_call2_v5) (TRef.of (T := ⟨S2048x1x1, .i32⟩) main_call2_v9) (TRef.of (T := ⟨S2048x1x1, .i1⟩) main_call2_v10) (cmpi .sle),
    TRef.binary (TRef.of (T := ⟨S2048x1x1, .i1⟩) main_call2_v7) (TRef.of (T := ⟨S2048x1x1, .i1⟩) main_call2_v10) (TRef.of (T := ⟨S2048x1x1, .i1⟩) main_call2_v11) andi,
    TRef.nullary (TRef.of (T := ⟨S_, .i1⟩) main_call2_c_3) (constantI S_ 1 1#1),
    TRef.binary (TRef.of (T := ⟨S2048x1x1, .i1⟩) main_call2_v11) (TRef.of (T := ⟨S_, .i1⟩) main_call2_c_3) (TRef.of (T := ⟨S2048x1, .i1⟩) main_call2_v12) (fun x v => Host.reduce IntOp.andi x v reducesTo_S2048x1x1_S2048x1_d2 h_S_),
    TRef.binary (TRef.of (T := ⟨S2048x32000, .f32⟩) main_v5) (TRef.of (T := ⟨S2048x1x1, .i32⟩) main_call2_v5) (TRef.of (T := ⟨S2048x1, .f32⟩) main_call2_v13) (fun x i => Host.gather gather_S2048x32000_S2048x1x1_S2048x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S2048x1, .f32⟩) main_call2_v14) (broadcastInDim S2048x1 ![] bcast_S_S2048x1),
    TRef.ternary (TRef.of (T := ⟨S2048x1, .i1⟩) main_call2_v12) (TRef.of (T := ⟨S2048x1, .f32⟩) main_call2_v13) (TRef.of (T := ⟨S2048x1, .f32⟩) main_call2_v14) (TRef.of (T := ⟨S2048x1, .f32⟩) main_v7) select,
    reshape main_v7 main_v8 rfl shapeCasts_S2048x1_S2048,
    unary main_v8 main_v9 (Host.negf : (⟨S2048, .f32⟩ : BufTy).Contents (Elt F) → (⟨S2048, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S2048, .f32⟩) main_call3_v1) (broadcastInDim S2048 ![] bcast_S_S2048),
    TRef.ternary (TRef.of (T := ⟨S2048, .i1⟩) main_v3) (TRef.of (T := ⟨S2048, .f32⟩) main_v9) (TRef.of (T := ⟨S2048, .f32⟩) main_call3_v1) (TRef.of (T := ⟨S2048, .f32⟩) main_v10) select,
    nullary main_cst_1 (constant S_ .f32 0x00000000#32),
    binary main_v10 main_cst_1 main_v11 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_2 (constant S_ .f32 0x45000000#32),
    binary main_v11 main_cst_2 main_v12 (Host.divf : (⟨S_, .f32⟩ : BufTy).Contents (Elt F) → (⟨S_, .f32⟩ : BufTy).Contents (Elt F) → (⟨S_, .f32⟩ : BufTy).Contents (Elt F)),
    nullary main_cst_3 (constant S_ .f32 0x3F800000#32),
    unary main_cst_3 main_v13 (broadcastInDim S2048x32000 ![] bcast_S_S2048x32000 : (⟨S_, .f32⟩ : BufTy).Contents (Elt F) → (⟨S2048x32000, .f32⟩ : BufTy).Contents (Elt F)),
    binary main_v0 main_v13 main_v14 (Host.divf : (⟨S2048x32000, .f32⟩ : BufTy).Contents (Elt F) → (⟨S2048x32000, .f32⟩ : BufTy).Contents (Elt F) → (⟨S2048x32000, .f32⟩ : BufTy).Contents (Elt F)),
    TRef.nullary (TRef.of (T := ⟨S_, .f32⟩) main_call4_cst) (constant S_ .f32 0xFF800000#32),
    TRef.binary (TRef.of (T := ⟨S2048x32000, .f32⟩) main_v14) (TRef.of (T := ⟨S_, .f32⟩) main_call4_cst) (TRef.of (T := ⟨S2048, .f32⟩) main_call4_v0) (fun x v => Host.reduce FloatOps.maximumf x v reducesTo_S2048x32000_S2048_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S2048, .f32⟩) main_call4_v1) (broadcastInDim S2048 ![] bcast_S_S2048),
    TRef.binary (TRef.of (T := ⟨S2048, .f32⟩) main_call4_v1) (TRef.of (T := ⟨S2048, .f32⟩) main_call4_v0) (TRef.of (T := ⟨S2048, .f32⟩) main_call4_v2) maximumf,
    TRef.unary (TRef.of (T := ⟨S2048, .f32⟩) main_call4_v2) (TRef.of (T := ⟨S2048x1, .f32⟩) main_call4_v3) (broadcastInDim S2048x1 ![0] bcast_S2048_S2048x1_0),
    TRef.unary (TRef.of (T := ⟨S2048x1, .f32⟩) main_call4_v3) (TRef.of (T := ⟨S2048x32000, .f32⟩) main_call4_v4) (broadcastInDim S2048x32000 ![0, 1] bcast_S2048x1_S2048x32000_0_1),
    TRef.binary (TRef.of (T := ⟨S2048x32000, .f32⟩) main_v14) (TRef.of (T := ⟨S2048x32000, .f32⟩) main_call4_v4) (TRef.of (T := ⟨S2048x32000, .f32⟩) main_call4_v5) subf,
    TRef.unary (TRef.of (T := ⟨S2048x32000, .f32⟩) main_call4_v5) (TRef.of (T := ⟨S2048x32000, .f32⟩) main_call4_v6) Host.exp,
    TRef.nullary (TRef.of (T := ⟨S_, .f32⟩) main_call4_cst_1) (constant S_ .f32 0x00000000#32),
    TRef.binary (TRef.of (T := ⟨S2048x32000, .f32⟩) main_call4_v6) (TRef.of (T := ⟨S_, .f32⟩) main_call4_cst_1) (TRef.of (T := ⟨S2048, .f32⟩) main_call4_v7) (fun x v => Host.reduceAdd x v reducesTo_S2048x32000_S2048_d1 h_S_),
    TRef.unary (TRef.of (T := ⟨S2048, .f32⟩) main_call4_v7) (TRef.of (T := ⟨S2048x1, .f32⟩) main_call4_v8) (broadcastInDim S2048x1 ![0] bcast_S2048_S2048x1_0),
    TRef.unary (TRef.of (T := ⟨S2048x1, .f32⟩) main_call4_v8) (TRef.of (T := ⟨S2048x1, .f32⟩) main_call4_v9) Host.log,
    TRef.unary (TRef.of (T := ⟨S2048x1, .f32⟩) main_call4_v9) (TRef.of (T := ⟨S2048x32000, .f32⟩) main_call4_v10) (broadcastInDim S2048x32000 ![0, 1] bcast_S2048x1_S2048x32000_0_1),
    TRef.binary (TRef.of (T := ⟨S2048x32000, .f32⟩) main_call4_v5) (TRef.of (T := ⟨S2048x32000, .f32⟩) main_call4_v10) (TRef.of (T := ⟨S2048x32000, .f32⟩) main_v15) subf,
    nullary main_cst_4 (constant S_ .f32 0x3F800000#32),
    unary main_cst_4 main_v16 (broadcastInDim S2048x32000 ![] bcast_S_S2048x32000 : (⟨S_, .f32⟩ : BufTy).Contents (Elt F) → (⟨S2048x32000, .f32⟩ : BufTy).Contents (Elt F)),
    binary main_v1 main_v16 main_v17 (Host.divf : (⟨S2048x32000, .f32⟩ : BufTy).Contents (Elt F) → (⟨S2048x32000, .f32⟩ : BufTy).Contents (Elt F) → (⟨S2048x32000, .f32⟩ : BufTy).Contents (Elt F)),
    TRef.nullary (TRef.of (T := ⟨S_, .f32⟩) main_call5_cst) (constant S_ .f32 0xFF800000#32),
    TRef.binary (TRef.of (T := ⟨S2048x32000, .f32⟩) main_v17) (TRef.of (T := ⟨S_, .f32⟩) main_call5_cst) (TRef.of (T := ⟨S2048, .f32⟩) main_call5_v0) (fun x v => Host.reduce FloatOps.maximumf x v reducesTo_S2048x32000_S2048_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S2048, .f32⟩) main_call5_v1) (broadcastInDim S2048 ![] bcast_S_S2048),
    TRef.binary (TRef.of (T := ⟨S2048, .f32⟩) main_call5_v1) (TRef.of (T := ⟨S2048, .f32⟩) main_call5_v0) (TRef.of (T := ⟨S2048, .f32⟩) main_call5_v2) maximumf,
    TRef.unary (TRef.of (T := ⟨S2048, .f32⟩) main_call5_v2) (TRef.of (T := ⟨S2048x1, .f32⟩) main_call5_v3) (broadcastInDim S2048x1 ![0] bcast_S2048_S2048x1_0),
    TRef.unary (TRef.of (T := ⟨S2048x1, .f32⟩) main_call5_v3) (TRef.of (T := ⟨S2048x32000, .f32⟩) main_call5_v4) (broadcastInDim S2048x32000 ![0, 1] bcast_S2048x1_S2048x32000_0_1),
    TRef.binary (TRef.of (T := ⟨S2048x32000, .f32⟩) main_v17) (TRef.of (T := ⟨S2048x32000, .f32⟩) main_call5_v4) (TRef.of (T := ⟨S2048x32000, .f32⟩) main_call5_v5) subf,
    TRef.unary (TRef.of (T := ⟨S2048x32000, .f32⟩) main_call5_v5) (TRef.of (T := ⟨S2048x32000, .f32⟩) main_call5_v6) Host.exp,
    TRef.nullary (TRef.of (T := ⟨S_, .f32⟩) main_call5_cst_1) (constant S_ .f32 0x00000000#32),
    TRef.binary (TRef.of (T := ⟨S2048x32000, .f32⟩) main_call5_v6) (TRef.of (T := ⟨S_, .f32⟩) main_call5_cst_1) (TRef.of (T := ⟨S2048, .f32⟩) main_call5_v7) (fun x v => Host.reduceAdd x v reducesTo_S2048x32000_S2048_d1 h_S_),
    TRef.unary (TRef.of (T := ⟨S2048, .f32⟩) main_call5_v7) (TRef.of (T := ⟨S2048x1, .f32⟩) main_call5_v8) (broadcastInDim S2048x1 ![0] bcast_S2048_S2048x1_0),
    TRef.unary (TRef.of (T := ⟨S2048x1, .f32⟩) main_call5_v8) (TRef.of (T := ⟨S2048x1, .f32⟩) main_call5_v9) Host.log,
    TRef.unary (TRef.of (T := ⟨S2048x1, .f32⟩) main_call5_v9) (TRef.of (T := ⟨S2048x32000, .f32⟩) main_call5_v10) (broadcastInDim S2048x32000 ![0, 1] bcast_S2048x1_S2048x32000_0_1),
    TRef.binary (TRef.of (T := ⟨S2048x32000, .f32⟩) main_call5_v5) (TRef.of (T := ⟨S2048x32000, .f32⟩) main_call5_v10) (TRef.of (T := ⟨S2048x32000, .f32⟩) main_v18) subf,
    nullary main_cst_5 (constant S_ .f32 0xBF317218#32),
    unary main_cst_5 main_v19 (broadcastInDim S2048x32000 ![] bcast_S_S2048x32000 : (⟨S_, .f32⟩ : BufTy).Contents (Elt F) → (⟨S2048x32000, .f32⟩ : BufTy).Contents (Elt F)),
    binary main_v15 main_v19 main_v20 (addf : (⟨S2048x32000, .f32⟩ : BufTy).Contents (Elt F) → (⟨S2048x32000, .f32⟩ : BufTy).Contents (Elt F) → (⟨S2048x32000, .f32⟩ : BufTy).Contents (Elt F)),
    nullary main_cst_6 (constant S_ .f32 0xBF317218#32),
    unary main_cst_6 main_v21 (broadcastInDim S2048x32000 ![] bcast_S_S2048x32000 : (⟨S_, .f32⟩ : BufTy).Contents (Elt F) → (⟨S2048x32000, .f32⟩ : BufTy).Contents (Elt F)),
    binary main_v18 main_v21 main_v22 (addf : (⟨S2048x32000, .f32⟩ : BufTy).Contents (Elt F) → (⟨S2048x32000, .f32⟩ : BufTy).Contents (Elt F) → (⟨S2048x32000, .f32⟩ : BufTy).Contents (Elt F)),
    binary main_v20 main_v22 main_v23 (maximumf : (⟨S2048x32000, .f32⟩ : BufTy).Contents (Elt F) → (⟨S2048x32000, .f32⟩ : BufTy).Contents (Elt F) → (⟨S2048x32000, .f32⟩ : BufTy).Contents (Elt F)),
    binary main_v20 main_v22 main_v24 (subf : (⟨S2048x32000, .f32⟩ : BufTy).Contents (Elt F) → (⟨S2048x32000, .f32⟩ : BufTy).Contents (Elt F) → (⟨S2048x32000, .f32⟩ : BufTy).Contents (Elt F)),
    binary main_v24 main_v24 main_v25 (cmpf .une : (⟨S2048x32000, .f32⟩ : BufTy).Contents (Elt F) → (⟨S2048x32000, .f32⟩ : BufTy).Contents (Elt F) → (⟨S2048x32000, .i1⟩ : BufTy).Contents (Elt F)),
    binary main_v20 main_v22 main_v26 (addf : (⟨S2048x32000, .f32⟩ : BufTy).Contents (Elt F) → (⟨S2048x32000, .f32⟩ : BufTy).Contents (Elt F) → (⟨S2048x32000, .f32⟩ : BufTy).Contents (Elt F)),
    unary main_v24 main_v27 (Host.absf : (⟨S2048x32000, .f32⟩ : BufTy).Contents (Elt F) → (⟨S2048x32000, .f32⟩ : BufTy).Contents (Elt F)),
    unary main_v27 main_v28 (Host.negf : (⟨S2048x32000, .f32⟩ : BufTy).Contents (Elt F) → (⟨S2048x32000, .f32⟩ : BufTy).Contents (Elt F)),
    unary main_v28 main_v29 (Host.exp : (⟨S2048x32000, .f32⟩ : BufTy).Contents (Elt F) → (⟨S2048x32000, .f32⟩ : BufTy).Contents (Elt F)),
    unary main_v29 main_v30 (Host.log1p : (⟨S2048x32000, .f32⟩ : BufTy).Contents (Elt F) → (⟨S2048x32000, .f32⟩ : BufTy).Contents (Elt F)),
    binary main_v23 main_v30 main_v31 (addf : (⟨S2048x32000, .f32⟩ : BufTy).Contents (Elt F) → (⟨S2048x32000, .f32⟩ : BufTy).Contents (Elt F) → (⟨S2048x32000, .f32⟩ : BufTy).Contents (Elt F)),
    ternary main_v25 main_v26 main_v31 main_v32 (select : (⟨S2048x32000, .i1⟩ : BufTy).Contents (Elt F) → (⟨S2048x32000, .f32⟩ : BufTy).Contents (Elt F) → (⟨S2048x32000, .f32⟩ : BufTy).Contents (Elt F) → (⟨S2048x32000, .f32⟩ : BufTy).Contents (Elt F)),
    unary main_v15 main_v33 (Host.exp : (⟨S2048x32000, .f32⟩ : BufTy).Contents (Elt F) → (⟨S2048x32000, .f32⟩ : BufTy).Contents (Elt F)),
    binary main_v15 main_v32 main_v34 (subf : (⟨S2048x32000, .f32⟩ : BufTy).Contents (Elt F) → (⟨S2048x32000, .f32⟩ : BufTy).Contents (Elt F) → (⟨S2048x32000, .f32⟩ : BufTy).Contents (Elt F)),
    binary main_v33 main_v34 main_v35 (mulf : (⟨S2048x32000, .f32⟩ : BufTy).Contents (Elt F) → (⟨S2048x32000, .f32⟩ : BufTy).Contents (Elt F) → (⟨S2048x32000, .f32⟩ : BufTy).Contents (Elt F)),
    unary main_v18 main_v36 (Host.exp : (⟨S2048x32000, .f32⟩ : BufTy).Contents (Elt F) → (⟨S2048x32000, .f32⟩ : BufTy).Contents (Elt F)),
    binary main_v18 main_v32 main_v37 (subf : (⟨S2048x32000, .f32⟩ : BufTy).Contents (Elt F) → (⟨S2048x32000, .f32⟩ : BufTy).Contents (Elt F) → (⟨S2048x32000, .f32⟩ : BufTy).Contents (Elt F)),
    binary main_v36 main_v37 main_v38 (mulf : (⟨S2048x32000, .f32⟩ : BufTy).Contents (Elt F) → (⟨S2048x32000, .f32⟩ : BufTy).Contents (Elt F) → (⟨S2048x32000, .f32⟩ : BufTy).Contents (Elt F)),
    nullary main_cst_7 (constant S_ .f32 0x3F000000#32),
    unary main_cst_7 main_v39 (broadcastInDim S2048x32000 ![] bcast_S_S2048x32000 : (⟨S_, .f32⟩ : BufTy).Contents (Elt F) → (⟨S2048x32000, .f32⟩ : BufTy).Contents (Elt F)),
    binary main_v39 main_v38 main_v40 (mulf : (⟨S2048x32000, .f32⟩ : BufTy).Contents (Elt F) → (⟨S2048x32000, .f32⟩ : BufTy).Contents (Elt F) → (⟨S2048x32000, .f32⟩ : BufTy).Contents (Elt F)),
    nullary main_cst_8 (constant S_ .f32 0x3F000000#32),
    unary main_cst_8 main_v41 (broadcastInDim S2048x32000 ![] bcast_S_S2048x32000 : (⟨S_, .f32⟩ : BufTy).Contents (Elt F) → (⟨S2048x32000, .f32⟩ : BufTy).Contents (Elt F)),
    binary main_v41 main_v35 main_v42 (mulf : (⟨S2048x32000, .f32⟩ : BufTy).Contents (Elt F) → (⟨S2048x32000, .f32⟩ : BufTy).Contents (Elt F) → (⟨S2048x32000, .f32⟩ : BufTy).Contents (Elt F)),
    binary main_v40 main_v42 main_v43 (addf : (⟨S2048x32000, .f32⟩ : BufTy).Contents (Elt F) → (⟨S2048x32000, .f32⟩ : BufTy).Contents (Elt F) → (⟨S2048x32000, .f32⟩ : BufTy).Contents (Elt F)),
    nullary main_cst_9 (constant S_ .f32 0x00000000#32),
    binary main_v43 main_cst_9 main_v44 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_cst_10 (constant S_ .f32 0x00000000#32),
    TRef.unary (TRef.of (T := ⟨S_, .f32⟩) main_cst_10) (TRef.of (T := ⟨S_, .f32⟩) main_call6_v0) id,
    TRef.unary (TRef.of (T := ⟨S_, .f32⟩) main_call6_v0) (TRef.of (T := ⟨S2048, .f32⟩) main_call6_v1) (broadcastInDim S2048 ![] bcast_S_S2048),
    TRef.ternary (TRef.of (T := ⟨S2048, .i1⟩) main_v3) (TRef.of (T := ⟨S2048, .f32⟩) main_v44) (TRef.of (T := ⟨S2048, .f32⟩) main_call6_v1) (TRef.of (T := ⟨S2048, .f32⟩) main_v45) select,
    nullary main_cst_11 (constant S_ .f32 0x00000000#32),
    binary main_v45 main_cst_11 main_v46 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_12 (constant S_ .f32 0x45000000#32),
    binary main_v46 main_cst_12 main_v47 (Host.divf : (⟨S_, .f32⟩ : BufTy).Contents (Elt F) → (⟨S_, .f32⟩ : BufTy).Contents (Elt F) → (⟨S_, .f32⟩ : BufTy).Contents (Elt F)),
    nullary main_cst_13 (constant S_ .f32 0x3F000000#32),
    binary main_cst_13 main_v12 main_v48 (mulf : (⟨S_, .f32⟩ : BufTy).Contents (Elt F) → (⟨S_, .f32⟩ : BufTy).Contents (Elt F) → (⟨S_, .f32⟩ : BufTy).Contents (Elt F)),
    nullary main_cst_14 (constant S_ .f32 0x3F000000#32),
    binary main_cst_14 main_v47 main_v49 (mulf : (⟨S_, .f32⟩ : BufTy).Contents (Elt F) → (⟨S_, .f32⟩ : BufTy).Contents (Elt F) → (⟨S_, .f32⟩ : BufTy).Contents (Elt F)),
    binary main_v48 main_v49 main_v50 (addf : (⟨S_, .f32⟩ : BufTy).Contents (Elt F) → (⟨S_, .f32⟩ : BufTy).Contents (Elt F) → (⟨S_, .f32⟩ : BufTy).Contents (Elt F)) ]

/-- The same 137 operations with every buffer named directly: an operation through typed references is the operation
    at the references' buffers, the transports being along equations that hold by computation. -/
abbrev ops : List (HloOp τ sig (Elt F)) :=
  [ binary main_arg0 main_arg1 main_v0 ((fun l r => Host.dotGeneral dot_S2048x2048_S32000x2048_S2048x32000_1_1_0_0_n_n none l r) : (⟨S2048x2048, .f32⟩ : BufTy).Contents (Elt F) → (⟨S32000x2048, .f32⟩ : BufTy).Contents (Elt F) → (⟨S2048x32000, .f32⟩ : BufTy).Contents (Elt F)),
    binary main_arg2 main_arg3 main_v1 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    nullary main_c (constantI S_ 32 4294967196#32),
    unary main_c main_v2 (broadcastInDim S2048 ![] bcast_S_S2048 : (⟨S_, .i32⟩ : BufTy).Contents (Elt F) → (⟨S2048, .i32⟩ : BufTy).Contents (Elt F)),
    binary main_arg4 main_v2 main_v3 (cmpi .ne : (⟨S2048, .i32⟩ : BufTy).Contents (Elt F) → (⟨S2048, .i32⟩ : BufTy).Contents (Elt F) → (⟨S2048, .i1⟩ : BufTy).Contents (Elt F)),
    nullary main_c_0 (constantI S_ 32 0#32),
    unary main_c_0 main_call0_v0 (id : (⟨S_, .i32⟩ : BufTy).Contents (Elt F) → (⟨S_, .i32⟩ : BufTy).Contents (Elt F)),
    unary main_call0_v0 main_call0_v1 (broadcastInDim S2048 ![] bcast_S_S2048 : (⟨S_, .i32⟩ : BufTy).Contents (Elt F) → (⟨S2048, .i32⟩ : BufTy).Contents (Elt F)),
    ternary main_v3 main_arg4 main_call0_v1 main_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_call1_cst (constant S_ .f32 0xFF800000#32),
    binary main_v0 main_call1_cst main_call1_v0 ((fun x v => Host.reduce FloatOps.maximumf x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_call1_cst_0 (constant S_ .f32 0xFF800000#32),
    unary main_call1_cst_0 main_call1_v1 (broadcastInDim S2048 ![] bcast_S_S2048 : (⟨S_, .f32⟩ : BufTy).Contents (Elt F) → (⟨S2048, .f32⟩ : BufTy).Contents (Elt F)),
    binary main_call1_v1 main_call1_v0 main_call1_v2 (maximumf : (⟨S2048, .f32⟩ : BufTy).Contents (Elt F) → (⟨S2048, .f32⟩ : BufTy).Contents (Elt F) → (⟨S2048, .f32⟩ : BufTy).Contents (Elt F)),
    unary main_call1_v2 main_call1_v3 (broadcastInDim S2048x1 ![0] bcast_S2048_S2048x1_0 : (⟨S2048, .f32⟩ : BufTy).Contents (Elt F) → (⟨S2048x1, .f32⟩ : BufTy).Contents (Elt F)),
    unary main_call1_v3 main_call1_v4 (broadcastInDim S2048x32000 ![0, 1] bcast_S2048x1_S2048x32000_0_1 : (⟨S2048x1, .f32⟩ : BufTy).Contents (Elt F) → (⟨S2048x32000, .f32⟩ : BufTy).Contents (Elt F)),
    binary main_v0 main_call1_v4 main_call1_v5 (subf : (⟨S2048x32000, .f32⟩ : BufTy).Contents (Elt F) → (⟨S2048x32000, .f32⟩ : BufTy).Contents (Elt F) → (⟨S2048x32000, .f32⟩ : BufTy).Contents (Elt F)),
    unary main_call1_v5 main_call1_v6 (Host.exp : (⟨S2048x32000, .f32⟩ : BufTy).Contents (Elt F) → (⟨S2048x32000, .f32⟩ : BufTy).Contents (Elt F)),
    nullary main_call1_cst_1 (constant S_ .f32 0x00000000#32),
    binary main_call1_v6 main_call1_cst_1 main_call1_v7 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    unary main_call1_v7 main_call1_v8 (broadcastInDim S2048x1 ![0] bcast_S2048_S2048x1_0 : (⟨S2048, .f32⟩ : BufTy).Contents (Elt F) → (⟨S2048x1, .f32⟩ : BufTy).Contents (Elt F)),
    unary main_call1_v8 main_call1_v9 (Host.log : (⟨S2048x1, .f32⟩ : BufTy).Contents (Elt F) → (⟨S2048x1, .f32⟩ : BufTy).Contents (Elt F)),
    unary main_call1_v9 main_call1_v10 (broadcastInDim S2048x32000 ![0, 1] bcast_S2048x1_S2048x32000_0_1 : (⟨S2048x1, .f32⟩ : BufTy).Contents (Elt F) → (⟨S2048x32000, .f32⟩ : BufTy).Contents (Elt F)),
    binary main_call1_v5 main_call1_v10 main_v5 (subf : (⟨S2048x32000, .f32⟩ : BufTy).Contents (Elt F) → (⟨S2048x32000, .f32⟩ : BufTy).Contents (Elt F) → (⟨S2048x32000, .f32⟩ : BufTy).Contents (Elt F)),
    unary main_v4 main_v6 (broadcastInDim S2048x1 ![0] bcast_S2048_S2048x1_0 : (⟨S2048, .i32⟩ : BufTy).Contents (Elt F) → (⟨S2048x1, .i32⟩ : BufTy).Contents (Elt F)),
    nullary main_call2_c (constantI S_ 32 0#32),
    unary main_call2_c main_call2_v0 (broadcastInDim S2048x1 ![] bcast_S_S2048x1 : (⟨S_, .i32⟩ : BufTy).Contents (Elt F) → (⟨S2048x1, .i32⟩ : BufTy).Contents (Elt F)),
    binary main_v6 main_call2_v0 main_call2_v1 (cmpi .slt : (⟨S2048x1, .i32⟩ : BufTy).Contents (Elt F) → (⟨S2048x1, .i32⟩ : BufTy).Contents (Elt F) → (⟨S2048x1, .i1⟩ : BufTy).Contents (Elt F)),
    nullary main_call2_c_0 (constantI S_ 32 32000#32),
    unary main_call2_c_0 main_call2_v2 (broadcastInDim S2048x1 ![] bcast_S_S2048x1 : (⟨S_, .i32⟩ : BufTy).Contents (Elt F) → (⟨S2048x1, .i32⟩ : BufTy).Contents (Elt F)),
    binary main_v6 main_call2_v2 main_call2_v3 (addi : (⟨S2048x1, .i32⟩ : BufTy).Contents (Elt F) → (⟨S2048x1, .i32⟩ : BufTy).Contents (Elt F) → (⟨S2048x1, .i32⟩ : BufTy).Contents (Elt F)),
    ternary main_call2_v1 main_call2_v3 main_v6 main_call2_v4 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    reshape main_call2_v4 main_call2_v5 rfl shapeCasts_S2048x1_S2048x1x1,
    nullary main_call2_c_1 (constantI S1 32 31999#32),
    nullary main_call2_c_2 (constantI S_ 32 0#32),
    unary main_call2_c_2 main_call2_v6 (broadcastInDim S2048x1x1 ![] bcast_S_S2048x1x1 : (⟨S_, .i32⟩ : BufTy).Contents (Elt F) → (⟨S2048x1x1, .i32⟩ : BufTy).Contents (Elt F)),
    binary main_call2_v5 main_call2_v6 main_call2_v7 (cmpi .sge : (⟨S2048x1x1, .i32⟩ : BufTy).Contents (Elt F) → (⟨S2048x1x1, .i32⟩ : BufTy).Contents (Elt F) → (⟨S2048x1x1, .i1⟩ : BufTy).Contents (Elt F)),
    unary main_call2_c_1 main_call2_v8 (broadcastInDim S1x1x1 ![2] bcast_S1_S1x1x1_2 : (⟨S1, .i32⟩ : BufTy).Contents (Elt F) → (⟨S1x1x1, .i32⟩ : BufTy).Contents (Elt F)),
    unary main_call2_v8 main_call2_v9 (broadcastInDim S2048x1x1 ![0, 1, 2] bcast_S1x1x1_S2048x1x1_0_1_2 : (⟨S1x1x1, .i32⟩ : BufTy).Contents (Elt F) → (⟨S2048x1x1, .i32⟩ : BufTy).Contents (Elt F)),
    binary main_call2_v5 main_call2_v9 main_call2_v10 (cmpi .sle : (⟨S2048x1x1, .i32⟩ : BufTy).Contents (Elt F) → (⟨S2048x1x1, .i32⟩ : BufTy).Contents (Elt F) → (⟨S2048x1x1, .i1⟩ : BufTy).Contents (Elt F)),
    binary main_call2_v7 main_call2_v10 main_call2_v11 (andi : (⟨S2048x1x1, .i1⟩ : BufTy).Contents (Elt F) → (⟨S2048x1x1, .i1⟩ : BufTy).Contents (Elt F) → (⟨S2048x1x1, .i1⟩ : BufTy).Contents (Elt F)),
    nullary main_call2_c_3 (constantI S_ 1 1#1),
    binary main_call2_v11 main_call2_c_3 main_call2_v12 ((fun x v => Host.reduce IntOp.andi x v reducesTo_S2048x1x1_S2048x1_d2 h_S_) : (⟨S2048x1x1, .i1⟩ : BufTy).Contents (Elt F) → (⟨S_, .i1⟩ : BufTy).Contents (Elt F) → (⟨S2048x1, .i1⟩ : BufTy).Contents (Elt F)),
    binary main_v5 main_call2_v5 main_call2_v13 ((fun x i => Host.gather gather_S2048x32000_S2048x1x1_S2048x1_n_1_0_0_1_2_11 x i) : (⟨S2048x32000, .f32⟩ : BufTy).Contents (Elt F) → (⟨S2048x1x1, .i32⟩ : BufTy).Contents (Elt F) → (⟨S2048x1, .f32⟩ : BufTy).Contents (Elt F)),
    nullary main_call2_cst (constant S_ .f32 0x7FC00000#32),
    unary main_call2_cst main_call2_v14 (broadcastInDim S2048x1 ![] bcast_S_S2048x1 : (⟨S_, .f32⟩ : BufTy).Contents (Elt F) → (⟨S2048x1, .f32⟩ : BufTy).Contents (Elt F)),
    ternary main_call2_v12 main_call2_v13 main_call2_v14 main_v7 (select : (⟨S2048x1, .i1⟩ : BufTy).Contents (Elt F) → (⟨S2048x1, .f32⟩ : BufTy).Contents (Elt F) → (⟨S2048x1, .f32⟩ : BufTy).Contents (Elt F) → (⟨S2048x1, .f32⟩ : BufTy).Contents (Elt F)),
    reshape main_v7 main_v8 rfl shapeCasts_S2048x1_S2048,
    unary main_v8 main_v9 (Host.negf : (⟨S2048, .f32⟩ : BufTy).Contents (Elt F) → (⟨S2048, .f32⟩ : BufTy).Contents (Elt F)),
    nullary main_cst (constant S_ .f32 0x00000000#32),
    unary main_cst main_call3_v0 (id : (⟨S_, .f32⟩ : BufTy).Contents (Elt F) → (⟨S_, .f32⟩ : BufTy).Contents (Elt F)),
    unary main_call3_v0 main_call3_v1 (broadcastInDim S2048 ![] bcast_S_S2048 : (⟨S_, .f32⟩ : BufTy).Contents (Elt F) → (⟨S2048, .f32⟩ : BufTy).Contents (Elt F)),
    ternary main_v3 main_v9 main_call3_v1 main_v10 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)),
    nullary main_cst_1 (constant S_ .f32 0x00000000#32),
    binary main_v10 main_cst_1 main_v11 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_2 (constant S_ .f32 0x45000000#32),
    binary main_v11 main_cst_2 main_v12 (Host.divf : (⟨S_, .f32⟩ : BufTy).Contents (Elt F) → (⟨S_, .f32⟩ : BufTy).Contents (Elt F) → (⟨S_, .f32⟩ : BufTy).Contents (Elt F)),
    nullary main_cst_3 (constant S_ .f32 0x3F800000#32),
    unary main_cst_3 main_v13 (broadcastInDim S2048x32000 ![] bcast_S_S2048x32000 : (⟨S_, .f32⟩ : BufTy).Contents (Elt F) → (⟨S2048x32000, .f32⟩ : BufTy).Contents (Elt F)),
    binary main_v0 main_v13 main_v14 (Host.divf : (⟨S2048x32000, .f32⟩ : BufTy).Contents (Elt F) → (⟨S2048x32000, .f32⟩ : BufTy).Contents (Elt F) → (⟨S2048x32000, .f32⟩ : BufTy).Contents (Elt F)),
    nullary main_call4_cst (constant S_ .f32 0xFF800000#32),
    binary main_v14 main_call4_cst main_call4_v0 ((fun x v => Host.reduce FloatOps.maximumf x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_call4_cst_0 (constant S_ .f32 0xFF800000#32),
    unary main_call4_cst_0 main_call4_v1 (broadcastInDim S2048 ![] bcast_S_S2048 : (⟨S_, .f32⟩ : BufTy).Contents (Elt F) → (⟨S2048, .f32⟩ : BufTy).Contents (Elt F)),
    binary main_call4_v1 main_call4_v0 main_call4_v2 (maximumf : (⟨S2048, .f32⟩ : BufTy).Contents (Elt F) → (⟨S2048, .f32⟩ : BufTy).Contents (Elt F) → (⟨S2048, .f32⟩ : BufTy).Contents (Elt F)),
    unary main_call4_v2 main_call4_v3 (broadcastInDim S2048x1 ![0] bcast_S2048_S2048x1_0 : (⟨S2048, .f32⟩ : BufTy).Contents (Elt F) → (⟨S2048x1, .f32⟩ : BufTy).Contents (Elt F)),
    unary main_call4_v3 main_call4_v4 (broadcastInDim S2048x32000 ![0, 1] bcast_S2048x1_S2048x32000_0_1 : (⟨S2048x1, .f32⟩ : BufTy).Contents (Elt F) → (⟨S2048x32000, .f32⟩ : BufTy).Contents (Elt F)),
    binary main_v14 main_call4_v4 main_call4_v5 (subf : (⟨S2048x32000, .f32⟩ : BufTy).Contents (Elt F) → (⟨S2048x32000, .f32⟩ : BufTy).Contents (Elt F) → (⟨S2048x32000, .f32⟩ : BufTy).Contents (Elt F)),
    unary main_call4_v5 main_call4_v6 (Host.exp : (⟨S2048x32000, .f32⟩ : BufTy).Contents (Elt F) → (⟨S2048x32000, .f32⟩ : BufTy).Contents (Elt F)),
    nullary main_call4_cst_1 (constant S_ .f32 0x00000000#32),
    binary main_call4_v6 main_call4_cst_1 main_call4_v7 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    unary main_call4_v7 main_call4_v8 (broadcastInDim S2048x1 ![0] bcast_S2048_S2048x1_0 : (⟨S2048, .f32⟩ : BufTy).Contents (Elt F) → (⟨S2048x1, .f32⟩ : BufTy).Contents (Elt F)),
    unary main_call4_v8 main_call4_v9 (Host.log : (⟨S2048x1, .f32⟩ : BufTy).Contents (Elt F) → (⟨S2048x1, .f32⟩ : BufTy).Contents (Elt F)),
    unary main_call4_v9 main_call4_v10 (broadcastInDim S2048x32000 ![0, 1] bcast_S2048x1_S2048x32000_0_1 : (⟨S2048x1, .f32⟩ : BufTy).Contents (Elt F) → (⟨S2048x32000, .f32⟩ : BufTy).Contents (Elt F)),
    binary main_call4_v5 main_call4_v10 main_v15 (subf : (⟨S2048x32000, .f32⟩ : BufTy).Contents (Elt F) → (⟨S2048x32000, .f32⟩ : BufTy).Contents (Elt F) → (⟨S2048x32000, .f32⟩ : BufTy).Contents (Elt F)),
    nullary main_cst_4 (constant S_ .f32 0x3F800000#32),
    unary main_cst_4 main_v16 (broadcastInDim S2048x32000 ![] bcast_S_S2048x32000 : (⟨S_, .f32⟩ : BufTy).Contents (Elt F) → (⟨S2048x32000, .f32⟩ : BufTy).Contents (Elt F)),
    binary main_v1 main_v16 main_v17 (Host.divf : (⟨S2048x32000, .f32⟩ : BufTy).Contents (Elt F) → (⟨S2048x32000, .f32⟩ : BufTy).Contents (Elt F) → (⟨S2048x32000, .f32⟩ : BufTy).Contents (Elt F)),
    nullary main_call5_cst (constant S_ .f32 0xFF800000#32),
    binary main_v17 main_call5_cst main_call5_v0 ((fun x v => Host.reduce FloatOps.maximumf x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_call5_cst_0 (constant S_ .f32 0xFF800000#32),
    unary main_call5_cst_0 main_call5_v1 (broadcastInDim S2048 ![] bcast_S_S2048 : (⟨S_, .f32⟩ : BufTy).Contents (Elt F) → (⟨S2048, .f32⟩ : BufTy).Contents (Elt F)),
    binary main_call5_v1 main_call5_v0 main_call5_v2 (maximumf : (⟨S2048, .f32⟩ : BufTy).Contents (Elt F) → (⟨S2048, .f32⟩ : BufTy).Contents (Elt F) → (⟨S2048, .f32⟩ : BufTy).Contents (Elt F)),
    unary main_call5_v2 main_call5_v3 (broadcastInDim S2048x1 ![0] bcast_S2048_S2048x1_0 : (⟨S2048, .f32⟩ : BufTy).Contents (Elt F) → (⟨S2048x1, .f32⟩ : BufTy).Contents (Elt F)),
    unary main_call5_v3 main_call5_v4 (broadcastInDim S2048x32000 ![0, 1] bcast_S2048x1_S2048x32000_0_1 : (⟨S2048x1, .f32⟩ : BufTy).Contents (Elt F) → (⟨S2048x32000, .f32⟩ : BufTy).Contents (Elt F)),
    binary main_v17 main_call5_v4 main_call5_v5 (subf : (⟨S2048x32000, .f32⟩ : BufTy).Contents (Elt F) → (⟨S2048x32000, .f32⟩ : BufTy).Contents (Elt F) → (⟨S2048x32000, .f32⟩ : BufTy).Contents (Elt F)),
    unary main_call5_v5 main_call5_v6 (Host.exp : (⟨S2048x32000, .f32⟩ : BufTy).Contents (Elt F) → (⟨S2048x32000, .f32⟩ : BufTy).Contents (Elt F)),
    nullary main_call5_cst_1 (constant S_ .f32 0x00000000#32),
    binary main_call5_v6 main_call5_cst_1 main_call5_v7 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    unary main_call5_v7 main_call5_v8 (broadcastInDim S2048x1 ![0] bcast_S2048_S2048x1_0 : (⟨S2048, .f32⟩ : BufTy).Contents (Elt F) → (⟨S2048x1, .f32⟩ : BufTy).Contents (Elt F)),
    unary main_call5_v8 main_call5_v9 (Host.log : (⟨S2048x1, .f32⟩ : BufTy).Contents (Elt F) → (⟨S2048x1, .f32⟩ : BufTy).Contents (Elt F)),
    unary main_call5_v9 main_call5_v10 (broadcastInDim S2048x32000 ![0, 1] bcast_S2048x1_S2048x32000_0_1 : (⟨S2048x1, .f32⟩ : BufTy).Contents (Elt F) → (⟨S2048x32000, .f32⟩ : BufTy).Contents (Elt F)),
    binary main_call5_v5 main_call5_v10 main_v18 (subf : (⟨S2048x32000, .f32⟩ : BufTy).Contents (Elt F) → (⟨S2048x32000, .f32⟩ : BufTy).Contents (Elt F) → (⟨S2048x32000, .f32⟩ : BufTy).Contents (Elt F)),
    nullary main_cst_5 (constant S_ .f32 0xBF317218#32),
    unary main_cst_5 main_v19 (broadcastInDim S2048x32000 ![] bcast_S_S2048x32000 : (⟨S_, .f32⟩ : BufTy).Contents (Elt F) → (⟨S2048x32000, .f32⟩ : BufTy).Contents (Elt F)),
    binary main_v15 main_v19 main_v20 (addf : (⟨S2048x32000, .f32⟩ : BufTy).Contents (Elt F) → (⟨S2048x32000, .f32⟩ : BufTy).Contents (Elt F) → (⟨S2048x32000, .f32⟩ : BufTy).Contents (Elt F)),
    nullary main_cst_6 (constant S_ .f32 0xBF317218#32),
    unary main_cst_6 main_v21 (broadcastInDim S2048x32000 ![] bcast_S_S2048x32000 : (⟨S_, .f32⟩ : BufTy).Contents (Elt F) → (⟨S2048x32000, .f32⟩ : BufTy).Contents (Elt F)),
    binary main_v18 main_v21 main_v22 (addf : (⟨S2048x32000, .f32⟩ : BufTy).Contents (Elt F) → (⟨S2048x32000, .f32⟩ : BufTy).Contents (Elt F) → (⟨S2048x32000, .f32⟩ : BufTy).Contents (Elt F)),
    binary main_v20 main_v22 main_v23 (maximumf : (⟨S2048x32000, .f32⟩ : BufTy).Contents (Elt F) → (⟨S2048x32000, .f32⟩ : BufTy).Contents (Elt F) → (⟨S2048x32000, .f32⟩ : BufTy).Contents (Elt F)),
    binary main_v20 main_v22 main_v24 (subf : (⟨S2048x32000, .f32⟩ : BufTy).Contents (Elt F) → (⟨S2048x32000, .f32⟩ : BufTy).Contents (Elt F) → (⟨S2048x32000, .f32⟩ : BufTy).Contents (Elt F)),
    binary main_v24 main_v24 main_v25 (cmpf .une : (⟨S2048x32000, .f32⟩ : BufTy).Contents (Elt F) → (⟨S2048x32000, .f32⟩ : BufTy).Contents (Elt F) → (⟨S2048x32000, .i1⟩ : BufTy).Contents (Elt F)),
    binary main_v20 main_v22 main_v26 (addf : (⟨S2048x32000, .f32⟩ : BufTy).Contents (Elt F) → (⟨S2048x32000, .f32⟩ : BufTy).Contents (Elt F) → (⟨S2048x32000, .f32⟩ : BufTy).Contents (Elt F)),
    unary main_v24 main_v27 (Host.absf : (⟨S2048x32000, .f32⟩ : BufTy).Contents (Elt F) → (⟨S2048x32000, .f32⟩ : BufTy).Contents (Elt F)),
    unary main_v27 main_v28 (Host.negf : (⟨S2048x32000, .f32⟩ : BufTy).Contents (Elt F) → (⟨S2048x32000, .f32⟩ : BufTy).Contents (Elt F)),
    unary main_v28 main_v29 (Host.exp : (⟨S2048x32000, .f32⟩ : BufTy).Contents (Elt F) → (⟨S2048x32000, .f32⟩ : BufTy).Contents (Elt F)),
    unary main_v29 main_v30 (Host.log1p : (⟨S2048x32000, .f32⟩ : BufTy).Contents (Elt F) → (⟨S2048x32000, .f32⟩ : BufTy).Contents (Elt F)),
    binary main_v23 main_v30 main_v31 (addf : (⟨S2048x32000, .f32⟩ : BufTy).Contents (Elt F) → (⟨S2048x32000, .f32⟩ : BufTy).Contents (Elt F) → (⟨S2048x32000, .f32⟩ : BufTy).Contents (Elt F)),
    ternary main_v25 main_v26 main_v31 main_v32 (select : (⟨S2048x32000, .i1⟩ : BufTy).Contents (Elt F) → (⟨S2048x32000, .f32⟩ : BufTy).Contents (Elt F) → (⟨S2048x32000, .f32⟩ : BufTy).Contents (Elt F) → (⟨S2048x32000, .f32⟩ : BufTy).Contents (Elt F)),
    unary main_v15 main_v33 (Host.exp : (⟨S2048x32000, .f32⟩ : BufTy).Contents (Elt F) → (⟨S2048x32000, .f32⟩ : BufTy).Contents (Elt F)),
    binary main_v15 main_v32 main_v34 (subf : (⟨S2048x32000, .f32⟩ : BufTy).Contents (Elt F) → (⟨S2048x32000, .f32⟩ : BufTy).Contents (Elt F) → (⟨S2048x32000, .f32⟩ : BufTy).Contents (Elt F)),
    binary main_v33 main_v34 main_v35 (mulf : (⟨S2048x32000, .f32⟩ : BufTy).Contents (Elt F) → (⟨S2048x32000, .f32⟩ : BufTy).Contents (Elt F) → (⟨S2048x32000, .f32⟩ : BufTy).Contents (Elt F)),
    unary main_v18 main_v36 (Host.exp : (⟨S2048x32000, .f32⟩ : BufTy).Contents (Elt F) → (⟨S2048x32000, .f32⟩ : BufTy).Contents (Elt F)),
    binary main_v18 main_v32 main_v37 (subf : (⟨S2048x32000, .f32⟩ : BufTy).Contents (Elt F) → (⟨S2048x32000, .f32⟩ : BufTy).Contents (Elt F) → (⟨S2048x32000, .f32⟩ : BufTy).Contents (Elt F)),
    binary main_v36 main_v37 main_v38 (mulf : (⟨S2048x32000, .f32⟩ : BufTy).Contents (Elt F) → (⟨S2048x32000, .f32⟩ : BufTy).Contents (Elt F) → (⟨S2048x32000, .f32⟩ : BufTy).Contents (Elt F)),
    nullary main_cst_7 (constant S_ .f32 0x3F000000#32),
    unary main_cst_7 main_v39 (broadcastInDim S2048x32000 ![] bcast_S_S2048x32000 : (⟨S_, .f32⟩ : BufTy).Contents (Elt F) → (⟨S2048x32000, .f32⟩ : BufTy).Contents (Elt F)),
    binary main_v39 main_v38 main_v40 (mulf : (⟨S2048x32000, .f32⟩ : BufTy).Contents (Elt F) → (⟨S2048x32000, .f32⟩ : BufTy).Contents (Elt F) → (⟨S2048x32000, .f32⟩ : BufTy).Contents (Elt F)),
    nullary main_cst_8 (constant S_ .f32 0x3F000000#32),
    unary main_cst_8 main_v41 (broadcastInDim S2048x32000 ![] bcast_S_S2048x32000 : (⟨S_, .f32⟩ : BufTy).Contents (Elt F) → (⟨S2048x32000, .f32⟩ : BufTy).Contents (Elt F)),
    binary main_v41 main_v35 main_v42 (mulf : (⟨S2048x32000, .f32⟩ : BufTy).Contents (Elt F) → (⟨S2048x32000, .f32⟩ : BufTy).Contents (Elt F) → (⟨S2048x32000, .f32⟩ : BufTy).Contents (Elt F)),
    binary main_v40 main_v42 main_v43 (addf : (⟨S2048x32000, .f32⟩ : BufTy).Contents (Elt F) → (⟨S2048x32000, .f32⟩ : BufTy).Contents (Elt F) → (⟨S2048x32000, .f32⟩ : BufTy).Contents (Elt F)),
    nullary main_cst_9 (constant S_ .f32 0x00000000#32),
    binary main_v43 main_cst_9 main_v44 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_cst_10 (constant S_ .f32 0x00000000#32),
    unary main_cst_10 main_call6_v0 (id : (⟨S_, .f32⟩ : BufTy).Contents (Elt F) → (⟨S_, .f32⟩ : BufTy).Contents (Elt F)),
    unary main_call6_v0 main_call6_v1 (broadcastInDim S2048 ![] bcast_S_S2048 : (⟨S_, .f32⟩ : BufTy).Contents (Elt F) → (⟨S2048, .f32⟩ : BufTy).Contents (Elt F)),
    ternary main_v3 main_v44 main_call6_v1 main_v45 (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)),
    nullary main_cst_11 (constant S_ .f32 0x00000000#32),
    binary main_v45 main_cst_11 main_v46 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_12 (constant S_ .f32 0x45000000#32),
    binary main_v46 main_cst_12 main_v47 (Host.divf : (⟨S_, .f32⟩ : BufTy).Contents (Elt F) → (⟨S_, .f32⟩ : BufTy).Contents (Elt F) → (⟨S_, .f32⟩ : BufTy).Contents (Elt F)),
    nullary main_cst_13 (constant S_ .f32 0x3F000000#32),
    binary main_cst_13 main_v12 main_v48 (mulf : (⟨S_, .f32⟩ : BufTy).Contents (Elt F) → (⟨S_, .f32⟩ : BufTy).Contents (Elt F) → (⟨S_, .f32⟩ : BufTy).Contents (Elt F)),
    nullary main_cst_14 (constant S_ .f32 0x3F000000#32),
    binary main_cst_14 main_v47 main_v49 (mulf : (⟨S_, .f32⟩ : BufTy).Contents (Elt F) → (⟨S_, .f32⟩ : BufTy).Contents (Elt F) → (⟨S_, .f32⟩ : BufTy).Contents (Elt F)),
    binary main_v48 main_v49 main_v50 (addf : (⟨S_, .f32⟩ : BufTy).Contents (Elt F) → (⟨S_, .f32⟩ : BufTy).Contents (Elt F) → (⟨S_, .f32⟩ : BufTy).Contents (Elt F)) ]

/-- Two lists with equal heads and equal tails are equal. -/
theorem cons_congr {α : Type _} {a b : α} {l m : List α} (h : a = b) (t : l = m) : a :: l = b :: m := by
  subst h; subst t; rfl

/-- A two-operand operation through typed references IS the operation at their buffers, for any function: with the
    three type equations substituted the transports are along `rfl`. -/
theorem binary_of_typed {Val : EltTy → Type} (a b y : Ref sig .tc) {Ta Tb Ty : BufTy}
    (pa : a.ty = Ta) (da : a.space ≠ .host) (ua : a.isScoped = false)
    (pb : b.ty = Tb) (db : b.space ≠ .host) (ub : b.isScoped = false)
    (py : y.ty = Ty) (dy : y.space ≠ .host) (uy : y.isScoped = false)
    (g : Ta.Contents Val → Tb.Contents Val → Ty.Contents Val)
    (g' : a.ty.Contents Val → b.ty.Contents Val → y.ty.Contents Val) (hg : HEq g g') :
    (TRef.binary (τ := τ) (TRef.of a pa da ua) (TRef.of b pb db ub) (TRef.of y py dy uy) g : HloOp τ sig Val)
      = binary a b y g' ⟨da, ua⟩ ⟨db, ub⟩ ⟨dy, uy⟩ := by
  subst pa pb py
  cases hg
  rfl

set_option maxHeartbeats 4000000 in
/-- The program's spelling of the operations and the direct one are one list, entry by entry. -/
theorem opsT_eq : (opsT : List (HloOp τ sig (Elt F))) = ops := by
  unfold opsT ops
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr (binary_of_typed _ _ _ _ _ _ _ _ _ _ _ _ _ _ HEq.rfl) ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr (binary_of_typed _ _ _ _ _ _ _ _ _ _ _ _ _ _ HEq.rfl) ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr (binary_of_typed _ _ _ _ _ _ _ _ _ _ _ _ _ _ HEq.rfl) ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  refine cons_congr rfl ?_
  rfl

set_option maxRecDepth 8192 in
set_option maxHeartbeats 4000000 in
theorem main_eqT (c : Dev nD) : main (F := F) c = seq opsT := rfl

/-- @main is the sequence of the operations. -/
theorem main_eq (c : Dev nD) : main (F := F) c = seq ops := (main_eqT c).trans (congrArg seq opsT_eq)
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., unary_bufs_sub .., unary_bufs_sub .., unary_bufs_sub .., binary_bufs_sub .., ternary_bufs_sub .., unary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., nullary_bufs_sub .., binary_bufs_sub .., binary_bufs_sub ..⟩

set_option maxRecDepth 8192 in
/-- `main_v50`'s composed term of the arguments (named: it is long). -/
def res_main_v50 (m : (ℓ : Loc nD τ sig) → Buf (Elt F) ℓ) (c : Dev nD) : Buf (Elt F) ((c.tc : Thread nD τ).loc main_v50) :=
  addf (mulf (constant S_ .f32 0x3F000000#32) (Host.divf (Host.reduceAdd (select (cmpi .ne (m ((c.tc : Thread nD τ).loc main_arg4)) (broadcastInDim S2048 ![] bcast_S_S2048 (constantI S_ 32 4294967196#32))) (Host.negf (shapeCast _ (select (Host.reduce IntOp.andi (andi (cmpi .sge (shapeCast _ (select (cmpi .slt (broadcastInDim S2048x1 ![0] bcast_S2048_S2048x1_0 (select (cmpi .ne (m ((c.tc : Thread nD τ).loc main_arg4)) (broadcastInDim S2048 ![] bcast_S_S2048 (constantI S_ 32 4294967196#32))) (m ((c.tc : Thread nD τ).loc main_arg4)) (broadcastInDim S2048 ![] bcast_S_S2048 (id (constantI S_ 32 0#32))))) (broadcastInDim S2048x1 ![] bcast_S_S2048x1 (constantI S_ 32 0#32))) (addi (broadcastInDim S2048x1 ![0] bcast_S2048_S2048x1_0 (select (cmpi .ne (m ((c.tc : Thread nD τ).loc main_arg4)) (broadcastInDim S2048 ![] bcast_S_S2048 (constantI S_ 32 4294967196#32))) (m ((c.tc : Thread nD τ).loc main_arg4)) (broadcastInDim S2048 ![] bcast_S_S2048 (id (constantI S_ 32 0#32))))) (broadcastInDim S2048x1 ![] bcast_S_S2048x1 (constantI S_ 32 32000#32))) (broadcastInDim S2048x1 ![0] bcast_S2048_S2048x1_0 (select (cmpi .ne (m ((c.tc : Thread nD τ).loc main_arg4)) (broadcastInDim S2048 ![] bcast_S_S2048 (constantI S_ 32 4294967196#32))) (m ((c.tc : Thread nD τ).loc main_arg4)) (broadcastInDim S2048 ![] bcast_S_S2048 (id (constantI S_ 32 0#32)))))) shapeCasts_S2048x1_S2048x1x1) (broadcastInDim S2048x1x1 ![] bcast_S_S2048x1x1 (constantI S_ 32 0#32))) (cmpi .sle (shapeCast _ (select (cmpi .slt (broadcastInDim S2048x1 ![0] bcast_S2048_S2048x1_0 (select (cmpi .ne (m ((c.tc : Thread nD τ).loc main_arg4)) (broadcastInDim S2048 ![] bcast_S_S2048 (constantI S_ 32 4294967196#32))) (m ((c.tc : Thread nD τ).loc main_arg4)) (broadcastInDim S2048 ![] bcast_S_S2048 (id (constantI S_ 32 0#32))))) (broadcastInDim S2048x1 ![] bcast_S_S2048x1 (constantI S_ 32 0#32))) (addi (broadcastInDim S2048x1 ![0] bcast_S2048_S2048x1_0 (select (cmpi .ne (m ((c.tc : Thread nD τ).loc main_arg4)) (broadcastInDim S2048 ![] bcast_S_S2048 (constantI S_ 32 4294967196#32))) (m ((c.tc : Thread nD τ).loc main_arg4)) (broadcastInDim S2048 ![] bcast_S_S2048 (id (constantI S_ 32 0#32))))) (broadcastInDim S2048x1 ![] bcast_S_S2048x1 (constantI S_ 32 32000#32))) (broadcastInDim S2048x1 ![0] bcast_S2048_S2048x1_0 (select (cmpi .ne (m ((c.tc : Thread nD τ).loc main_arg4)) (broadcastInDim S2048 ![] bcast_S_S2048 (constantI S_ 32 4294967196#32))) (m ((c.tc : Thread nD τ).loc main_arg4)) (broadcastInDim S2048 ![] bcast_S_S2048 (id (constantI S_ 32 0#32)))))) shapeCasts_S2048x1_S2048x1x1) (broadcastInDim S2048x1x1 ![0, 1, 2] bcast_S1x1x1_S2048x1x1_0_1_2 (broadcastInDim S1x1x1 ![2] bcast_S1_S1x1x1_2 (constantI S1 32 31999#32))))) (constantI S_ 1 1#1) reducesTo_S2048x1x1_S2048x1_d2 h_S_) (Host.gather gather_S2048x32000_S2048x1x1_S2048x1_n_1_0_0_1_2_11 (subf (subf (Host.dotGeneral dot_S2048x2048_S32000x2048_S2048x32000_1_1_0_0_n_n none (m ((c.tc : Thread nD τ).loc main_arg0)) (m ((c.tc : Thread nD τ).loc main_arg1))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.dotGeneral dot_S2048x2048_S32000x2048_S2048x32000_1_1_0_0_n_n none (m ((c.tc : Thread nD τ).loc main_arg0)) (m ((c.tc : Thread nD τ).loc main_arg1))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.dotGeneral dot_S2048x2048_S32000x2048_S2048x32000_1_1_0_0_n_n none (m ((c.tc : Thread nD τ).loc main_arg0)) (m ((c.tc : Thread nD τ).loc main_arg1))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.dotGeneral dot_S2048x2048_S32000x2048_S2048x32000_1_1_0_0_n_n none (m ((c.tc : Thread nD τ).loc main_arg0)) (m ((c.tc : Thread nD τ).loc main_arg1))) (constant S_ .f32 0xFF800000#32) reducesTo_S2048x32000_S2048_d1 h_S_)))))) (constant S_ .f32 0x00000000#32) reducesTo_S2048x32000_S2048_d1 h_S_))))) (shapeCast _ (select (cmpi .slt (broadcastInDim S2048x1 ![0] bcast_S2048_S2048x1_0 (select (cmpi .ne (m ((c.tc : Thread nD τ).loc main_arg4)) (broadcastInDim S2048 ![] bcast_S_S2048 (constantI S_ 32 4294967196#32))) (m ((c.tc : Thread nD τ).loc main_arg4)) (broadcastInDim S2048 ![] bcast_S_S2048 (id (constantI S_ 32 0#32))))) (broadcastInDim S2048x1 ![] bcast_S_S2048x1 (constantI S_ 32 0#32))) (addi (broadcastInDim S2048x1 ![0] bcast_S2048_S2048x1_0 (select (cmpi .ne (m ((c.tc : Thread nD τ).loc main_arg4)) (broadcastInDim S2048 ![] bcast_S_S2048 (constantI S_ 32 4294967196#32))) (m ((c.tc : Thread nD τ).loc main_arg4)) (broadcastInDim S2048 ![] bcast_S_S2048 (id (constantI S_ 32 0#32))))) (broadcastInDim S2048x1 ![] bcast_S_S2048x1 (constantI S_ 32 32000#32))) (broadcastInDim S2048x1 ![0] bcast_S2048_S2048x1_0 (select (cmpi .ne (m ((c.tc : Thread nD τ).loc main_arg4)) (broadcastInDim S2048 ![] bcast_S_S2048 (constantI S_ 32 4294967196#32))) (m ((c.tc : Thread nD τ).loc main_arg4)) (broadcastInDim S2048 ![] bcast_S_S2048 (id (constantI S_ 32 0#32)))))) shapeCasts_S2048x1_S2048x1x1)) (broadcastInDim S2048x1 ![] bcast_S_S2048x1 (constant S_ .f32 0x7FC00000#32))) shapeCasts_S2048x1_S2048)) (broadcastInDim S2048 ![] bcast_S_S2048 (id (constant S_ .f32 0x00000000#32)))) (constant S_ .f32 0x00000000#32) reducesTo_S2048_S_d0 h_S_) (constant S_ .f32 0x45000000#32))) (mulf (constant S_ .f32 0x3F000000#32) (Host.divf (Host.reduceAdd (select (cmpi .ne (m ((c.tc : Thread nD τ).loc main_arg4)) (broadcastInDim S2048 ![] bcast_S_S2048 (constantI S_ 32 4294967196#32))) (Host.reduceAdd (addf (mulf (broadcastInDim S2048x32000 ![] bcast_S_S2048x32000 (constant S_ .f32 0x3F000000#32)) (mulf (Host.exp (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_)))))) (subf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (select (cmpf .une (subf (addf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))) (addf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32)))) (subf (addf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))) (addf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))))) (addf (addf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))) (addf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32)))) (addf (maximumf (addf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))) (addf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32)))) (Host.log1p (Host.exp (Host.negf (Host.absf (subf (addf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))) (addf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))))))))))))) (mulf (broadcastInDim S2048x32000 ![] bcast_S_S2048x32000 (constant S_ .f32 0x3F000000#32)) (mulf (Host.exp (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_)))))) (subf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (select (cmpf .une (subf (addf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))) (addf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32)))) (subf (addf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))) (addf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))))) (addf (addf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))) (addf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32)))) (addf (maximumf (addf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))) (addf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32)))) (Host.log1p (Host.exp (Host.negf (Host.absf (subf (addf (subf (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x2048_S32000x2048_S2048x32000_1_1_0_0_n_n none (m ((c.tc : Thread nD τ).loc main_arg0)) (m ((c.tc : Thread nD τ).loc main_arg1))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32))) (addf (subf (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (Host.dotGeneral dot_S2048x4096_S32000x4096_S2048x32000_1_1_0_0_n_n none (m ((c.tc : Thread nD τ).loc main_arg2)) (m ((c.tc : Thread nD τ).loc main_arg3))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (broadcastInDim S2048x32000 ![] bcast_S_S2048x32000 (constant S_ .f32 0xBF317218#32)))))))))))))) (constant S_ .f32 0x00000000#32) reducesTo_S2048x32000_S2048_d1 h_S_) (broadcastInDim S2048 ![] bcast_S_S2048 (id (constant S_ .f32 0x00000000#32)))) (constant S_ .f32 0x00000000#32) reducesTo_S2048_S_d0 h_S_) (constant S_ .f32 0x45000000#32)))

/-- `res_main_v50` by its position among the values @main returns, 0 counting from 0: the name for hand proofs to cite, since
    a re-print renumbers `main_v50`. An abbreviation: it unfolds to the `res_main_v50` that `run` states. -/
abbrev res_out0 (m : (ℓ : Loc nD τ sig) → Buf (Elt F) ℓ) (c : Dev nD) : Buf (Elt F) ((c.tc : Thread nD τ).loc main_v50) := res_main_v50 m c

set_option maxRecDepth 8192 in
set_option maxHeartbeats 54800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = res_main_v50 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v50).trans (by after_results_simp <;> rfl <;> (unfold res_main_v50; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.ValueP

end
-- ==== Proof.LossPieces.lean ====
import proofs.«417773_j10737418240013_1_alg».proof.Proof.Gen.KernelIdeal.Frame
import Idealize.ShloMosaic.Lib.Pipeline.Value

noncomputable section

namespace Cert.KernelIdeal.Loss

open Idealize.ShloMosaic Idealize.ShloMosaic.TcCoe Idealize.SL.Sem Cert.KernelIdeal Cert.KernelIdeal.Gen

variable {F : FTy → Type} [FloatOps F]

/-- One grid point's update of the accumulator block: the body's last store, from the point's two blocks of logits,
    its block of labels and the block's earlier contents `acc`. -/
def step (x0 x1 : Vec F S16x32000 .f32) (x2 : Vec F S16x1 .i32) (acc : Vec F S8x128 .f32) : Vec F S8x128 .f32 :=
  k2_pay2 (iota .tc S8x128 32 [1] iota_S8x128_d1_w32) (k2_pay8 (k2_pay7 x0 x2))
    (k2_pay9 (k2_pay4 x2) (k2_pay5 x0) (k2_pay6 x1)) k2_pay10 k2_pay11 1#32 acc

/-- The offsets of every load and store of the body are zero in both axes: each goes through the whole block. -/
private theorem off_zero : (![0, 0] : Fin 2 → Nat) = fun _ => 0 := funext fun a => by fin_cases a <;> rfl

/-- At the first grid point the block is reset to the zero splat and then updated. -/
theorem out2_A_3_eq (c : Dev nD) (i : grid2.Coords) (arg1 : Memref sig .tc .vmem S16x32000 .f32) (harg1 : arg1.IsWhole) (arg2 : Memref sig .tc .vmem S16x32000 .f32) (harg2 : arg2.IsWhole) (arg3 : Memref sig .tc .vmem S16x1 .i32) (harg3 : arg3.IsWhole) (arg4 : Memref sig .tc .vmem S8x128 .f32) (harg4 : arg4.IsWhole) (hc0 : cond2_0 i)
    (x0 : Vec F S16x32000 .f32) (x1 : Vec F S16x32000 .f32) (x2 : Vec F S16x1 .i32) :
    out2_A_3 c i arg1 harg1 arg2 harg2 arg3 harg3 arg4 harg4 hc0 x0 x1 x2 = step x0 x1 x2 (k2_pay1 (F := F)) := by
  -- The two stores tile the block, so the buffer reads as the canon of the piece list.
  unfold out2_A_3
  rw [View.read_writes_eq_canon _ _ _ (cover2_A_3 c i arg1 harg1 arg2 harg2 arg3 harg3 arg4 harg4 hc0 x0 x1 x2)]
  unfold kernelRun2_A
  dsimp only
  sl_unfold_words
  -- The later store covers the whole block, so its payload is what remains; the accumulator it adds into is the
  -- load of the block after the reset, which reads the zero splat back.
  rw [View.canon_cons_unit_zero (S := S8x128) off_zero, View.readCov_unit_zero (S := S8x128) _ off_zero]
  unfold step
  -- Each input block is loaded whole: the load reads the block's contents.
  simp only [View.readAt_eq_ld, harg1.read_unread, harg2.read_unread, harg3.read_unread,
    View.ld_unit_zero (S := S16x32000) off_zero, View.ld_unit_zero (S := S16x1) off_zero]

/-- At every later grid point the block is updated from what the point before left. -/
theorem out2_B_3_eq (c : Dev nD) (i : grid2.Coords) (arg1 : Memref sig .tc .vmem S16x32000 .f32) (harg1 : arg1.IsWhole) (arg2 : Memref sig .tc .vmem S16x32000 .f32) (harg2 : arg2.IsWhole) (arg3 : Memref sig .tc .vmem S16x1 .i32) (harg3 : arg3.IsWhole) (arg4 : Memref sig .tc .vmem S8x128 .f32) (harg4 : arg4.IsWhole) (hc0 : ¬cond2_0 i)
    (x0 : Vec F S16x32000 .f32) (x1 : Vec F S16x32000 .f32) (x2 : Vec F S16x1 .i32) (xo3 : Vec F S8x128 .f32) :
    out2_B_3 c i arg1 harg1 arg2 harg2 arg3 harg3 arg4 harg4 hc0 x0 x1 x2 xo3 = step x0 x1 x2 xo3 := by
  -- The one store tiles the block, so the buffer reads as the canon of the one piece: its payload.
  unfold out2_B_3
  rw [View.read_writes_eq_canon _ _ _ (cover2_B_3 c i arg1 harg1 arg2 harg2 arg3 harg3 arg4 harg4 hc0 x0 x1 x2 xo3)]
  unfold kernelRun2_B
  dsimp only
  sl_unfold_words
  rw [View.canon_unit_zero (S := S8x128) off_zero]
  unfold step
  -- Each input block, and the accumulator block at its earlier contents, is loaded whole: the load reads the contents.
  simp only [View.readAt_eq_ld, harg1.read_unread, harg2.read_unread, harg3.read_unread, harg4.read_unread,
    View.ld_unit_zero (S := S16x32000) off_zero, View.ld_unit_zero (S := S16x1) off_zero,
    View.ld_unit_zero (S := S8x128) off_zero]

end Cert.KernelIdeal.Loss

end
-- ==== Proof.RowMath.lean ====
/-
  Row-level mathematics on the extended reals.

  A row of logits `s : Fin n → EReal` has its maximum `rowMax s` (the fold of `max` from −∞).  The kernel
  normalises a row as `s v − (M + log Σ exp (s − M))`, the reference as `(s v − M) − log Σ exp (s − M)`.
  On the extended reals subtraction does not re-associate at the infinities; it does once `M` is a real
  number, and the maximum of a non-empty row of real numbers is one.
-/
import Idealize.ShloMosaic.PureOps.Ideal
import Idealize.ShloMosaic.PureOps.Ideal.Laws

noncomputable section

namespace Cert.Jsd

open Idealize.ShloMosaic

/-- The f32 pattern of −∞ denotes the bottom of the extended reals. -/
theorem ofBits_negInf : Ideal.ofBits .f32 0xFF800000#32 = (⊥ : EReal) := by
  simp [Ideal.ofBits, Ideal.ieee]

/-- `a − (m + c) = (a − m) − c` once `m` is a real number (no condition on `a` and `c`). -/
theorem sub_add_eq_sub_sub_of_real (a c : EReal) (m : ℝ) :
    a - ((m : EReal) + c) = a - (m : EReal) - c := by
  rw [sub_eq_add_neg, EReal.neg_add (Or.inl (EReal.coe_ne_bot m)) (Or.inl (EReal.coe_ne_top m)),
    sub_eq_add_neg (-(m : EReal)) c, ← add_assoc, ← sub_eq_add_neg, ← sub_eq_add_neg]

/-- The maximum of a row: the fold of `max` from −∞. -/
def rowMax {n : ℕ} (s : Fin n → EReal) : EReal :=
  (Finset.univ : Finset (Fin n)).fold max (Ideal.ofBits .f32 0xFF800000#32) s

/-- The maximum of a non-empty row of real numbers is a real number. -/
theorem rowMax_real {n : ℕ} (hn : 0 < n) (s : Fin n → EReal) (hs : ∀ v, ∃ r : ℝ, s v = r) :
    ∃ r : ℝ, rowMax s = r := by
  have htop : rowMax s ≠ ⊤ := by
    refine ne_of_lt ?_
    unfold rowMax
    rw [Finset.fold_max_lt]
    refine ⟨by rw [ofBits_negInf]; exact bot_lt_top, fun v _ => ?_⟩
    obtain ⟨r, hr⟩ := hs v
    rw [hr]; exact EReal.coe_lt_top r
  have hbot : rowMax s ≠ ⊥ := by
    refine ne_of_gt ?_
    unfold rowMax
    rw [Finset.lt_fold_max]
    refine Or.inr ⟨⟨0, hn⟩, Finset.mem_univ _, ?_⟩
    obtain ⟨r, hr⟩ := hs ⟨0, hn⟩
    rw [hr]; exact EReal.bot_lt_coe r
  exact ⟨(rowMax s).toReal, (EReal.coe_toReal htop hbot).symm⟩

/-- The kernel's log-probability of entry `v` of a row: `s v − (M + log Σ exp (s − M))`. -/
def lpK {n : ℕ} (s : Fin n → EReal) (v : Fin n) : EReal :=
  s v - (rowMax s + Ideal.log (∑ k : Fin n, Ideal.exp (s k - rowMax s)))

/-- The reference's: `(s v − max(−∞, M)) − log (0 + Σ exp (s − max(−∞, M)))`. -/
def lpR {n : ℕ} (s : Fin n → EReal) (v : Fin n) : EReal :=
  (s v - max (Ideal.ofBits .f32 0xFF800000#32) (rowMax s))
    - Ideal.log (Ideal.ofBits .f32 0x00000000#32
        + ∑ k : Fin n, Ideal.exp (s k - max (Ideal.ofBits .f32 0xFF800000#32) (rowMax s)))

/-- On a non-empty row of real numbers the two normalisations agree. -/
theorem lpK_eq_lpR {n : ℕ} (hn : 0 < n) (s : Fin n → EReal) (hs : ∀ v, ∃ r : ℝ, s v = r) :
    lpK s = lpR s := by
  funext v
  obtain ⟨m, hm⟩ := rowMax_real hn s hs
  unfold lpK lpR
  rw [ofBits_negInf, max_eq_right bot_le, Ideal.ofBits_zero_f32, zero_add, hm]
  exact sub_add_eq_sub_sub_of_real _ _ m

end Cert.Jsd

end
-- ==== Proof.Spec.lean ====
/-
  The loss, row by row, on the extended reals.

  For a row `n` of tokens the student's and the teacher's logits are `S n v = Σ_h x n h · w v h`; a row's
  log-probabilities are its logits minus its log-sum-exp (RowMath: `lpK` as the kernel spells it, `lpR` as the
  reference does).  The hard loss of a row is minus the log-probability at its label, the soft loss the sum over
  the vocabulary of the generalised Jensen–Shannon integrand of the two rows of log-probabilities; a row whose
  label is the ignore index (−100) contributes zero to both.  The result is ½·(Σ hard / 2048) + ½·(Σ soft / 2048).
-/
import proofs.«417773_j10737418240013_1_alg».proof.Proof.RowMath
import Idealize.ShloMosaic.Lib.ValueIdx

noncomputable section

namespace Cert.Jsd

open Idealize.ShloMosaic Idealize.ShloMosaic.ValueIdx

abbrev SNV : Shape := ⟨2, ![2048, 32000]⟩
abbrev SN : Shape := ⟨1, ![2048]⟩
abbrev SScalar : Shape := ⟨0, ![]⟩

/-- The logits of a linear layer: entry `(n, v)` is `Σ_k x (n, k) · w (v, k)`. -/
def logits {H : ℕ} (x : (⟨2, ![2048, H]⟩ : Shape).Idx → EReal) (w : (⟨2, ![32000, H]⟩ : Shape).Idx → EReal) :
    SNV.Idx → EReal :=
  fun i => ∑ k : Fin H, x (ix2 (i 0) k) * w (ix2 (i 1) k)

/-- Row `n` of a [2048, 32000] array. -/
def rowOf (A : SNV.Idx → EReal) (n : Fin 2048) : Fin 32000 → EReal := fun v => A (ix2 n v)

/-- A label counts unless it is the ignore index −100. -/
def maskBit (l : BitVec 32) : BitVec 1 := IntOp.cmpi .ne l 4294967196#32
/-- The label, or 0 where it is ignored. -/
def safeLabel (l : BitVec 32) : BitVec 32 := Scalar.select (maskBit l) l 0#32
/-- A label is admissible: the ignore index, or a class in [0, 32000). -/
def labelOk (l : BitVec 32) : Prop := l = 4294967196#32 ∨ (0 ≤ l.toInt ∧ l.toInt < 32000)

/-- The printed f32 literal of log ½ and of ½, as extended reals. -/
def logHalf : EReal := Ideal.ofBits .f32 0xBF317218#32
def half : EReal := Ideal.ofBits .f32 0x3F000000#32
def c2048 : EReal := Ideal.ofBits .f32 0x45000000#32

/-- log of the mixture ½·eᵃ + ½·eᵇ, as `logaddexp (a + log ½) (b + log ½)` computes it:
    the larger of the two plus `log1p (exp (−|difference|))`. -/
def logMix (a b : EReal) : EReal :=
  max (a + logHalf) (b + logHalf)
    + Ideal.log1p (Ideal.exp (-(max ((a + logHalf) - (b + logHalf)) (-((a + logHalf) - (b + logHalf))))))

/-- The Jensen–Shannon integrand at one vocabulary entry, from the student's log-probability `a` and the
    teacher's `b`: ½·eᵇ·(b − logMix) + ½·eᵃ·(a − logMix). -/
def jsdTerm (a b : EReal) : EReal :=
  half * (Ideal.exp b * (b - logMix a b)) + half * (Ideal.exp a * (a - logMix a b))

/-- A row's hard loss as a masked sum over the vocabulary: minus the sum of the log-probabilities at the entries
    equal to the label (one entry, for a label in range), zero for an ignored row. -/
def hardK (a : Fin 32000 → EReal) (l : BitVec 32) : EReal :=
  Scalar.select (maskBit l)
    (0 - ∑ v : Fin 32000, Scalar.select (IntOp.cmpi .eq (BitVec.ofNat 32 v.val) (safeLabel l)) (a v) 0) 0

/-- A row's hard loss as a pick: minus the log-probability at the label, zero for an ignored row. -/
def hardPick (a : Fin 32000 → EReal) (l : BitVec 32) : EReal :=
  Scalar.select (maskBit l) (-(a ⟨(safeLabel l).toNat % 32000, Nat.mod_lt _ (by decide)⟩)) 0

/-- A row's soft loss: the sum of the integrand over the vocabulary, zero for an ignored row. -/
def softRow (a b : Fin 32000 → EReal) (l : BitVec 32) : EReal :=
  Scalar.select (maskBit l) (∑ v : Fin 32000, jsdTerm (a v) (b v)) 0

/-- The result from the two totals: ½·(hard / 2048) + ½·(soft / 2048). -/
def tailFn (h s : EReal) : EReal := half * Ideal.div h c2048 + half * Ideal.div s c2048

end Cert.Jsd

end
-- ==== Proof.PayLp.lean ====
import proofs.«417773_j10737418240013_1_alg».proof.Proof.Gen.KernelIdeal.Skeleton
import proofs.«417773_j10737418240013_1_alg».proof.Proof.Spec
import Idealize.ShloMosaic.Lib.Pipeline.Value
import Idealize.ShloMosaic.Lib.ValueLayout
import Idealize.ShloMosaic.PureOps.Ideal.Laws

noncomputable section

namespace Cert.KernelIdeal.Loss

open Idealize.ShloMosaic Idealize.ShloMosaic.ValueIdx Cert.KernelIdeal Cert.KernelIdeal.Gen Cert.Jsd

/-- Row `r` of a [16, 32000] block. -/
def brow (x : Vec Ideal S16x32000 .f32) (r : Fin 16) : Fin 32000 → EReal := fun v => x (ix2 r v)

/-! ## The keepdims column forms read at an index -/

/-- An `[a]` array cast to the column `[a, 1]` reads, at `(i, u)`, the operand at `i`: both have row-major
    position `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions of a [16, 32000] block, read at a row -/

/-- The source index over row `r` with lane coordinate `k` is `(r, k)`. -/
private theorem lift_row (r : Fin 16) (k : Fin 32000) :
    reduces_S16x32000_S16.lift (ix1 r) k = ix2 r k := by
  funext c
  refine Fin.ext ?_
  match c with
  | ⟨0, _⟩ => rfl
  | ⟨1, _⟩ => rfl

/-- The lane maximum of a block at row `r` is the row's maximum. -/
private theorem laneMax_apply (x : FVec Ideal S16x32000 .f32) (r : Fin 16) :
    multiReduction (F := Ideal) .maximumf [1] S16 x 0xFF800000#32 reduces_S16x32000_S16 (.inl rfl) rfl (ix1 r)
      = rowMax (brow x r) := by
  refine (Ideal.multiReduction_maximumf_single x 0xFF800000#32 reduces_S16x32000_S16 (.inl rfl) rfl (ix1 r)).trans ?_
  unfold rowMax
  refine congrArg (fun f : Fin 32000 → EReal => (Finset.univ : Finset (Fin 32000)).fold max (Ideal.ofBits .f32 0xFF800000#32) f) ?_
  funext k
  exact congrArg x (lift_row r k)

/-- The lane sum of a block at row `r` is the sum over the row. -/
private theorem laneSum_apply (y : FVec Ideal S16x32000 .f32) (r : Fin 16) :
    multiReduction (F := Ideal) .add [1] S16 y 0x00000000#32 reduces_S16x32000_S16 (.inl rfl) rfl (ix1 r)
      = ∑ k : Fin 32000, y (ix2 r k) := by
  refine (Ideal.multiReduction_add_single y 0x00000000#32 reduces_S16x32000_S16 (.inl rfl) rfl (ix1 r)).trans ?_
  refine Finset.sum_congr rfl fun k _ => ?_
  exact congrArg y (lift_row r k)

/-! ## The row-wise log-softmax of a block, in the kernel's order of operations -/

/-- An exponential of a vector reads, at an index, the exponential of the entry. -/
private theorem exp_at {s : Shape} (y : FVec Ideal s .f32) (i : s.Idx) : exp y i = Ideal.exp (y i) := rfl

/-- A logarithm of a vector reads, at an index, the logarithm of the entry. -/
private theorem log_at {s : Shape} (y : FVec Ideal s .f32) (i : s.Idx) : log y i = Ideal.log (y i) := rfl

/-- The column of row maxima. -/
private def colMax (x : FVec Ideal S16x32000 .f32) : FVec Ideal S16x1 .f32 :=
  shapeCast S16x1
    (multiReduction (F := Ideal) .maximumf [1] S16 x 0xFF800000#32 reduces_S16x32000_S16 (.inl rfl) rfl)
    shapeCasts_S16_S16x1

/-- The exponentials of the block's entries less their row's maximum. -/
private def expd (x : FVec Ideal S16x32000 .f32) : FVec Ideal S16x32000 .f32 :=
  exp (subf x (broadcastTo S16x32000 (colMax x) broadcasts_S16x1_S16x32000))

/-- The column of the logarithms of the rows' sums of those exponentials. -/
private def colLog (x : FVec Ideal S16x32000 .f32) : FVec Ideal S16x1 .f32 :=
  log (shapeCast S16x1
    (multiReduction (F := Ideal) .add [1] S16 (expd x) 0x00000000#32 reduces_S16x32000_S16 (.inl rfl) rfl)
    shapeCasts_S16_S16x1)

/-- The block less, row by row, the row's maximum plus the logarithm of the row's sum of exponentials. -/
private def lsm (x : FVec Ideal S16x32000 .f32) : FVec Ideal S16x32000 .f32 :=
  subf x (broadcastTo S16x32000 (addf (colMax x) (colLog x)) broadcasts_S16x1_S16x32000)

private theorem colMax_apply (x : FVec Ideal S16x32000 .f32) (r : Fin 16) (u : Fin 1) :
    colMax x (ix2 r u) = rowMax (brow x r) :=
  (shapeCast_a_a1_apply _ shapeCasts_S16_S16x1 r u).trans (laneMax_apply x r)

private theorem expd_apply (x : FVec Ideal S16x32000 .f32) (r : Fin 16) (k : Fin 32000) :
    expd x (ix2 r k) = Ideal.exp (brow x r k - rowMax (brow x r)) := by
  unfold expd
  refine (exp_at _ _).trans (congrArg Ideal.exp ?_)
  refine (subf_apply _ _ _).trans ?_
  refine congrArg (fun t => x (ix2 r k) - t) ?_
  exact (broadcastTo_a1_ab_apply (colMax x) broadcasts_S16x1_S16x32000 r k).trans (colMax_apply x r 0)

private theorem colLog_apply (x : FVec Ideal S16x32000 .f32) (r : Fin 16) (u : Fin 1) :
    colLog x (ix2 r u) = Ideal.log (∑ k : Fin 32000, Ideal.exp (brow x r k - rowMax (brow x r))) := by
  unfold colLog
  refine (log_at _ _).trans (congrArg Ideal.log ?_)
  refine (shapeCast_a_a1_apply _ shapeCasts_S16_S16x1 r u).trans ?_
  refine (laneSum_apply (expd x) r).trans ?_
  exact Finset.sum_congr rfl fun k _ => expd_apply x r k

private theorem lsm_apply (x : FVec Ideal S16x32000 .f32) (r : Fin 16) (v : Fin 32000) :
    lsm x (ix2 r v) = lpK (brow x r) v := by
  unfold lsm lpK
  refine (subf_apply _ _ _).trans ?_
  refine congrArg (fun t => x (ix2 r v) - t) ?_
  refine (broadcastTo_a1_ab_apply _ broadcasts_S16x1_S16x32000 r v).trans ?_
  refine (addf_apply _ _ _).trans ?_
  rw [colMax_apply, colLog_apply]

/-- The student block's log-probabilities, entry by entry: the row's logit minus the row's log-sum-exp. -/
theorem pay5_apply (x0 : Vec Ideal S16x32000 .f32) (r : Fin 16) (v : Fin 32000) :
    k2_pay5 (F := Ideal) x0 (ix2 r v) = lpK (brow x0 r) v := by
  have e : k2_pay5 (F := Ideal) x0 = lsm (shapeCast S16x32000 x0 shapeCasts_S16x32000_S16x32000) := rfl
  rw [e, shapeCast_self]
  exact lsm_apply x0 r v

/-- The teacher block's likewise. -/
theorem pay6_apply (x1 : Vec Ideal S16x32000 .f32) (r : Fin 16) (v : Fin 32000) :
    k2_pay6 (F := Ideal) x1 (ix2 r v) = lpK (brow x1 r) v := by
  have e : k2_pay6 (F := Ideal) x1 = lsm (shapeCast S16x32000 x1 shapeCasts_S16x32000_S16x32000) := rfl
  rw [e, shapeCast_self]
  exact lsm_apply x1 r v

/-- The mask of row `r`: its label is not the ignore index. -/
theorem pay4_apply (x2 : Vec Ideal S16x1 .i32) (r : Fin 16) :
    k2_pay4 (F := Ideal) x2 (ix2 r 0) = maskBit (x2 (ix2 r 0)) := by
  have e : k2_pay4 (F := Ideal) x2
      = cmpi .ne (shapeCast S16x1 x2 shapeCasts_S16x1_S16x1) (broadcast S16x1 4294967196#32) := rfl
  rw [e, shapeCast_self]
  rfl

end Cert.KernelIdeal.Loss

end
-- ==== Proof.PayHard.lean ====
import proofs.«417773_j10737418240013_1_alg».proof.Proof.LossPieces
import proofs.«417773_j10737418240013_1_alg».proof.Proof.PayLp

noncomputable section

namespace Cert.KernelIdeal.Loss

open Idealize.ShloMosaic Idealize.ShloMosaic.ValueIdx Cert.KernelIdeal Cert.KernelIdeal.Gen Cert.Jsd

/-- The zero splat. -/
theorem pay1_apply (j : S8x128.Idx) : k2_pay1 (F := Ideal) j = (0 : EReal) := by
  unfold k2_pay1
  exact Ideal.ofBits_zero_f32

/-- A [16] vector viewed as a [16, 1] column reads, at (r, 0), the vector at r: the two positions have the same
    row-major offset r. -/
private theorem col_apply {α : Type} (v : S16.Idx → α) (r : Fin 16) :
    shapeCast S16x1 v shapeCasts_S16_S16x1 (ix2 r 0) = v (ix1 r) :=
  shapeCast_apply v _ (ix2 r (0 : Fin 1)) (ix1 r) (by
    rw [Shape.rowMajor_val_one, Shape.rowMajor_val_two]
    show r.val = r.val * 1 + 0
    omega)

/-- A [16, 1] column spread over the 32000 lanes reads, at (r, v), the column at (r, 0). -/
private theorem spread_apply {α : Type} (x : S16x1.Idx → α) (r : Fin 16) (v : Fin 32000) :
    broadcastTo S16x32000 x broadcasts_S16x1_S16x32000 (ix2 r v) = x (ix2 r 0) :=
  broadcastTo_apply x _ (ix2 r v) (ix2 r (0 : Fin 1)) fun a => by
    match a with
    | ⟨0, _⟩ => rfl
    | ⟨1, _⟩ => rfl

/-- The lane sum of a [16, 32000] block, kept as a column, reads at (r, 0) the sum of row r over the lanes. -/
private theorem laneSum_apply (src : FVec Ideal S16x32000 .f32) (r : Fin 16) :
    shapeCast S16x1 (multiReduction (F := Ideal) .add [1] S16 src 0x00000000#32 reduces_S16x32000_S16 (.inl rfl) rfl)
        shapeCasts_S16_S16x1 (ix2 r 0)
      = ∑ v : Fin 32000, src (ix2 r v) := by
  refine (col_apply _ r).trans ?_
  refine (Ideal.multiReduction_add_single src _ _ _ _ (ix1 r)).trans ?_
  refine Finset.sum_congr rfl fun v _ => congrArg src ?_
  funext a
  match a with
  | ⟨0, _⟩ => rfl
  | ⟨1, _⟩ => rfl

/-- The sum of the sixteen rows of a [16, 1] column, spread over the [8, 128] block, reads at (0, 0) that sum. -/
private theorem pay8_apply (col : FVec Ideal S16x1 .f32) :
    k2_pay8 (F := Ideal) col (ix2 0 0) = ∑ r : Fin 16, col (ix2 r 0) := by
  unfold k2_pay8
  refine (broadcastTo_apply _ _ (ix2 (0 : Fin 8) (0 : Fin 128)) (ix2 (0 : Fin 1) (0 : Fin 1)) fun a => by
    match a with
    | ⟨0, _⟩ => rfl
    | ⟨1, _⟩ => rfl).trans ?_
  rw [shapeCast_self]
  refine (shapeCast_a_1a_apply _ _ (0 : Fin 1) (0 : Fin 1)).trans ?_
  refine (Ideal.multiReduction_add_single col _ _ _ _ (ix1 (0 : Fin 1))).trans ?_
  refine Finset.sum_congr rfl fun r _ => congrArg col ?_
  funext a
  match a with
  | ⟨0, _⟩ => rfl
  | ⟨1, _⟩ => rfl

/-- The row's label as the kernel reads it. -/
private theorem pay3_apply (x2 : Vec Ideal S16x1 .i32) (r : Fin 16) :
    k2_pay3 (F := Ideal) x2 (ix2 r 0) = x2 (ix2 r 0) := by
  unfold k2_pay3
  rw [shapeCast_self]

/-- Row r of the hard-loss column: for a counted row, zero minus the sum over the lanes of the log-probability where
    the lane's number equals the safe label and zero elsewhere; zero for an ignored row. -/
private theorem pay7_apply (x0 : Vec Ideal S16x32000 .f32) (x2 : Vec Ideal S16x1 .i32) (r : Fin 16) :
    k2_pay7 (F := Ideal) x0 x2 (ix2 r 0) = hardK (lpK (brow x0 r)) (x2 (ix2 r 0)) := by
  unfold k2_pay7 hardK safeLabel
  rw [select_apply, subf_apply, laneSum_apply, pay4_apply]
  show Scalar.select _ (Ideal.ofBits .f32 0x00000000#32 - _) (Ideal.ofBits .f32 0x00000000#32) = _
  rw [Ideal.ofBits_zero_f32]
  refine congrArg (fun s : EReal => Scalar.select (maskBit (x2 (ix2 r 0))) ((0 : EReal) - s) (0 : EReal)) ?_
  refine Finset.sum_congr rfl fun v _ => ?_
  rw [select_apply, broadcast_apply, pay5_apply]
  show Scalar.select (IntOp.cmpi .eq (iota .tc S16x32000 32 [1] iota_S16x32000_d1_w32 (ix2 r v))
      (broadcastTo S16x32000 _ broadcasts_S16x1_S16x32000 (ix2 r v))) _ (Ideal.ofBits .f32 0x00000000#32) = _
  rw [iota_single_apply, spread_apply, select_apply, broadcast_apply, pay4_apply, pay3_apply, Ideal.ofBits_zero_f32]

/-- At (0, 0) both coordinates are zero, so the first mask is set. -/
private theorem pay10_00 : k2_pay10 (ix2 (0 : Fin 8) (0 : Fin 128)) = 1#1 := by
  unfold k2_pay10
  show IntOp.andi (IntOp.cmpi .eq (iota .tc S8x128 32 [0] iota_S8x128_d0_w32 (ix2 0 0)) 0#32)
      (IntOp.cmpi .eq (iota .tc S8x128 32 [1] iota_S8x128_d1_w32 (ix2 0 0)) 0#32) = 1#1
  rw [iota_single_apply, iota_single_apply]
  decide

/-- Entry (0, 0) of the updated block: its earlier value plus the sum of the sixteen rows' hard losses. -/
theorem step_hard (x0 x1 : Vec Ideal S16x32000 .f32) (x2 : Vec Ideal S16x1 .i32) (acc : Vec Ideal S8x128 .f32) :
    step x0 x1 x2 acc (ix2 0 0) = acc (ix2 0 0) + ∑ r : Fin 16, hardK (lpK (brow x0 r)) (x2 (ix2 r 0)) := by
  unfold step k2_pay2
  rw [addf_apply, shapeCast_self, select_apply, pay10_00, select_one, pay8_apply]
  exact congrArg (fun s : EReal => acc (ix2 0 0) + s) (Finset.sum_congr rfl fun r _ => pay7_apply x0 x2 r)

end Cert.KernelIdeal.Loss

end
-- ==== Proof.PaySoft.lean ====
import proofs.«417773_j10737418240013_1_alg».proof.Proof.LossPieces
import proofs.«417773_j10737418240013_1_alg».proof.Proof.PayLp

noncomputable section

namespace Cert.KernelIdeal.Loss

open Idealize.ShloMosaic Idealize.ShloMosaic.ValueIdx Cert.KernelIdeal Cert.KernelIdeal.Gen Cert.Jsd

/-! ## Words and layout facts the block's chain meets -/

/-- No extended real differs from itself: the comparison "ordered and not equal" of a value with itself is the
    bit 0. -/
private theorem cmp_one_self (d : EReal) : Ideal.cmp .one d d = 0#1 := by
  simp [Ideal.cmp]

/-- The exponential, `log1p` and the absolute value of a vector, read entry by entry. -/
private theorem exp_apply {s : Shape} {φ : FTy} (x : FVec Ideal s φ) (i : s.Idx) : exp x i = Ideal.exp (x i) := rfl
private theorem log1p_apply {s : Shape} {φ : FTy} (x : FVec Ideal s φ) (i : s.Idx) :
    log1p x i = Ideal.log1p (x i) := rfl
private theorem absf_apply {s : Shape} {φ : FTy} (x : FVec Ideal s φ) (i : s.Idx) :
    absf x i = max (x i) (-(x i)) := rfl

/-- The [16, 1] index over the one index of [1] with row `k` inserted is `(k, 0)`. -/
private theorem lift_col (k : Fin 16) : reduces_S16x1_S1.lift (ix1 (0 : Fin 1)) k = ix2 k (0 : Fin 1) := by
  funext c
  match c with
  | ⟨0, _⟩ => exact Fin.ext rfl
  | ⟨1, _⟩ => exact Fin.ext rfl

/-- The [16, 32000] index over row `r` of [16] with column `v` inserted is `(r, v)`. -/
private theorem lift_row (r : Fin 16) (v : Fin 32000) : reduces_S16x32000_S16.lift (ix1 r) v = ix2 r v := by
  funext c
  match c with
  | ⟨0, _⟩ => exact Fin.ext rfl
  | ⟨1, _⟩ => exact Fin.ext rfl

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a [16, 32000] block, kept as a column: entry `(r, 0)` is the sum of row `r`. -/
private theorem rowSum_apply (G : FVec Ideal S16x32000 .f32) (hφ : FKind.Formats .f32)
    (hacc : (0x00000000#32 : BitVec 32) = FKind.add.neutral .f32 hφ) (r : Fin 16) :
    shapeCast S16x1 (multiReduction .add [1] S16 G 0x00000000#32 reduces_S16x32000_S16 hφ hacc)
        shapeCasts_S16_S16x1 (ix2 r (0 : Fin 1))
      = ∑ v : Fin 32000, G (ix2 r v) := by
  refine (shapeCast_a_a1_apply _ _ r 0).trans ?_
  refine (Ideal.multiReduction_add_single G _ _ hφ hacc (ix1 r)).trans ?_
  exact Finset.sum_congr rfl fun v _ => congrArg G (lift_row r v)

/-- The sum down a [16, 1] column, kept as a [1, 1] block: its one entry is the sum of the sixteen rows. -/
private theorem colSum_apply (w : FVec Ideal S16x1 .f32) (hφ : FKind.Formats .f32)
    (hacc : (0x00000000#32 : BitVec 32) = FKind.add.neutral .f32 hφ) :
    shapeCast S1x1 (multiReduction .add [0] S1 w 0x00000000#32 reduces_S16x1_S1 hφ hacc)
        shapeCasts_S1_S1x1 (ix2 (0 : Fin 1) (0 : Fin 1))
      = ∑ r : Fin 16, w (ix2 r (0 : Fin 1)) := by
  refine (shapeCast_a_1a_apply _ _ 0 0).trans ?_
  refine (Ideal.multiReduction_add_single w _ _ hφ hacc (ix1 0)).trans ?_
  exact Finset.sum_congr rfl fun r _ => congrArg w (lift_col r)

/-! ## The soft-loss payload at an entry -/

/-- Every entry of the broadcast soft-loss block is the sum over the sixteen rows of the row's masked sum, over
    the vocabulary, of the Jensen–Shannon integrand of the two log-probabilities. The comparison of the
    difference with itself never holds, so the log-add-exp takes its generic branch, which is `logMix`. -/
private theorem pay9_apply (v7 : IVec S16x1 1) (a b : FVec Ideal S16x32000 .f32) (p : Fin 8) (q : Fin 128) :
    k2_pay9 v7 a b (ix2 p q)
      = ∑ r : Fin 16, Scalar.select (v7 (ix2 r 0)) (∑ v : Fin 32000, jsdTerm (a (ix2 r v)) (b (ix2 r v))) 0 := by
  unfold k2_pay9
  refine (broadcastTo_apply _ _ (ix2 p q) (ix2 (0 : Fin 1) (0 : Fin 1)) ?_).trans ?_
  · intro ax
    match ax with
    | ⟨0, _⟩ => rfl
    | ⟨1, _⟩ => rfl
  rw [shapeCast_self]
  refine (colSum_apply _ _ _).trans ?_
  refine Finset.sum_congr rfl fun r _ => ?_
  refine (select_apply _ _ _ _).trans ?_
  refine congrArg₂ (Scalar.select (v7 (ix2 r 0))) ?_ Ideal.ofBits_zero_f32
  refine (rowSum_apply _ _ _ r).trans ?_
  refine Finset.sum_congr rfl fun v _ => ?_
  simp only [addf_apply, mulf_apply, subf_apply, maximumf_apply, select_apply, cmpf_apply, broadcast_apply,
    exp_apply, log1p_apply, absf_apply, Ideal.cmpf_def, cmp_one_self, select_zero, Ideal.ofBits_def,
    Ideal.ofBits_zero_f32, zero_sub]
  rfl

/-! ## The updated block at entry (0, 1) -/

/-- The bitwise "and" and the integer comparison of two vectors, read entry by entry. -/
private theorem andi_apply {s : Shape} {w : ℕ} (x y : IVec s w) (i : s.Idx) : andi x y i = IntOp.andi (x i) (y i) := rfl
private theorem cmpi_apply {s : Shape} {w : ℕ} (p : CmpIPredicate) (x y : IVec s w) (i : s.Idx) :
    cmpi p x y i = IntOp.cmpi p (x i) (y i) := rfl

/-- At entry (0, 1) the mask "row 0 and column 0" is the bit 0: the column is 1. -/
private theorem mask00_at_01 : k2_pay10 (ix2 (0 : Fin 8) (1 : Fin 128)) = 0#1 := by
  unfold k2_pay10
  simp only [andi_apply, cmpi_apply, broadcast_apply, iota_single_apply]
  rfl

/-- At entry (0, 1) the mask "row 0 and column 1" is the bit 1. -/
private theorem mask01_at_01 :
    andi k2_pay11 (cmpi .eq (iota .tc S8x128 32 [1] iota_S8x128_d1_w32) (broadcast S8x128 1#32))
      (ix2 (0 : Fin 8) (1 : Fin 128)) = 1#1 := by
  unfold k2_pay11
  simp only [andi_apply, cmpi_apply, broadcast_apply, iota_single_apply]
  rfl

/-- Entry (0, 1) of the updated block: its earlier value plus the sum of the sixteen rows' soft losses. -/
theorem step_soft (x0 x1 : Vec Ideal S16x32000 .f32) (x2 : Vec Ideal S16x1 .i32) (acc : Vec Ideal S8x128 .f32) :
    step x0 x1 x2 acc (ix2 0 1)
      = acc (ix2 0 1) + ∑ r : Fin 16, softRow (lpK (brow x0 r)) (lpK (brow x1 r)) (x2 (ix2 r 0)) := by
  unfold step k2_pay2
  rw [shapeCast_self]
  simp only [addf_apply, select_apply, broadcast_apply]
  rw [mask00_at_01, select_zero, mask01_at_01, select_one, pay9_apply]
  refine congrArg (acc (ix2 0 1) + ·) (Finset.sum_congr rfl fun r _ => ?_)
  rw [pay4_apply]
  simp only [pay5_apply, pay6_apply]
  rfl

end Cert.KernelIdeal.Loss

end
-- ==== Proof.LossAccum.lean ====
import proofs.«417773_j10737418240013_1_alg».proof.Proof.PayHard
import proofs.«417773_j10737418240013_1_alg».proof.Proof.PaySoft

noncomputable section

namespace Cert.KernelIdeal.Loss

open Idealize.ShloMosaic Idealize.ShloMosaic.TcCoe Idealize.ShloMosaic.ValueIdx Idealize.SL.Sem Cert.KernelIdeal Cert.KernelIdeal.Gen Cert.Jsd
open Idealize.ShloMosaic.Pipeline (Dat)

variable (V : (c : Dev nD) → (b : Ref sig .tc) → Buf (Elt Ideal) ((c : Thread nD τ).loc b))

/-- The student logits, the teacher logits and the labels as the loss region finds them. -/
abbrev sArr (c : Dev nD) : Vec Ideal S2048x32000 .f32 := V c main_v0
abbrev tArr (c : Dev nD) : Vec Ideal S2048x32000 .f32 := V c main_v1
abbrev lArr (c : Dev nD) : Vec Ideal S2048x1 .i32 := V c main_v2

/-! ## The blocks a grid point reads -/

/-- Point `t`'s sixteen rows of the student logits, of the teacher logits and of the labels. -/
private abbrev sblk (c : Dev nD) (t : Fin cfg2.N) : Vec Ideal S16x32000 .f32 := iblk2 V c 0 t
private abbrev tblk (c : Dev nD) (t : Fin cfg2.N) : Vec Ideal S16x32000 .f32 := iblk2 V c 1 t
private abbrev lblk (c : Dev nD) (t : Fin cfg2.N) : Vec Ideal S16x1 .i32 := iblk2 V c 2 t

/-- The three row windows sit at block index (t, 0) at point `t`. -/
private theorem idx2_0 : ∀ t : Fin cfg2.N, win2_0.index t 0 = t.val ∧ win2_0.index t 1 = 0 :=
  (by decide +kernel : ∀ t : Fin grid2.N, win2_0.index t 0 = t.val ∧ win2_0.index t 1 = 0)
private theorem idx2_1 : ∀ t : Fin cfg2.N, win2_1.index t 0 = t.val ∧ win2_1.index t 1 = 0 :=
  (by decide +kernel : ∀ t : Fin grid2.N, win2_1.index t 0 = t.val ∧ win2_1.index t 1 = 0)
private theorem idx2_2 : ∀ t : Fin cfg2.N, win2_2.index t 0 = t.val ∧ win2_2.index t 1 = 0 :=
  (by decide +kernel : ∀ t : Fin grid2.N, win2_2.index t 0 = t.val ∧ win2_2.index t 1 = 0)

/-- Sixteen rows a point, 128 points: row `16 t + r` is one of the 2048. -/
private theorem row_lt (t : Fin cfg2.N) (r : Fin 16) : 16 * t.val + r.val < 2048 := by
  have hN : cfg2.N = 128 := N_2
  have := t.isLt; have := r.isLt; omega

/-- Row `r` of point `t`'s block is row `16 t + r` of the array, column by column (an element of a block sits, on each
    axis, at the block's index times the block's size plus its coordinate inside the block). -/
private theorem sblk_apply (c : Dev nD) (t : Fin cfg2.N) (r : Fin 16) (v : Fin 32000) :
    sblk V c t (ix2 r v) = sArr V c (ix2 ⟨16 * t.val + r.val, row_lt t r⟩ v) := by
  show V c main_v0 (((cfg2.win 0).blk t).view.emb (ix2 r v)) = V c main_v0 (ix2 ⟨16 * t.val + r.val, row_lt t r⟩ v)
  refine congrArg (V c main_v0) (funext fun a => Fin.ext ?_)
  match a with
  | ⟨0, _⟩ => show win2_0.index t 0 * 16 + 1 * r.val = 16 * t.val + r.val; rw [(idx2_0 t).1]; omega
  | ⟨1, _⟩ => show win2_0.index t 1 * 32000 + 1 * v.val = v.val; rw [(idx2_0 t).2]; omega

private theorem tblk_apply (c : Dev nD) (t : Fin cfg2.N) (r : Fin 16) (v : Fin 32000) :
    tblk V c t (ix2 r v) = tArr V c (ix2 ⟨16 * t.val + r.val, row_lt t r⟩ v) := by
  show V c main_v1 (((cfg2.win 1).blk t).view.emb (ix2 r v)) = V c main_v1 (ix2 ⟨16 * t.val + r.val, row_lt t r⟩ v)
  refine congrArg (V c main_v1) (funext fun a => Fin.ext ?_)
  match a with
  | ⟨0, _⟩ => show win2_1.index t 0 * 16 + 1 * r.val = 16 * t.val + r.val; rw [(idx2_1 t).1]; omega
  | ⟨1, _⟩ => show win2_1.index t 1 * 32000 + 1 * v.val = v.val; rw [(idx2_1 t).2]; omega

private theorem lblk_apply (c : Dev nD) (t : Fin cfg2.N) (r : Fin 16) :
    lblk V c t (ix2 r 0) = lArr V c (ix2 ⟨16 * t.val + r.val, row_lt t r⟩ 0) := by
  show V c main_v2 (((cfg2.win 2).blk t).view.emb (ix2 r 0)) = V c main_v2 (ix2 ⟨16 * t.val + r.val, row_lt t r⟩ 0)
  refine congrArg (V c main_v2) (funext fun a => Fin.ext ?_)
  match a with
  | ⟨0, _⟩ => show win2_2.index t 0 * 16 + 1 * r.val = 16 * t.val + r.val; rw [(idx2_2 t).1]; omega
  | ⟨1, _⟩ => show win2_2.index t 1 * 1 + 1 * 0 = 0; rw [(idx2_2 t).2]

/-- So a block's row is a row of the array. -/
private theorem brow_sblk (c : Dev nD) (t : Fin cfg2.N) (r : Fin 16) :
    brow (sblk V c t) r = rowOf (sArr V c) ⟨16 * t.val + r.val, row_lt t r⟩ :=
  funext fun v => sblk_apply V c t r v
private theorem brow_tblk (c : Dev nD) (t : Fin cfg2.N) (r : Fin 16) :
    brow (tblk V c t) r = rowOf (tArr V c) ⟨16 * t.val + r.val, row_lt t r⟩ :=
  funext fun v => tblk_apply V c t r v

/-! ## The accumulator block after each grid point -/

/-- At the first point the block is the update of the zero splat, -/
private theorem outs_first (c : Dev nD) (h : 0 < cfg2.N) :
    outsAt2 V c 0 h = step (sblk V c ⟨0, h⟩) (tblk V c ⟨0, h⟩) (lblk V c ⟨0, h⟩) (k2_pay1 (F := Ideal)) :=
  (outsAt2_A V c ⟨0, h⟩ rfl).trans
    (out2_A_3_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
      (ms2_3 ⟨0, h⟩) (hs2_3 ⟨0, h⟩) ((hcond2_0 ⟨0, h⟩).mpr rfl) (sblk V c ⟨0, h⟩) (tblk V c ⟨0, h⟩) (lblk V c ⟨0, h⟩))

/-- and at every later point of the grid the update of what the point before left. -/
private theorem outs_next (c : Dev nD) (n : ℕ) (h : n + 1 < cfg2.N) :
    outsAt2 V c (n + 1) h
      = step (sblk V c ⟨n + 1, h⟩) (tblk V c ⟨n + 1, h⟩) (lblk V c ⟨n + 1, h⟩) (outsAt2 V c n (Nat.lt_of_succ_lt h)) := by
  have hN : cfg2.N = 128 := N_2
  have h0 : ¬(⟨n + 1, h⟩ : Fin cfg2.N).val % 128 = 0 := by dsimp only; omega
  exact (outsAt2_B V c ⟨n + 1, h⟩ h0).trans
    (out2_B_3_eq (F := Ideal) c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (ms2_3 ⟨n + 1, h⟩) (hs2_3 ⟨n + 1, h⟩) (fun hc => h0 ((hcond2_0 ⟨n + 1, h⟩).mp hc))
      (sblk V c ⟨n + 1, h⟩) (tblk V c ⟨n + 1, h⟩) (lblk V c ⟨n + 1, h⟩) (outsAt2 V c n (Nat.lt_of_succ_lt h)))

/-! ## The rows' losses by row number, and the sum a grid point adds -/

/-- Row `k`'s hard loss (zero past the last row) -/
private def hardN (c : Dev nD) (k : ℕ) : EReal :=
  if h : k < 2048 then hardK (lpK (rowOf (sArr V c) ⟨k, h⟩)) (lArr V c (ix2 ⟨k, h⟩ 0)) else 0
/-- and its soft loss. -/
private def softN (c : Dev nD) (k : ℕ) : EReal :=
  if h : k < 2048 then softRow (lpK (rowOf (sArr V c) ⟨k, h⟩)) (lpK (rowOf (tArr V c) ⟨k, h⟩)) (lArr V c (ix2 ⟨k, h⟩ 0)) else 0

/-- The sixteen rows point `t` adds are rows `16 t` to `16 t + 15`. -/
private theorem pt_hard (c : Dev nD) (t : Fin cfg2.N) :
    ∑ r : Fin 16, hardK (lpK (brow (sblk V c t) r)) (lblk V c t (ix2 r 0)) = ∑ r : Fin 16, hardN V c (16 * t.val + r.val) :=
  Finset.sum_congr rfl fun r _ => by
    unfold hardN
    rw [dif_pos (row_lt t r), brow_sblk, lblk_apply]
private theorem pt_soft (c : Dev nD) (t : Fin cfg2.N) :
    ∑ r : Fin 16, softRow (lpK (brow (sblk V c t) r)) (lpK (brow (tblk V c t) r)) (lblk V c t (ix2 r 0))
      = ∑ r : Fin 16, softN V c (16 * t.val + r.val) :=
  Finset.sum_congr rfl fun r _ => by
    unfold softN
    rw [dif_pos (row_lt t r), brow_sblk, brow_tblk, lblk_apply]

/-- A sum over the first `16 (n + 1)` naturals is the sum over the first `16 n` plus the next sixteen terms. -/
private theorem sum_range_block {M : Type*} [AddCommMonoid M] (f : ℕ → M) (n : ℕ) :
    ∑ k ∈ Finset.range (16 * (n + 1)), f k = ∑ k ∈ Finset.range (16 * n), f k + ∑ r : Fin 16, f (16 * n + r.val) := by
  rw [Nat.mul_succ, Finset.sum_range_add]
  exact congrArg (_ + ·) (Finset.sum_range fun x => f (16 * n + x))

/-- THE INVARIANT: after point `n` entry (0, 0) of the block is the sum of the hard losses of rows `0` to `16 n + 15`
    (the reset is the additive zero; each point adds its sixteen rows). -/
private theorem outs_hard (c : Dev nD) : ∀ (n : ℕ) (h : n < cfg2.N),
    outsAt2 V c n h (ix2 0 0) = ∑ k ∈ Finset.range (16 * (n + 1)), hardN V c k
  | 0, h => by
    rw [outs_first V c h, step_hard (sblk V c ⟨0, h⟩) (tblk V c ⟨0, h⟩) (lblk V c ⟨0, h⟩) (k2_pay1 (F := Ideal)), pay1_apply,
      zero_add, pt_hard V c ⟨0, h⟩, sum_range_block, Nat.mul_zero, Finset.range_zero, Finset.sum_empty, zero_add]
  | n + 1, h => by
    rw [outs_next V c n h,
      step_hard (sblk V c ⟨n + 1, h⟩) (tblk V c ⟨n + 1, h⟩) (lblk V c ⟨n + 1, h⟩) (outsAt2 V c n (Nat.lt_of_succ_lt h)),
      outs_hard c n (Nat.lt_of_succ_lt h), pt_hard V c ⟨n + 1, h⟩, sum_range_block _ (n + 1)]

/-- Likewise entry (0, 1) and the soft losses. -/
private theorem outs_soft (c : Dev nD) : ∀ (n : ℕ) (h : n < cfg2.N),
    outsAt2 V c n h (ix2 0 1) = ∑ k ∈ Finset.range (16 * (n + 1)), softN V c k
  | 0, h => by
    rw [outs_first V c h, step_soft (sblk V c ⟨0, h⟩) (tblk V c ⟨0, h⟩) (lblk V c ⟨0, h⟩) (k2_pay1 (F := Ideal)), pay1_apply,
      zero_add, pt_soft V c ⟨0, h⟩, sum_range_block, Nat.mul_zero, Finset.range_zero, Finset.sum_empty, zero_add]
  | n + 1, h => by
    rw [outs_next V c n h,
      step_soft (sblk V c ⟨n + 1, h⟩) (tblk V c ⟨n + 1, h⟩) (lblk V c ⟨n + 1, h⟩) (outsAt2 V c n (Nat.lt_of_succ_lt h)),
      outs_soft c n (Nat.lt_of_succ_lt h), pt_soft V c ⟨n + 1, h⟩, sum_range_block _ (n + 1)]

/-! ## The output array after the region -/

private theorem last_lt : 127 < cfg2.N := lt_of_lt_of_eq (by decide : 127 < 128) (show cfg2.N = 128 from N_2).symm

/-- What the block holds after the last point, as contents of the output array: its one block is the array. -/
private abbrev total (c : Dev nD) : Buf (Elt Ideal) ((c : Thread nD τ).loc main_v3) := outsAt2 V c 127 last_lt

/-- The output window stays at block index (0, 0). -/
private theorem idx2_3 : ∀ (t : Fin cfg2.N) (a : Fin win2_3.shape.rank), win2_3.index t a = 0 :=
  (by decide +kernel : ∀ (t : Fin grid2.N) (a : Fin win2_3.shape.rank), win2_3.index t a = 0)

/-- The one write-back, at the last point, writes the block as it stands: a block at index (0, 0) of the array's own size
    reads the array coordinate by coordinate. -/
private theorem flushed_eq (c : Dev nD) (t : Fin cfg2.N) (hf : (cfg2.win 3).flush t = true) :
    (dat2 V c).flushed 3 t = ((cfg2.win 3).blk t).view.read (Elt Ideal) (total V c) := by
  have hN : cfg2.N = 128 := N_2
  have ht : t.val = 127 := by have := (flush2_3 t).mp hf; have := t.isLt; omega
  obtain rfl : t = ⟨127, last_lt⟩ := Fin.ext ht
  funext y
  show (cfg2.win 3).cut (grid2.coords ⟨127, last_lt⟩) ((dat2 V c).after 3 ⟨127, last_lt⟩) y
    = total V c (((cfg2.win 3).blk ⟨127, last_lt⟩).view.emb y)
  rw [after2_3]
  show outsAt2 V c 127 last_lt ((cfg2.win 3).xinj (grid2.coords ⟨127, last_lt⟩) y)
    = outsAt2 V c 127 last_lt (((cfg2.win 3).blk ⟨127, last_lt⟩).view.emb y)
  refine congrArg (outsAt2 V c 127 last_lt) (funext fun a => Fin.ext ?_)
  refine Eq.trans ?_ (win2_3.rect_emb_val ⟨127, last_lt⟩ y a).symm
  rw [idx2_3 ⟨127, last_lt⟩ a, Nat.zero_mul, Nat.zero_add]

/-- So the array ends holding it: the last point's block covers every index. -/
private theorem arrAt3_eq (c : Dev nD) : (dat2 V c).arrAt 3 cfg2.N = total V c :=
  (dat2 V c).arrAt_eq_of_cover 3 (total V c) (flushed_eq V c) fun i =>
    ⟨⟨127, last_lt⟩, (flush2_3 ⟨127, last_lt⟩).mpr rfl, by
      show i ∈ ((View.whole main_v3).slice (win2_3.rect ⟨127, last_lt⟩)).set
      rw [View.set_slice_whole, Rect.mem_set_unit]
      intro a
      show win2_3.index ⟨127, last_lt⟩ a * win2_3.size a ≤ (i a).val
        ∧ (i a).val < win2_3.index ⟨127, last_lt⟩ a * win2_3.size a + win2_3.size a
      rw [idx2_3 ⟨127, last_lt⟩ a, Nat.zero_mul, Nat.zero_add]
      exact ⟨Nat.zero_le _, (i a).isLt⟩⟩

/-- After the loss region entry (0, 0) of its output array is the sum of all 2048 rows' hard losses … -/
theorem arrAt3_hard (c : Dev nD) :
    ((dat2 V c).arrAt 3 cfg2.N : Vec Ideal S8x128 .f32) (ix2 0 0)
      = ∑ n : Fin 2048, hardK (lpK (rowOf (sArr V c) n)) (lArr V c (ix2 n 0)) := by
  rw [arrAt3_eq V c]
  have e : outsAt2 V c 127 last_lt (ix2 0 0) = ∑ k ∈ Finset.range 2048, hardN V c k := outs_hard V c 127 last_lt
  refine e.trans ?_
  rw [Finset.sum_range]
  exact Finset.sum_congr rfl fun n _ => dif_pos n.isLt

/-- … and entry (0, 1) the sum of their soft losses. -/
theorem arrAt3_soft (c : Dev nD) :
    ((dat2 V c).arrAt 3 cfg2.N : Vec Ideal S8x128 .f32) (ix2 0 1)
      = ∑ n : Fin 2048, softRow (lpK (rowOf (sArr V c) n)) (lpK (rowOf (tArr V c) n)) (lArr V c (ix2 n 0)) := by
  rw [arrAt3_eq V c]
  have e : outsAt2 V c 127 last_lt (ix2 0 1) = ∑ k ∈ Finset.range 2048, softN V c k := outs_soft V c 127 last_lt
  refine e.trans ?_
  rw [Finset.sum_range]
  exact Finset.sum_congr rfl fun n _ => dif_pos n.isLt

end Cert.KernelIdeal.Loss

end
-- ==== Proof.LogitsK0.lean ====
import proofs.«417773_j10737418240013_1_alg».proof.Proof.Gen.KernelIdeal.Frame
import proofs.«417773_j10737418240013_1_alg».proof.Proof.Spec
import Idealize.ShloMosaic.Lib.Pipeline.Value
import Idealize.ShloMosaic.PureOps.Ideal.Laws

noncomputable section

namespace Cert.KernelIdeal.Logits0

open Idealize.ShloMosaic Idealize.ShloMosaic.TcCoe Idealize.ShloMosaic.ValueIdx Idealize.SL.Sem Cert.KernelIdeal Cert.KernelIdeal.Gen Cert.Jsd
open Idealize.ShloMosaic.Pipeline (Dat)

variable (V : (c : Dev nD) → (b : Ref sig .tc) → Buf (Elt Ideal) ((c : Thread nD τ).loc b))

/-! ## The body's product at an index -/

/-- The left operand of the product is read at the output's row … -/
private theorem lhs_axis0 (i : S256x640.Idx) (q : dot_S256x2048_S640x2048_S256x640_1_1_0_0_n_n.contr.Idx) :
    (dot_S256x2048_S640x2048_S256x640_1_1_0_0_n_n.lhsIdx i q 0).val = (i 0).val := by
  unfold DotDims.lhsIdx
  rw [dif_neg (show ¬(0 : Fin S256x2048.rank) ∈ dot_S256x2048_S640x2048_S256x640_1_1_0_0_n_n.lhsBatch by decide), dif_pos (show (0 : Fin S256x2048.rank) ∈ dot_S256x2048_S640x2048_S256x640_1_1_0_0_n_n.lhsNonContracting by decide)]
  rfl
/-- … and at the contracted coordinate; -/
private theorem lhs_axis1 (i : S256x640.Idx) (q : dot_S256x2048_S640x2048_S256x640_1_1_0_0_n_n.contr.Idx) :
    (dot_S256x2048_S640x2048_S256x640_1_1_0_0_n_n.lhsIdx i q 1).val = (q ⟨0, by decide⟩).val :=
  dot_S256x2048_S640x2048_S256x640_1_1_0_0_n_n.lhsIdx_val_of_single rfl i q
/-- the right operand at the output's column … -/
private theorem rhs_axis0 (i : S256x640.Idx) (q : dot_S256x2048_S640x2048_S256x640_1_1_0_0_n_n.contr.Idx) :
    (dot_S256x2048_S640x2048_S256x640_1_1_0_0_n_n.rhsIdx i q 0).val = (i 1).val := by
  unfold DotDims.rhsIdx
  rw [dif_neg (show ¬(0 : Fin S640x2048.rank) ∈ dot_S256x2048_S640x2048_S256x640_1_1_0_0_n_n.rhsBatch by decide), dif_pos (show (0 : Fin S640x2048.rank) ∈ dot_S256x2048_S640x2048_S256x640_1_1_0_0_n_n.rhsNonContracting by decide)]
  rfl
/-- … and at the contracted coordinate. -/
private theorem rhs_axis1 (i : S256x640.Idx) (q : dot_S256x2048_S640x2048_S256x640_1_1_0_0_n_n.contr.Idx) :
    (dot_S256x2048_S640x2048_S256x640_1_1_0_0_n_n.rhsIdx i q 1).val = (q ⟨0, by decide⟩).val :=
  dot_S256x2048_S640x2048_S256x640_1_1_0_0_n_n.rhsIdx_val_of_single rfl i q

/-- The body's result at `(p, q)`: the narrowing of the operands is the identity on the extended reals and the
    accumulator starts at zero, so it is `Σ_k x0 (p, k) · x1 (q, k)`. -/
private theorem product_apply (x0 : Vec Ideal S256x2048 .f32) (x1 : Vec Ideal S640x2048 .f32) (p : Fin 256) (q : Fin 640) :
    k0_pay1 x0 x1 (ix2 p q) = ∑ k : Fin (2048 : ℕ), x0 (ix2 p k) * x1 (ix2 q k) := by
  unfold k0_pay1
  simp only [matmul]
  rw [Ideal.matmul_constant_zero_apply, ← Equiv.sum_comp (contrEquiv1 dot_S256x2048_S640x2048_S256x640_1_1_0_0_n_n (2048 : ℕ) rfl rfl).symm]
  refine Finset.sum_congr rfl fun k _ => ?_
  have hk := contrEquiv1_symm_val dot_S256x2048_S640x2048_S256x640_1_1_0_0_n_n (2048 : ℕ) rfl rfl k
  have el : dot_S256x2048_S640x2048_S256x640_1_1_0_0_n_n.lhsIdx (ix2 p q) ((contrEquiv1 dot_S256x2048_S640x2048_S256x640_1_1_0_0_n_n (2048 : ℕ) rfl rfl).symm k) = ix2 p k := funext fun a => Fin.ext (by
    match a with
    | ⟨0, _⟩ => exact lhs_axis0 _ _
    | ⟨1, _⟩ => exact (lhs_axis1 _ _).trans hk)
  have er : dot_S256x2048_S640x2048_S256x640_1_1_0_0_n_n.rhsIdx (ix2 p q) ((contrEquiv1 dot_S256x2048_S640x2048_S256x640_1_1_0_0_n_n (2048 : ℕ) rfl rfl).symm k) = ix2 q k := funext fun a => Fin.ext (by
    match a with
    | ⟨0, _⟩ => exact rhs_axis0 _ _
    | ⟨1, _⟩ => exact (rhs_axis1 _ _).trans hk)
  rw [el, er]
  rfl

/-! ## From the body's product to the logits -/

/-- The body's result at an index of its block is the logit at an index of the array, once each operand's row there is
    the argument's row. -/
private theorem product_eq_logits (x0 : Vec Ideal S256x2048 .f32) (x1 : Vec Ideal S640x2048 .f32)
    (A : Vec Ideal S2048x2048 .f32) (B : Vec Ideal S32000x2048 .f32) (y : S256x640.Idx) (i : S2048x32000.Idx)
    (h0 : ∀ k : Fin (2048 : ℕ), x0 (ix2 (y 0) k) = A (ix2 (i 0) k))
    (h1 : ∀ k : Fin (2048 : ℕ), x1 (ix2 (y 1) k) = B (ix2 (i 1) k)) :
    k0_pay1 x0 x1 y = logits A B i := by
  obtain ⟨p, q, rfl⟩ : ∃ (p : Fin 256) (q : Fin 640), y = ix2 p q := ⟨y 0, y 1, eq_ix2 y⟩
  rw [product_apply]
  unfold logits
  exact Finset.sum_congr rfl fun k _ => by rw [← h0 k, ← h1 k]

/-! ## The blocks -/

private theorem zero_offsets : (![0, 0] : Fin 2 → Nat) = fun _ => 0 := funext fun a => by fin_cases a <;> rfl

/-- The printed index maps, decided once over the grid: at point `t = 50·ni + vi` the output's block is `(ni, vi)`, the
    first operand's `(ni, 0)` and the second's `(vi, 0)`. -/
private theorem index_facts : ∀ t : Fin cfg0.N,
    win0_2.index t (0 : Fin 2) = t.val / 50 ∧ win0_2.index t (1 : Fin 2) = t.val % 50
    ∧ win0_0.index t (0 : Fin 2) = t.val / 50 ∧ win0_0.index t (1 : Fin 2) = 0
    ∧ win0_1.index t (0 : Fin 2) = t.val % 50 ∧ win0_1.index t (1 : Fin 2) = 0 :=
  (by decide +kernel : ∀ t : Fin grid0.N, _)

/-- What point `t` writes back is block `t` of the logits of the two argument arrays. -/
private theorem flushed_eq (c : Dev nD) (t : Fin cfg0.N) :
    (dat0 V c).flushed 2 t = ((cfg0.win 2).blk t).view.read (Elt Ideal)
      (logits (V c main_arg0 : Vec Ideal S2048x2048 .f32) (V c main_arg1 : Vec Ideal S32000x2048 .f32)) := by
  show (cfg0.win 2).cut (grid0.coords t) ((dat0 V c).after 2 t) = _
  rw [after0_2]
  unfold out0_2
  rw [View.canon_unit_zero zero_offsets]
  simp only [View.ld_unit_zero (S := S256x2048) zero_offsets, View.ld_unit_zero (S := S640x2048) zero_offsets]
  obtain ⟨e20, e21, e00, e01, e10, e11⟩ := index_facts t
  funext j
  refine product_eq_logits _ _ _ _ _ _ (fun k => ?_) (fun k => ?_)
  · show (V c main_arg0 : Vec Ideal S2048x2048 .f32) (((cfg0.win 0).blk t).view.emb (ix2 ((win0 2).xinj (grid0.coords t) j 0) k)) = _
    refine congrArg (V c main_arg0 : Vec Ideal S2048x2048 .f32) (funext fun a => Fin.ext ?_)
    match a with
    | ⟨0, _⟩ =>
      show win0_0.index t (0 : Fin 2) * 256 + 1 * (j 0).val = win0_2.index t (0 : Fin 2) * 256 + 1 * (j 0).val
      rw [e00, e20]
    | ⟨1, _⟩ =>
      show win0_0.index t (1 : Fin 2) * (2048 : ℕ) + 1 * k.val = k.val
      rw [e01]; omega
  · show (V c main_arg1 : Vec Ideal S32000x2048 .f32) (((cfg0.win 1).blk t).view.emb (ix2 ((win0 2).xinj (grid0.coords t) j 1) k)) = _
    refine congrArg (V c main_arg1 : Vec Ideal S32000x2048 .f32) (funext fun a => Fin.ext ?_)
    match a with
    | ⟨0, _⟩ =>
      show win0_1.index t (0 : Fin 2) * 640 + 1 * (j 1).val = win0_2.index t (1 : Fin 2) * 640 + 1 * (j 1).val
      rw [e10, e21]
    | ⟨1, _⟩ =>
      show win0_1.index t (1 : Fin 2) * (2048 : ℕ) + 1 * k.val = k.val
      rw [e11]; omega

/-- An index of the array is in point `t`'s block iff each coordinate is in the block's range on its axis. -/
private theorem mem_blk (t : Fin cfg0.N) (i : S2048x32000.Idx) :
    i ∈ ((cfg0.win 2).blk t).view.set ↔ ∀ a : Fin 2, win0_2.index t a * S256x640.size a ≤ (i a).val ∧ (i a).val < win0_2.index t a * S256x640.size a + S256x640.size a := by
  show i ∈ ((View.whole main_v0).slice (win0_2.rect t)).set ↔ _
  rw [View.set_slice_whole, Rect.mem_set_unit]
  exact Iff.rfl

/-- The blocks tile the array: the entry `(n, v)` is in the block of the point `50·(n / 256) + v / 640`. -/
private theorem cover (i : S2048x32000.Idx) :
    ∃ t : Fin cfg0.N, (cfg0.win 2).flush t = true ∧ i ∈ ((cfg0.win 2).blk t).view.set := by
  have hi0 : (i 0).val < 2048 := (i 0).isLt
  have hi1 : (i 1).val < 32000 := (i 1).isLt
  have hN : cfg0.N = 400 := N_0
  obtain ⟨t, ht⟩ : ∃ t : Fin cfg0.N, t.val = 50 * ((i 0).val / 256) + (i 1).val / 640 := ⟨⟨_, by rw [hN]; omega⟩, rfl⟩
  obtain ⟨e20, e21, -⟩ := index_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    rw [e20, ht]; omega
  | ⟨1, _⟩ =>
    show win0_2.index t (1 : Fin 2) * 640 ≤ (i 1).val ∧ (i 1).val < win0_2.index t (1 : Fin 2) * 640 + 640
    rw [e21, ht]; omega

/-- The student's linear layer: after its region the output array holds the logits of the two argument arrays. -/
theorem arrAt_logits (c : Dev nD) :
    ((dat0 V c).arrAt 2 cfg0.N : Vec Ideal S2048x32000 .f32)
      = logits (V c main_arg0 : Vec Ideal S2048x2048 .f32) (V c main_arg1 : Vec Ideal S32000x2048 .f32) :=
  (dat0 V c).arrAt_eq_of_cover 2
    (logits (V c main_arg0 : Vec Ideal S2048x2048 .f32) (V c main_arg1 : Vec Ideal S32000x2048 .f32))
    (fun t _ => flushed_eq V c t) cover

end Cert.KernelIdeal.Logits0

end
-- ==== Proof.LogitsK1.lean ====
import proofs.«417773_j10737418240013_1_alg».proof.Proof.Gen.KernelIdeal.Frame
import proofs.«417773_j10737418240013_1_alg».proof.Proof.Spec
import Idealize.ShloMosaic.Lib.Pipeline.Value
import Idealize.ShloMosaic.PureOps.Ideal.Laws

noncomputable section

namespace Cert.KernelIdeal.Logits1

open Idealize.ShloMosaic Idealize.ShloMosaic.TcCoe Idealize.ShloMosaic.ValueIdx Idealize.SL.Sem Cert.KernelIdeal Cert.KernelIdeal.Gen Cert.Jsd
open Idealize.ShloMosaic.Pipeline (Dat)

variable (V : (c : Dev nD) → (b : Ref sig .tc) → Buf (Elt Ideal) ((c : Thread nD τ).loc b))

/-! ## The body's product at an index -/

/-- The left operand of the product is read at the output's row … -/
private theorem lhs_axis0 (i : S256x640.Idx) (q : dot_S256x4096_S640x4096_S256x640_1_1_0_0_n_n.contr.Idx) :
    (dot_S256x4096_S640x4096_S256x640_1_1_0_0_n_n.lhsIdx i q 0).val = (i 0).val := by
  unfold DotDims.lhsIdx
  rw [dif_neg (show ¬(0 : Fin S256x4096.rank) ∈ dot_S256x4096_S640x4096_S256x640_1_1_0_0_n_n.lhsBatch by decide), dif_pos (show (0 : Fin S256x4096.rank) ∈ dot_S256x4096_S640x4096_S256x640_1_1_0_0_n_n.lhsNonContracting by decide)]
  rfl
/-- … and at the contracted coordinate; -/
private theorem lhs_axis1 (i : S256x640.Idx) (q : dot_S256x4096_S640x4096_S256x640_1_1_0_0_n_n.contr.Idx) :
    (dot_S256x4096_S640x4096_S256x640_1_1_0_0_n_n.lhsIdx i q 1).val = (q ⟨0, by decide⟩).val :=
  dot_S256x4096_S640x4096_S256x640_1_1_0_0_n_n.lhsIdx_val_of_single rfl i q
/-- the right operand at the output's column … -/
private theorem rhs_axis0 (i : S256x640.Idx) (q : dot_S256x4096_S640x4096_S256x640_1_1_0_0_n_n.contr.Idx) :
    (dot_S256x4096_S640x4096_S256x640_1_1_0_0_n_n.rhsIdx i q 0).val = (i 1).val := by
  unfold DotDims.rhsIdx
  rw [dif_neg (show ¬(0 : Fin S640x4096.rank) ∈ dot_S256x4096_S640x4096_S256x640_1_1_0_0_n_n.rhsBatch by decide), dif_pos (show (0 : Fin S640x4096.rank) ∈ dot_S256x4096_S640x4096_S256x640_1_1_0_0_n_n.rhsNonContracting by decide)]
  rfl
/-- … and at the contracted coordinate. -/
private theorem rhs_axis1 (i : S256x640.Idx) (q : dot_S256x4096_S640x4096_S256x640_1_1_0_0_n_n.contr.Idx) :
    (dot_S256x4096_S640x4096_S256x640_1_1_0_0_n_n.rhsIdx i q 1).val = (q ⟨0, by decide⟩).val :=
  dot_S256x4096_S640x4096_S256x640_1_1_0_0_n_n.rhsIdx_val_of_single rfl i q

/-- The body's result at `(p, q)`: the narrowing of the operands is the identity on the extended reals and the
    accumulator starts at zero, so it is `Σ_k x0 (p, k) · x1 (q, k)`. -/
private theorem product_apply (x0 : Vec Ideal S256x4096 .f32) (x1 : Vec Ideal S640x4096 .f32) (p : Fin 256) (q : Fin 640) :
    k1_pay1 x0 x1 (ix2 p q) = ∑ k : Fin (4096 : ℕ), x0 (ix2 p k) * x1 (ix2 q k) := by
  unfold k1_pay1
  simp only [matmul]
  rw [Ideal.matmul_constant_zero_apply, ← Equiv.sum_comp (contrEquiv1 dot_S256x4096_S640x4096_S256x640_1_1_0_0_n_n (4096 : ℕ) rfl rfl).symm]
  refine Finset.sum_congr rfl fun k _ => ?_
  have hk := contrEquiv1_symm_val dot_S256x4096_S640x4096_S256x640_1_1_0_0_n_n (4096 : ℕ) rfl rfl k
  have el : dot_S256x4096_S640x4096_S256x640_1_1_0_0_n_n.lhsIdx (ix2 p q) ((contrEquiv1 dot_S256x4096_S640x4096_S256x640_1_1_0_0_n_n (4096 : ℕ) rfl rfl).symm k) = ix2 p k := funext fun a => Fin.ext (by
    match a with
    | ⟨0, _⟩ => exact lhs_axis0 _ _
    | ⟨1, _⟩ => exact (lhs_axis1 _ _).trans hk)
  have er : dot_S256x4096_S640x4096_S256x640_1_1_0_0_n_n.rhsIdx (ix2 p q) ((contrEquiv1 dot_S256x4096_S640x4096_S256x640_1_1_0_0_n_n (4096 : ℕ) rfl rfl).symm k) = ix2 q k := funext fun a => Fin.ext (by
    match a with
    | ⟨0, _⟩ => exact rhs_axis0 _ _
    | ⟨1, _⟩ => exact (rhs_axis1 _ _).trans hk)
  rw [el, er]
  rfl

/-! ## From the body's product to the logits -/

/-- The body's result at an index of its block is the logit at an index of the array, once each operand's row there is
    the argument's row. -/
private theorem product_eq_logits (x0 : Vec Ideal S256x4096 .f32) (x1 : Vec Ideal S640x4096 .f32)
    (A : Vec Ideal S2048x4096 .f32) (B : Vec Ideal S32000x4096 .f32) (y : S256x640.Idx) (i : S2048x32000.Idx)
    (h0 : ∀ k : Fin (4096 : ℕ), x0 (ix2 (y 0) k) = A (ix2 (i 0) k))
    (h1 : ∀ k : Fin (4096 : ℕ), x1 (ix2 (y 1) k) = B (ix2 (i 1) k)) :
    k1_pay1 x0 x1 y = logits A B i := by
  obtain ⟨p, q, rfl⟩ : ∃ (p : Fin 256) (q : Fin 640), y = ix2 p q := ⟨y 0, y 1, eq_ix2 y⟩
  rw [product_apply]
  unfold logits
  exact Finset.sum_congr rfl fun k _ => by rw [← h0 k, ← h1 k]

/-! ## The blocks -/

private theorem zero_offsets : (![0, 0] : Fin 2 → Nat) = fun _ => 0 := funext fun a => by fin_cases a <;> rfl

/-- The printed index maps, decided once over the grid: at point `t = 50·ni + vi` the output's block is `(ni, vi)`, the
    first operand's `(ni, 0)` and the second's `(vi, 0)`. -/
private theorem index_facts : ∀ t : Fin cfg1.N,
    win1_2.index t (0 : Fin 2) = t.val / 50 ∧ win1_2.index t (1 : Fin 2) = t.val % 50
    ∧ win1_0.index t (0 : Fin 2) = t.val / 50 ∧ win1_0.index t (1 : Fin 2) = 0
    ∧ win1_1.index t (0 : Fin 2) = t.val % 50 ∧ win1_1.index t (1 : Fin 2) = 0 :=
  (by decide +kernel : ∀ t : Fin grid1.N, _)

/-- What point `t` writes back is block `t` of the logits of the two argument arrays. -/
private theorem flushed_eq (c : Dev nD) (t : Fin cfg1.N) :
    (dat1 V c).flushed 2 t = ((cfg1.win 2).blk t).view.read (Elt Ideal)
      (logits (V c main_arg2 : Vec Ideal S2048x4096 .f32) (V c main_arg3 : Vec Ideal S32000x4096 .f32)) := by
  show (cfg1.win 2).cut (grid1.coords t) ((dat1 V c).after 2 t) = _
  rw [after1_2]
  unfold out1_2
  rw [View.canon_unit_zero zero_offsets]
  simp only [View.ld_unit_zero (S := S256x4096) zero_offsets, View.ld_unit_zero (S := S640x4096) zero_offsets]
  obtain ⟨e20, e21, e00, e01, e10, e11⟩ := index_facts t
  funext j
  refine product_eq_logits _ _ _ _ _ _ (fun k => ?_) (fun k => ?_)
  · show (V c main_arg2 : Vec Ideal S2048x4096 .f32) (((cfg1.win 0).blk t).view.emb (ix2 ((win1 2).xinj (grid1.coords t) j 0) k)) = _
    refine congrArg (V c main_arg2 : Vec Ideal S2048x4096 .f32) (funext fun a => Fin.ext ?_)
    match a with
    | ⟨0, _⟩ =>
      show win1_0.index t (0 : Fin 2) * 256 + 1 * (j 0).val = win1_2.index t (0 : Fin 2) * 256 + 1 * (j 0).val
      rw [e00, e20]
    | ⟨1, _⟩ =>
      show win1_0.index t (1 : Fin 2) * (4096 : ℕ) + 1 * k.val = k.val
      rw [e01]; omega
  · show (V c main_arg3 : Vec Ideal S32000x4096 .f32) (((cfg1.win 1).blk t).view.emb (ix2 ((win1 2).xinj (grid1.coords t) j 1) k)) = _
    refine congrArg (V c main_arg3 : Vec Ideal S32000x4096 .f32) (funext fun a => Fin.ext ?_)
    match a with
    | ⟨0, _⟩ =>
      show win1_1.index t (0 : Fin 2) * 640 + 1 * (j 1).val = win1_2.index t (1 : Fin 2) * 640 + 1 * (j 1).val
      rw [e10, e21]
    | ⟨1, _⟩ =>
      show win1_1.index t (1 : Fin 2) * (4096 : ℕ) + 1 * k.val = k.val
      rw [e11]; omega

/-- An index of the array is in point `t`'s block iff each coordinate is in the block's range on its axis. -/
private theorem mem_blk (t : Fin cfg1.N) (i : S2048x32000.Idx) :
    i ∈ ((cfg1.win 2).blk t).view.set ↔ ∀ a : Fin 2, win1_2.index t a * S256x640.size a ≤ (i a).val ∧ (i a).val < win1_2.index t a * S256x640.size a + S256x640.size a := by
  show i ∈ ((View.whole main_v1).slice (win1_2.rect t)).set ↔ _
  rw [View.set_slice_whole, Rect.mem_set_unit]
  exact Iff.rfl

/-- The blocks tile the array: the entry `(n, v)` is in the block of the point `50·(n / 256) + v / 640`. -/
private theorem cover (i : S2048x32000.Idx) :
    ∃ t : Fin cfg1.N, (cfg1.win 2).flush t = true ∧ i ∈ ((cfg1.win 2).blk t).view.set := by
  have hi0 : (i 0).val < 2048 := (i 0).isLt
  have hi1 : (i 1).val < 32000 := (i 1).isLt
  have hN : cfg1.N = 400 := N_1
  obtain ⟨t, ht⟩ : ∃ t : Fin cfg1.N, t.val = 50 * ((i 0).val / 256) + (i 1).val / 640 := ⟨⟨_, by rw [hN]; omega⟩, rfl⟩
  obtain ⟨e20, e21, -⟩ := index_facts t
  refine ⟨t, flush1_2 t, ?_⟩
  rw [mem_blk]
  intro a
  match a with
  | ⟨0, _⟩ =>
    show win1_2.index t (0 : Fin 2) * 256 ≤ (i 0).val ∧ (i 0).val < win1_2.index t (0 : Fin 2) * 256 + 256
    rw [e20, ht]; omega
  | ⟨1, _⟩ =>
    show win1_2.index t (1 : Fin 2) * 640 ≤ (i 1).val ∧ (i 1).val < win1_2.index t (1 : Fin 2) * 640 + 640
    rw [e21, ht]; omega

/-- The teacher's linear layer: after its region the output array holds the logits of the two argument arrays. -/
theorem arrAt_logits (c : Dev nD) :
    ((dat1 V c).arrAt 2 cfg1.N : Vec Ideal S2048x32000 .f32)
      = logits (V c main_arg2 : Vec Ideal S2048x4096 .f32) (V c main_arg3 : Vec Ideal S32000x4096 .f32) :=
  (dat1 V c).arrAt_eq_of_cover 2
    (logits (V c main_arg2 : Vec Ideal S2048x4096 .f32) (V c main_arg3 : Vec Ideal S32000x4096 .f32))
    (fun t _ => flushed_eq V c t) cover

end Cert.KernelIdeal.Logits1

end
-- ==== Proof.KernelValue.lean ====
import proofs.«417773_j10737418240013_1_alg».proof.Proof.Gen.KernelIdeal.Frame
import proofs.«417773_j10737418240013_1_alg».proof.Proof.LossAccum
import proofs.«417773_j10737418240013_1_alg».proof.Proof.LogitsK0
import proofs.«417773_j10737418240013_1_alg».proof.Proof.LogitsK1
import Idealize.ShloMosaic.Lib.StableHlo.Run
import Idealize.ShloMosaic.Lib.Pipeline.Value

noncomputable section

namespace Cert.KernelIdeal.Result

open Idealize.ShloMosaic Idealize.ShloMosaic.TcCoe Idealize.ShloMosaic.ValueIdx Idealize.SL.Sem Cert.KernelIdeal Cert.KernelIdeal.Gen Cert.Jsd

variable (m : (ℓ : Loc nD τ sig) → Buf (Elt Ideal) ℓ) (ρ : Dev nD → PrngReg)

/-- The five argument arrays as launched. -/
abbrev xS (c : Dev nD) : Vec Ideal S2048x2048 .f32 := m ((c.tc : Thread nD τ).loc main_arg0)
abbrev wS (c : Dev nD) : Vec Ideal S32000x2048 .f32 := m ((c.tc : Thread nD τ).loc main_arg1)
abbrev xT (c : Dev nD) : Vec Ideal S2048x4096 .f32 := m ((c.tc : Thread nD τ).loc main_arg2)
abbrev wT (c : Dev nD) : Vec Ideal S32000x4096 .f32 := m ((c.tc : Thread nD τ).loc main_arg3)
abbrev lab (c : Dev nD) : Vec Ideal S2048 .i32 := m ((c.tc : Thread nD τ).loc main_arg4)

/-! ### The host tail at one block

The operations after the last region read entries (0, 0) and (0, 1) of the loss region's [8, 128] output block
(a slice and a reshape to a scalar each), divide each by 2048, halve each and add. -/

/-- The scalar shape has one row-major position. -/
private theorem rm0 (i : S_.Idx) : (S_.rowMajor i).val = 0 := by
  have h := (S_.rowMajor i).isLt
  have h1 : S_.numel = 1 := by decide
  omega

/-- So has the [1, 1] shape. -/
private theorem rm11 : (S1x1.rowMajor (ix2 0 0)).val = 0 := by
  rw [Shape.rowMajor_val_two]; rfl

/-- The slice [0:1, 0:1] reshaped to a scalar is entry (0, 0) of the block … -/
private theorem cell0 (B : Vec Ideal S8x128 .f32) (i : S_.Idx) :
    shapeCast S_ (extractStridedSlice S1x1 ![0, 0] B slices_S8x128_S1x1_0_0) shapeCasts_S1x1_S_ i = B (ix2 0 0) := by
  refine (shapeCast_apply _ _ i (ix2 0 0) (rm11.trans (rm0 i).symm)).trans ?_
  refine extractStridedSlice_apply _ _ _ _ (ix2 0 0) fun a => ?_
  match a with
  | ⟨0, _⟩ => rfl
  | ⟨1, _⟩ => rfl

/-- … and the slice [0:1, 1:2] is entry (0, 1). -/
private theorem cell1 (B : Vec Ideal S8x128 .f32) (i : S_.Idx) :
    shapeCast S_ (extractStridedSlice S1x1 ![0, 1] B slices_S8x128_S1x1_0_1) shapeCasts_S1x1_S_ i = B (ix2 0 1) := by
  refine (shapeCast_apply _ _ i (ix2 0 0) (rm11.trans (rm0 i).symm)).trans ?_
  refine extractStridedSlice_apply _ _ _ _ (ix2 0 1) fun a => ?_
  match a with
  | ⟨0, _⟩ => rfl
  | ⟨1, _⟩ => rfl

/-- The tail's operations on a block `B`: pointwise the quotient, product and sum of the extended reals, that is
    `tailFn` of the two entries. -/
private theorem tail_at (B : Vec Ideal S8x128 .f32) :
    (addf
      (mulf (constant (F := Ideal) S_ FTy.f32 0x3F000000#32)
        (Host.divf
          (fun i => shapeCast S_ (extractStridedSlice S1x1 ![0, 0] B slices_S8x128_S1x1_0_0) shapeCasts_S1x1_S_ i)
          (constant (F := Ideal) S_ FTy.f32 0x45000000#32)))
      (mulf (constant (F := Ideal) S_ FTy.f32 0x3F000000#32)
        (Host.divf
          (fun i => shapeCast S_ (extractStridedSlice S1x1 ![0, 1] B slices_S8x128_S1x1_0_1) shapeCasts_S1x1_S_ i)
          (constant (F := Ideal) S_ FTy.f32 0x45000000#32))) : Vec Ideal S_ .f32)
      = fun _ => tailFn (B (ix2 0 0)) (B (ix2 0 1)) := by
  funext i
  show half * Ideal.div (shapeCast S_ (extractStridedSlice S1x1 ![0, 0] B slices_S8x128_S1x1_0_0) shapeCasts_S1x1_S_ i) c2048
      + half * Ideal.div (shapeCast S_ (extractStridedSlice S1x1 ![0, 1] B slices_S8x128_S1x1_0_1) shapeCasts_S1x1_S_ i) c2048 = _
  rw [cell0, cell1]
  rfl

/-- The result buffer after the tail, from the loss region's output array at the boundary before it. -/
private theorem tail_read (c : Dev nD) :
    (W5 m ρ c (Proc.devRef .tc main_v12) : Vec Ideal S_ .f32)
      = fun _ => tailFn ((W4 m ρ c (Proc.devRef .tc main_v3) : Vec Ideal S8x128 .f32) (ix2 0 0))
          ((W4 m ρ c (Proc.devRef .tc main_v3) : Vec Ideal S8x128 .f32) (ix2 0 1)) := by
  show StableHlo.after hostOps3 (W4 m ρ c) (Proc.devRef .tc main_v12) = _
  after_results
  exact tail_at (W4 m ρ c (Proc.devRef .tc main_v3))

/-! ### The loss region's three inputs, walked back to the launch memory -/

/-- The student logits: not written by the label reshape nor by the teacher's region; the student region's output
    array, which holds the logits of the first two arguments as launched. -/
private theorem v0_eq (c : Dev nD) :
    (V3 m ρ c main_v0 : Vec Ideal S2048x32000 .f32) = logits (xS m c) (wS m c) := by
  have e3 : W3 m ρ c (Proc.devRef .tc main_v0) = W2 m ρ c (Proc.devRef .tc main_v0) := by
    show StableHlo.after hostOps2 (W2 m ρ c) (Proc.devRef .tc main_v0) = _
    after_results
  have e2 : W2 m ρ c (Proc.devRef .tc main_v0) = W1 m ρ c (Proc.devRef .tc main_v0) :=
    W2_of_ne m ρ c main_v0 (by decide)
  have e1 : W1 m ρ c (Proc.devRef .tc main_v0) = (dat0 (V0 m ρ) c).arrAt 2 cfg0.N := W1_arr m ρ c 2
  exact e3.trans (e2.trans (e1.trans (Logits0.arrAt_logits (V0 m ρ) c)))

/-- The teacher logits: not written by the label reshape; the teacher region's output array, which holds the logits
    of the third and fourth arguments, themselves untouched by the student's region. -/
private theorem v1_eq (c : Dev nD) :
    (V3 m ρ c main_v1 : Vec Ideal S2048x32000 .f32) = logits (xT m c) (wT m c) := by
  have e3 : W3 m ρ c (Proc.devRef .tc main_v1) = W2 m ρ c (Proc.devRef .tc main_v1) := by
    show StableHlo.after hostOps2 (W2 m ρ c) (Proc.devRef .tc main_v1) = _
    after_results
  have e2 : W2 m ρ c (Proc.devRef .tc main_v1) = (dat1 (V1 m ρ) c).arrAt 2 cfg1.N := W2_arr m ρ c 2
  have a2 : (V1 m ρ c main_arg2 : Vec Ideal S2048x4096 .f32) = xT m c := W1_of_ne m ρ c main_arg2 (by decide)
  have a3 : (V1 m ρ c main_arg3 : Vec Ideal S32000x4096 .f32) = wT m c := W1_of_ne m ρ c main_arg3 (by decide)
  refine e3.trans (e2.trans ((Logits1.arrAt_logits (V1 m ρ) c).trans ?_))
  rw [a2, a3]

/-- The labels as a column: the reshape of the fifth argument, which no region writes; entry (n, 0) is label n. -/
private theorem v2_at (c : Dev nD) (n : Fin 2048) :
    (V3 m ρ c main_v2 : Vec Ideal S2048x1 .i32) (ix2 n 0) = lab m c (ix1 n) := by
  have e3 : (W3 m ρ c (Proc.devRef .tc main_v2) : Vec Ideal S2048x1 .i32)
      = fun i => shapeCast S2048x1 (W2 m ρ c (Proc.devRef .tc main_arg4) : Vec Ideal S2048 .i32) shapeCasts_S2048_S2048x1 i := by
    show StableHlo.after hostOps2 (W2 m ρ c) (Proc.devRef .tc main_v2) = _
    after_results
    rfl
  have e2 : (W2 m ρ c (Proc.devRef .tc main_arg4) : Vec Ideal S2048 .i32) = lab m c :=
    (W2_of_ne m ρ c main_arg4 (by decide)).trans (W1_of_ne m ρ c main_arg4 (by decide))
  show (W3 m ρ c (Proc.devRef .tc main_v2) : Vec Ideal S2048x1 .i32) (ix2 n 0) = _
  rw [e3, e2]
  refine shapeCast_apply _ _ (ix2 n 0) (ix1 n) ?_
  rw [Shape.rowMajor_val_one, Shape.rowMajor_val_two]
  show n.val = n.val * 1 + 0
  omega

/-- The result buffer at the last boundary: the tail of the two totals over all 2048 rows, each row's losses
    computed from the rows of the two logits arrays and the row's label. -/
theorem W5_result (c : Dev nD) :
    (W5 m ρ c (Proc.devRef .tc main_v12) : Vec Ideal S_ .f32)
      = fun _ => tailFn
          (∑ n : Fin 2048, hardK (lpK (rowOf (logits (xS m c) (wS m c)) n)) (lab m c (ix1 n)))
          (∑ n : Fin 2048, softRow (lpK (rowOf (logits (xS m c) (wS m c)) n))
              (lpK (rowOf (logits (xT m c) (wT m c)) n)) (lab m c (ix1 n))) := by
  -- the tail reads the loss region's output array, which that region's write-backs left
  have hB : (W4 m ρ c (Proc.devRef .tc main_v3) : Vec Ideal S8x128 .f32) = (dat2 (V3 m ρ) c).arrAt 3 cfg2.N :=
    W4_arr m ρ c 3
  -- its entry (0, 0): the hard losses' total, each row's from the student logits and the label as launched
  have hh : ((dat2 (V3 m ρ) c).arrAt 3 cfg2.N : Vec Ideal S8x128 .f32) (ix2 0 0)
      = ∑ n : Fin 2048, hardK (lpK (rowOf (logits (xS m c) (wS m c)) n)) (lab m c (ix1 n)) := by
    rw [Loss.arrAt3_hard (V3 m ρ) c]
    show (_ : EReal) = _
    refine Finset.sum_congr rfl fun n _ => ?_
    show hardK (lpK (rowOf (V3 m ρ c main_v0) n)) ((V3 m ρ c main_v2 : Vec Ideal S2048x1 .i32) (ix2 n 0)) = _
    rw [v0_eq m ρ c, v2_at m ρ c n]
  -- its entry (0, 1): the soft losses' total, from both logits arrays and the label
  have hs : ((dat2 (V3 m ρ) c).arrAt 3 cfg2.N : Vec Ideal S8x128 .f32) (ix2 0 1)
      = ∑ n : Fin 2048, softRow (lpK (rowOf (logits (xS m c) (wS m c)) n))
          (lpK (rowOf (logits (xT m c) (wT m c)) n)) (lab m c (ix1 n)) := by
    rw [Loss.arrAt3_soft (V3 m ρ) c]
    show (_ : EReal) = _
    refine Finset.sum_congr rfl fun n _ => ?_
    show softRow (lpK (rowOf (V3 m ρ c main_v0) n)) (lpK (rowOf (V3 m ρ c main_v1) n))
      ((V3 m ρ c main_v2 : Vec Ideal S2048x1 .i32) (ix2 n 0)) = _
    rw [v0_eq m ρ c, v1_eq m ρ c, v2_at m ρ c n]
  rw [tail_read m ρ c, hB, hh, hs]

end Cert.KernelIdeal.Result

end
-- ==== Proof.RefLsm.lean ====
import proofs.«417773_j10737418240013_1_alg».proof.Proof.RefReadP
import proofs.«417773_j10737418240013_1_alg».proof.Proof.Spec

noncomputable section

namespace Cert.ReferenceIdeal.RefValue

open Idealize.ShloMosaic Idealize.ShloMosaic.ValueIdx Cert.ReferenceIdeal Cert.ReferenceIdeal.ReadP Cert.Jsd

/-! ### The row maximum

A one-axis `stablehlo.reduce` with `maximum` over the vocabulary axis, read at row `n`, is the fold of `max` from the
initial value over the entries of that row. -/

/-- Row `n` with the vocabulary coordinate `k` inserted is the entry `(n, k)`. -/
private theorem lift_row (h : S2048x32000.Reduces [1] S2048) (n : Fin 2048) (k : Fin 32000) :
    h.lift (ix1 n) k = ix2 n k :=
  funext fun a => Fin.ext (by match a with | ⟨0, _⟩ => rfl | ⟨1, _⟩ => rfl)

private theorem reduce_max_row (z : Vec Ideal S2048x32000 .f32) (c : Vec Ideal S_ .f32)
    (h' : S2048x32000.ReducesTo [1] S2048) (hu : 0 < S_.numel) (n : Fin 2048) :
    Host.reduce (FloatOps.maximumf (F := Ideal) (φ := .f32)) z c h' hu (ix1 n)
      = (Finset.univ : Finset (Fin 32000)).fold max (c (Shape.Idx.first hu)) (rowOf z n) := by
  have h : S2048x32000.Reduces [1] S2048 := by decide
  have e : (fun k : Fin 32000 => z (h.lift (ix1 n) k)) = rowOf z n :=
    funext fun k => congrArg z (lift_row h n k)
  rw [Host.reduce_eq_fold_single (FloatOps.maximumf (F := Ideal) (φ := .f32)) z c h' h hu (ix1 n)]
  exact congrArg (fun f => (Finset.univ : Finset (Fin 32000)).fold max (c (Shape.Idx.first hu)) f) e

/-! ### Division by the temperature 1 -/

/-- The f32 pattern of 1.0 denotes the extended real 1. -/
private theorem ofBits_one_f32 : Ideal.ofBits .f32 0x3F800000#32 = 1 := by
  simp [Ideal.ofBits, Ideal.ieee, -EReal.coe_mul]
  norm_num

/-- `x / 1 = x` on the extended reals: the divisor is not zero and `x · 1⁻¹ = x`. -/
private theorem div_one_f32 (x : EReal) : Ideal.div x (Ideal.ofBits .f32 0x3F800000#32) = x := by
  rw [ofBits_one_f32]
  unfold Ideal.div
  rw [if_neg one_ne_zero, inv_one, mul_one]

/-! ### The two matrix products -/

/-- The reference's two matrix products are the logits. -/
theorem v0_eq (x0 : Vec Ideal S2048x2048 .f32) (x1 : Vec Ideal S32000x2048 .f32) :
    val_main_v0 (F := Ideal) x0 x1 = logits x0 x1 := by
  funext i
  rw [val_main_v0_apply]
  refine Finset.sum_congr rfl fun k _ => ?_
  rw [show lidx_main_v0 i k = ix2 (i 0) k from
        funext fun a => Fin.ext (by match a with | ⟨0, _⟩ => rfl | ⟨1, _⟩ => rfl),
      show ridx_main_v0 i k = ix2 (i 1) k from
        funext fun a => Fin.ext (by match a with | ⟨0, _⟩ => rfl | ⟨1, _⟩ => rfl)]
  rfl

theorem v1_eq (x2 : Vec Ideal S2048x4096 .f32) (x3 : Vec Ideal S32000x4096 .f32) :
    val_main_v1 (F := Ideal) x2 x3 = logits x2 x3 := by
  funext i
  rw [val_main_v1_apply]
  refine Finset.sum_congr rfl fun k _ => ?_
  rw [show lidx_main_v1 i k = ix2 (i 0) k from
        funext fun a => Fin.ext (by match a with | ⟨0, _⟩ => rfl | ⟨1, _⟩ => rfl),
      show ridx_main_v1 i k = ix2 (i 1) k from
        funext fun a => Fin.ext (by match a with | ⟨0, _⟩ => rfl | ⟨1, _⟩ => rfl)]
  rfl

/-- Dividing the student's logits by the broadcast constant 1 leaves them as they are. -/
private theorem v14_eq (x0 : Vec Ideal S2048x2048 .f32) (x1 : Vec Ideal S32000x2048 .f32) :
    val_main_v14 (F := Ideal) x0 x1 = val_main_v0 (F := Ideal) x0 x1 := by
  funext i
  rw [val_main_v14_apply, val_main_v13_apply, val_main_cst_3_apply, Ideal.hostDivf_def, Ideal.ofBits_def]
  exact div_one_f32 _

/-- The teacher's likewise. -/
private theorem v17_eq (x2 : Vec Ideal S2048x4096 .f32) (x3 : Vec Ideal S32000x4096 .f32) :
    val_main_v17 (F := Ideal) x2 x3 = val_main_v1 (F := Ideal) x2 x3 := by
  funext i
  rw [val_main_v17_apply, val_main_v16_apply, val_main_cst_4_apply, Ideal.hostDivf_def, Ideal.ofBits_def]
  exact div_one_f32 _

/-! ### The reference's normalisation of a row, written out at an array's row -/

private theorem lpR_row (z : Vec Ideal S2048x32000 .f32) (n : Fin 2048) (v : Fin 32000) :
    lpR (rowOf z n) v
      = (z (ix2 n v) - max (Ideal.ofBits .f32 0xFF800000#32) (rowMax (rowOf z n)))
          - Ideal.log (Ideal.ofBits .f32 0x00000000#32
              + ∑ k : Fin 32000, Ideal.exp (z (ix2 n k)
                  - max (Ideal.ofBits .f32 0xFF800000#32) (rowMax (rowOf z n)))) := rfl

/-! ### The first log-softmax call (over the student's logits), stage by stage at row `n` -/

/-- The row maximum at row `n`: the fold of `max` from −∞ over the row. -/
private theorem call1_rowMax (x0 : Vec Ideal S2048x2048 .f32) (x1 : Vec Ideal S32000x2048 .f32) (n : Fin 2048) :
    val_main_call1_v0 (F := Ideal) x0 x1 (ix1 n) = rowMax (rowOf (val_main_v0 (F := Ideal) x0 x1) n) := by
  unfold val_main_call1_v0
  refine (reduce_max_row _ _ _ _ n).trans ?_
  rfl

/-- The shifted entry at `(n, v)`: the entry minus `max (−∞) (row maximum)`. -/
private theorem call1_shift (x0 : Vec Ideal S2048x2048 .f32) (x1 : Vec Ideal S32000x2048 .f32) (n : Fin 2048)
    (v : Fin 32000) :
    val_main_call1_v5 (F := Ideal) x0 x1 (ix2 n v)
      = val_main_v0 (F := Ideal) x0 x1 (ix2 n v)
          - max (Ideal.ofBits .f32 0xFF800000#32) (rowMax (rowOf (val_main_v0 (F := Ideal) x0 x1) n)) := by
  rw [val_main_call1_v5_apply, val_main_call1_v4_apply, val_main_call1_v3_apply, val_main_call1_v2_apply,
    val_main_call1_v1_apply, val_main_call1_cst_0_apply,
    show idx_main_call1_v3 (idx_main_call1_v4 (ix2 n v)) = ix1 n from
      funext fun a => Fin.ext (by match a with | ⟨0, _⟩ => rfl),
    call1_rowMax]
  rfl

/-- The row's sum of the exponentials of the shifted entries, from the literal 0. -/
private theorem call1_sumExp (x0 : Vec Ideal S2048x2048 .f32) (x1 : Vec Ideal S32000x2048 .f32) (n : Fin 2048) :
    val_main_call1_v7 (F := Ideal) x0 x1 (ix1 n)
      = Ideal.ofBits .f32 0x00000000#32
          + ∑ k : Fin 32000, Ideal.exp (val_main_v0 (F := Ideal) x0 x1 (ix2 n k)
              - max (Ideal.ofBits .f32 0xFF800000#32) (rowMax (rowOf (val_main_v0 (F := Ideal) x0 x1) n))) := by
  rw [val_main_call1_v7_apply, val_main_call1_cst_1_apply]
  refine congrArg (_ + ·) (Finset.sum_congr rfl fun k _ => ?_)
  rw [show idx_main_call1_v7 (ix1 n) k = ix2 n k from
      funext fun a => Fin.ext (by match a with | ⟨0, _⟩ => rfl | ⟨1, _⟩ => rfl),
    val_main_call1_v6_apply, call1_shift]
  rfl

/-! ### The second log-softmax call (over the student's logits divided by the temperature), stage by stage at row `n` -/

/-- The row maximum at row `n`: the fold of `max` from −∞ over the row. -/
private theorem call4_rowMax (x0 : Vec Ideal S2048x2048 .f32) (x1 : Vec Ideal S32000x2048 .f32) (n : Fin 2048) :
    val_main_call4_v0 (F := Ideal) x0 x1 (ix1 n) = rowMax (rowOf (val_main_v14 (F := Ideal) x0 x1) n) := by
  unfold val_main_call4_v0
  refine (reduce_max_row _ _ _ _ n).trans ?_
  rfl

/-- The shifted entry at `(n, v)`: the entry minus `max (−∞) (row maximum)`. -/
private theorem call4_shift (x0 : Vec Ideal S2048x2048 .f32) (x1 : Vec Ideal S32000x2048 .f32) (n : Fin 2048)
    (v : Fin 32000) :
    val_main_call4_v5 (F := Ideal) x0 x1 (ix2 n v)
      = val_main_v14 (F := Ideal) x0 x1 (ix2 n v)
          - max (Ideal.ofBits .f32 0xFF800000#32) (rowMax (rowOf (val_main_v14 (F := Ideal) x0 x1) n)) := by
  rw [val_main_call4_v5_apply, val_main_call4_v4_apply, val_main_call4_v3_apply, val_main_call4_v2_apply,
    val_main_call4_v1_apply, val_main_call4_cst_0_apply,
    show idx_main_call4_v3 (idx_main_call4_v4 (ix2 n v)) = ix1 n from
      funext fun a => Fin.ext (by match a with | ⟨0, _⟩ => rfl),
    call4_rowMax]
  rfl

/-- The row's sum of the exponentials of the shifted entries, from the literal 0. -/
private theorem call4_sumExp (x0 : Vec Ideal S2048x2048 .f32) (x1 : Vec Ideal S32000x2048 .f32) (n : Fin 2048) :
    val_main_call4_v7 (F := Ideal) x0 x1 (ix1 n)
      = Ideal.ofBits .f32 0x00000000#32
          + ∑ k : Fin 32000, Ideal.exp (val_main_v14 (F := Ideal) x0 x1 (ix2 n k)
              - max (Ideal.ofBits .f32 0xFF800000#32) (rowMax (rowOf (val_main_v14 (F := Ideal) x0 x1) n))) := by
  rw [val_main_call4_v7_apply, val_main_call4_cst_1_apply]
  refine congrArg (_ + ·) (Finset.sum_congr rfl fun k _ => ?_)
  rw [show idx_main_call4_v7 (ix1 n) k = ix2 n k from
      funext fun a => Fin.ext (by match a with | ⟨0, _⟩ => rfl | ⟨1, _⟩ => rfl),
    val_main_call4_v6_apply, call4_shift]
  rfl

/-! ### The third log-softmax call (over the teacher's logits divided by the temperature), stage by stage at row `n` -/

/-- The row maximum at row `n`: the fold of `max` from −∞ over the row. -/
private theorem call5_rowMax (x2 : Vec Ideal S2048x4096 .f32) (x3 : Vec Ideal S32000x4096 .f32) (n : Fin 2048) :
    val_main_call5_v0 (F := Ideal) x2 x3 (ix1 n) = rowMax (rowOf (val_main_v17 (F := Ideal) x2 x3) n) := by
  unfold val_main_call5_v0
  refine (reduce_max_row _ _ _ _ n).trans ?_
  rfl

/-- The shifted entry at `(n, v)`: the entry minus `max (−∞) (row maximum)`. -/
private theorem call5_shift (x2 : Vec Ideal S2048x4096 .f32) (x3 : Vec Ideal S32000x4096 .f32) (n : Fin 2048)
    (v : Fin 32000) :
    val_main_call5_v5 (F := Ideal) x2 x3 (ix2 n v)
      = val_main_v17 (F := Ideal) x2 x3 (ix2 n v)
          - max (Ideal.ofBits .f32 0xFF800000#32) (rowMax (rowOf (val_main_v17 (F := Ideal) x2 x3) n)) := by
  rw [val_main_call5_v5_apply, val_main_call5_v4_apply, val_main_call5_v3_apply, val_main_call5_v2_apply,
    val_main_call5_v1_apply, val_main_call5_cst_0_apply,
    show idx_main_call5_v3 (idx_main_call5_v4 (ix2 n v)) = ix1 n from
      funext fun a => Fin.ext (by match a with | ⟨0, _⟩ => rfl),
    call5_rowMax]
  rfl

/-- The row's sum of the exponentials of the shifted entries, from the literal 0. -/
private theorem call5_sumExp (x2 : Vec Ideal S2048x4096 .f32) (x3 : Vec Ideal S32000x4096 .f32) (n : Fin 2048) :
    val_main_call5_v7 (F := Ideal) x2 x3 (ix1 n)
      = Ideal.ofBits .f32 0x00000000#32
          + ∑ k : Fin 32000, Ideal.exp (val_main_v17 (F := Ideal) x2 x3 (ix2 n k)
              - max (Ideal.ofBits .f32 0xFF800000#32) (rowMax (rowOf (val_main_v17 (F := Ideal) x2 x3) n))) := by
  rw [val_main_call5_v7_apply, val_main_call5_cst_1_apply]
  refine congrArg (_ + ·) (Finset.sum_congr rfl fun k _ => ?_)
  rw [show idx_main_call5_v7 (ix1 n) k = ix2 n k from
      funext fun a => Fin.ext (by match a with | ⟨0, _⟩ => rfl | ⟨1, _⟩ => rfl),
    val_main_call5_v6_apply, call5_shift]
  rfl

/-! ### The three calls at an entry -/

/-- The three log-softmax calls, entry by entry: the row's logit shifted by the row's maximum, minus the log of the
    row's sum of exponentials (division of the logits by the temperature 1 changes nothing). -/
theorem v5_apply (x0 : Vec Ideal S2048x2048 .f32) (x1 : Vec Ideal S32000x2048 .f32) (n : Fin 2048) (v : Fin 32000) :
    val_main_v5 (F := Ideal) x0 x1 (ix2 n v) = lpR (rowOf (logits x0 x1) n) v := by
  rw [val_main_v5_apply, val_main_call1_v10_apply, val_main_call1_v9_apply, val_main_call1_v8_apply,
    show idx_main_call1_v8 (idx_main_call1_v10 (ix2 n v)) = ix1 n from
      funext fun a => Fin.ext (by match a with | ⟨0, _⟩ => rfl),
    call1_sumExp, call1_shift, v0_eq, lpR_row]
  simp only [Ideal.subf_def, Ideal.hostUnary_log_def]

theorem v15_apply (x0 : Vec Ideal S2048x2048 .f32) (x1 : Vec Ideal S32000x2048 .f32) (n : Fin 2048) (v : Fin 32000) :
    val_main_v15 (F := Ideal) x0 x1 (ix2 n v) = lpR (rowOf (logits x0 x1) n) v := by
  rw [val_main_v15_apply, val_main_call4_v10_apply, val_main_call4_v9_apply, val_main_call4_v8_apply,
    show idx_main_call4_v8 (idx_main_call4_v10 (ix2 n v)) = ix1 n from
      funext fun a => Fin.ext (by match a with | ⟨0, _⟩ => rfl),
    call4_sumExp, call4_shift, v14_eq, v0_eq, lpR_row]
  simp only [Ideal.subf_def, Ideal.hostUnary_log_def]

theorem v18_apply (x2 : Vec Ideal S2048x4096 .f32) (x3 : Vec Ideal S32000x4096 .f32) (n : Fin 2048) (v : Fin 32000) :
    val_main_v18 (F := Ideal) x2 x3 (ix2 n v) = lpR (rowOf (logits x2 x3) n) v := by
  rw [val_main_v18_apply, val_main_call5_v10_apply, val_main_call5_v9_apply, val_main_call5_v8_apply,
    show idx_main_call5_v8 (idx_main_call5_v10 (ix2 n v)) = ix1 n from
      funext fun a => Fin.ext (by match a with | ⟨0, _⟩ => rfl),
    call5_sumExp, call5_shift, v17_eq, v1_eq, lpR_row]
  simp only [Ideal.subf_def, Ideal.hostUnary_log_def]

end Cert.ReferenceIdeal.RefValue

end
-- ==== Proof.RefSoft.lean ====
import proofs.«417773_j10737418240013_1_alg».proof.Proof.RefLsm
import Idealize.ShloMosaic.Lib.ValueIdxRank1

noncomputable section

namespace Cert.ReferenceIdeal.RefValue

open Idealize.ShloMosaic Idealize.ShloMosaic.ValueIdx Cert.ReferenceIdeal Cert.ReferenceIdeal.ReadP Cert.Jsd

/-- An extended real never differs from itself: the comparison `d ≠ d` answers the bit 0. -/
private theorem cmp_une_self (d : EReal) : Ideal.cmp .une d d = 0#1 := by
  have h : decide (d ≠ d) = false := decide_eq_false (fun h => h rfl)
  show BitVec.ofBool (decide (d ≠ d)) = 0#1
  rw [h]; rfl

/-- A sum over a rank-1 index set is the sum over its one coordinate. -/
private theorem sum_idx1 {n : Nat} (f : (⟨1, ![n]⟩ : Shape).Idx → EReal) : ∑ j, f j = ∑ a : Fin n, f (ix1 a) :=
  (Equiv.sum_comp (idxEquiv1 (n := n)).symm f).symm

/-- The reference's `logaddexp` of the two log-probabilities, each shifted by log ½. With `d` the difference of the
    shifted values, the selection on `d ≠ d` takes its second branch: the larger of the two plus
    `log1p (exp (−|d|))`, where `|d| = max d (−d)`. That is `logMix`. -/
private theorem v32_at (x0 : Vec Ideal S2048x2048 .f32) (x1 : Vec Ideal S32000x2048 .f32) (x2 : Vec Ideal S2048x4096 .f32)
    (x3 : Vec Ideal S32000x4096 .f32) (i : S2048x32000.Idx) :
    val_main_v32 (F := Ideal) x0 x1 x2 x3 i
      = logMix (val_main_v15 (F := Ideal) x0 x1 i) (val_main_v18 (F := Ideal) x2 x3 i) := by
  rw [val_main_v32_apply, val_main_v25_apply, Ideal.cmpf_def, cmp_une_self, select_zero,
    val_main_v31_apply, val_main_v23_apply, val_main_v30_apply, val_main_v29_apply, val_main_v28_apply,
    val_main_v27_apply, val_main_v24_apply, val_main_v20_apply, val_main_v22_apply, val_main_v19_apply,
    val_main_v21_apply, val_main_cst_5_apply, val_main_cst_6_apply]
  rfl

/-- The integrand at one entry: ½·(eᵇ·(b − m)) + ½·(eᵃ·(a − m)) with `a` the student's log-probability, `b` the
    teacher's and `m` the log of their mixture. That is `jsdTerm a b`. -/
private theorem v43_at (x0 : Vec Ideal S2048x2048 .f32) (x1 : Vec Ideal S32000x2048 .f32) (x2 : Vec Ideal S2048x4096 .f32)
    (x3 : Vec Ideal S32000x4096 .f32) (i : S2048x32000.Idx) :
    val_main_v43 (F := Ideal) x0 x1 x2 x3 i
      = jsdTerm (val_main_v15 (F := Ideal) x0 x1 i) (val_main_v18 (F := Ideal) x2 x3 i) := by
  rw [val_main_v43_apply, val_main_v40_apply, val_main_v42_apply, val_main_v39_apply, val_main_v41_apply,
    val_main_cst_7_apply, val_main_cst_8_apply, val_main_v38_apply, val_main_v35_apply, val_main_v36_apply,
    val_main_v37_apply, val_main_v33_apply, val_main_v34_apply, v32_at]
  rfl

/-- A row's sum of the integrand over the vocabulary: the initial value is the literal 0, and entry `k` of row `n`
    is read at the index with coordinates `(n, k)`. -/
private theorem v44_at (x0 : Vec Ideal S2048x2048 .f32) (x1 : Vec Ideal S32000x2048 .f32) (x2 : Vec Ideal S2048x4096 .f32)
    (x3 : Vec Ideal S32000x4096 .f32) (n : Fin 2048) :
    val_main_v44 (F := Ideal) x0 x1 x2 x3 (ix1 n)
      = ∑ v : Fin 32000, jsdTerm (lpR (rowOf (logits x0 x1) n) v) (lpR (rowOf (logits x2 x3) n) v) := by
  have hidx : ∀ k : Fin 32000, idx_main_v44 (ix1 n) k = ix2 n k := fun k =>
    funext fun a => Fin.ext (by match a with | ⟨0, _⟩ => rfl | ⟨1, _⟩ => rfl)
  rw [val_main_v44_apply, val_main_cst_9_apply, Ideal.ofBits_def, Ideal.ofBits_zero_f32, zero_add]
  refine Finset.sum_congr rfl fun v _ => ?_
  rw [hidx v, v43_at, v15_apply, v18_apply]

/-- The mask at a row: its label differs from the ignore index. -/
private theorem v3_at (x4 : Vec Ideal S2048 .i32) (n : Fin 2048) :
    val_main_v3 (F := Ideal) x4 (ix1 n) = maskBit (x4 (ix1 n)) := by
  rw [val_main_v3_apply, val_main_v2_apply, val_main_c_apply]
  rfl

/-- A row's soft loss: the row sum where the mask is set, the literal 0 elsewhere. -/
private theorem v45_at (x0 : Vec Ideal S2048x2048 .f32) (x1 : Vec Ideal S32000x2048 .f32) (x2 : Vec Ideal S2048x4096 .f32)
    (x3 : Vec Ideal S32000x4096 .f32) (x4 : Vec Ideal S2048 .i32) (n : Fin 2048) :
    val_main_v45 (F := Ideal) x0 x1 x2 x3 x4 (ix1 n)
      = softRow (lpR (rowOf (logits x0 x1) n)) (lpR (rowOf (logits x2 x3) n)) (x4 (ix1 n)) := by
  rw [val_main_v45_apply, v3_at, v44_at, val_main_call6_v1_apply, val_main_call6_v0_apply, val_main_cst_10_apply,
    Ideal.ofBits_def, Ideal.ofBits_zero_f32]
  rfl

/-- The soft total: the sum over the rows of the masked row sums of the integrand. -/
theorem v46_eq (x0 : Vec Ideal S2048x2048 .f32) (x1 : Vec Ideal S32000x2048 .f32) (x2 : Vec Ideal S2048x4096 .f32)
    (x3 : Vec Ideal S32000x4096 .f32) (x4 : Vec Ideal S2048 .i32) (i : S_.Idx) :
    val_main_v46 (F := Ideal) x0 x1 x2 x3 x4 i
      = ∑ n : Fin 2048, softRow (lpR (rowOf (logits x0 x1) n)) (lpR (rowOf (logits x2 x3) n)) (x4 (ix1 n)) := by
  rw [val_main_v46_apply, val_main_cst_11_apply, Ideal.ofBits_def, Ideal.ofBits_zero_f32, zero_add]
  exact (sum_idx1 _).trans (Finset.sum_congr rfl fun n _ => v45_at x0 x1 x2 x3 x4 n)

end Cert.ReferenceIdeal.RefValue

end
-- ==== Proof.RefHard.lean ====
import proofs.«417773_j10737418240013_1_alg».proof.Proof.RefLsm
import Idealize.ShloMosaic.Lib.ValueIdx
import Idealize.ShloMosaic.Lib.ValueIdxRank1
import Idealize.ShloMosaic.PureOps.Reduce
import Idealize.ShloMosaic.PureOps.Ideal.Laws

noncomputable section

namespace Cert.ReferenceIdeal.RefValue

open Idealize.ShloMosaic Idealize.ShloMosaic.ValueIdx Cert.ReferenceIdeal Cert.ReferenceIdeal.ReadP Cert.Jsd

namespace Hard

/-! ## Words: a label in [0, 32000) read as a signed integer

Such a word is not negative, so the take-along-axis does not wrap it; it passes the range test 0 ≤ · ≤ 31999; and read
signed, then as a natural number, it is its own unsigned value, below 32000, so that a clamp into [0, 31999] keeps it. -/

private theorem word_in_range (l : BitVec 32) (h0 : 0 ≤ l.toInt) (h1 : l.toInt < 32000) :
    IntOp.cmpi .slt l 0#32 = 0#1 ∧ IntOp.cmpi .sge l 0#32 = 1#1 ∧ IntOp.cmpi .sle l 31999#32 = 1#1
      ∧ l.toInt.toNat = l.toNat ∧ l.toNat < 32000 := by
  have e0 : (0#32 : BitVec 32).toInt = 0 := by decide
  have e1 : (31999#32 : BitVec 32).toInt = 31999 := by decide
  have hn : l.toInt = (l.toNat : Int) := by
    rw [BitVec.toInt_eq_toNat_cond] at h0 h1 ⊢
    split <;> omega
  refine ⟨?_, ?_, ?_, ?_, ?_⟩
  · simp only [IntOp.cmpi, BitVec.slt, e0]
    rw [decide_eq_false (by omega)]; rfl
  · simp only [IntOp.cmpi, BitVec.sle, e0]
    rw [decide_eq_true (by omega)]; rfl
  · simp only [IntOp.cmpi, BitVec.sle, e1]
    rw [decide_eq_true (by omega)]; rfl
  · omega
  · omega

/-- An admissible label that counts (its mask bit is set) is a class in [0, 32000). -/
private theorem range_of_mask (l : BitVec 32) (hok : labelOk l) (hm : maskBit l = 1#1) :
    0 ≤ l.toInt ∧ l.toInt < 32000 := by
  rcases hok with rfl | h
  · exact absurd hm (by decide)
  · exact h

/-- The index the take-along-axis reads with: the safe label, plus 32000 where it is negative. -/
private def wrapIdx (s : BitVec 32) : BitVec 32 :=
  Scalar.select (IntOp.cmpi .slt s 0#32) (IntOp.addi s 32000#32) s

/-! ## An and-reduction whose operands are all 1

A reduce by `and` from the initial value 1 is 1 at a result index when the operand is 1 at every index that reduces
into it: the fold meets only 1s. -/

private theorem reduce_andi_one {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, h.drop i = j → x i = 1#1) :
    Host.reduce IntOp.andi x init h hu j = 1#1 := by
  have key : ∀ (l : List s.Idx) (b : BitVec 1), b = 1#1 → (∀ i ∈ l, x i = 1#1) →
      l.foldl (fun r i => IntOp.andi r (x i)) b = 1#1 := by
    intro l
    induction l with
    | nil => intro b hb _; exact hb
    | cons a l ih =>
      intro b hb hl
      rw [List.foldl_cons]
      refine ih _ ?_ (fun i hi => hl i (List.mem_cons_of_mem _ hi))
      rw [hb, hl a List.mem_cons_self]; rfl
  rw [Host.reduce_eq_foldl]
  exact key _ _ hinit (fun i hi => hx i (of_decide_eq_true (List.mem_filter.1 hi).2))

/-! ## The gather of a take-along-axis, read at an index

`take_along_axis` of an array `x : [R, N]` along axis 1 at a column of indices lowers to a gather with operand batching
axis 0 (paired with the start indices' axis 0), collapsed slice axis 1, start index map [1], the index vector on axis 2
of the start indices `[R, 1, 1]`, and slice sizes (1, 1). Result element `(n, 0)` is `x` at row `n` (the batching
coordinate) and at the column `idx[n, 0, 0]` read as a signed integer and clamped into `[0, N − 1]`. -/

section TakeAlong
variable {α : Type}

/-- Those dimension numbers. -/
private abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- On the batching axis the operand index is the result's row: the start is 0 there, and so is the offset. -/
private theorem along_axis0 {R N w : Nat}
    (wf : GatherDims.WF ⟨2, ![R, N]⟩ ⟨3, ![R, 1, 1]⟩ ⟨2, ![R, 1]⟩ [] [1] [0] [1] [0] 2 ![1, 1])
    (idx : IVec ⟨3, ![R, 1, 1]⟩ w) (n : Fin R) :
    ((alongDims R N wf).operandIdx (ix2 n (0 : Fin 1)) idx 0).val = n.val := by
  show (alongDims R N wf).start _ idx 0 + (alongDims R N wf).batchCoord _ 0 + (alongDims R N wf).offCoord _ 0 = _
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (alongDims R N wf).operandBatchingDims from List.mem_singleton.mpr rfl)]
  rfl

/-- On the collapsed axis it is the clamped start index: no batching coordinate and no offset there. -/
private theorem along_axis1 {R N w : Nat}
    (wf : GatherDims.WF ⟨2, ![R, N]⟩ ⟨3, ![R, 1, 1]⟩ ⟨2, ![R, 1]⟩ [] [1] [0] [1] [0] 2 ![1, 1])
    (idx : IVec ⟨3, ![R, 1, 1]⟩ w) (n : Fin R) :
    ((alongDims R N wf).operandIdx (ix2 n (0 : Fin 1)) idx 1).val
      = min (idx (ix3 n (0 : Fin 1) (0 : Fin 1))).toInt.toNat (N - 1) := by
  show (alongDims R N wf).start _ idx 1 + (alongDims R N wf).batchCoord _ 1 + (alongDims R N wf).offCoord _ 1 = _
  rw [GatherDims.batchCoord_eq_zero _ _ _
      (fun h => absurd (List.mem_singleton.mp h) (show ¬ (1 : Fin 2) = 0 by decide)),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (alongDims R N wf).startIndexMap from List.mem_singleton.mpr rfl)]
  have hsi : (alongDims R N wf).siIdx (ix2 n (0 : Fin 1)) ⟨List.idxOf (1 : Fin 2) (alongDims R N wf).startIndexMap,
      List.idxOf_lt_length_iff.2 (List.mem_singleton.mpr rfl)⟩ = ix3 n (0 : Fin 1) (0 : Fin 1) := by
    funext b; refine Fin.ext ?_
    match b with
    | ⟨0, _⟩ => rfl
    | ⟨1, _⟩ => rfl
    | ⟨2, _⟩ => rfl
  rw [hsi]
  rfl

/-- The gather read at `(n, 0)`: the operand at row `n`, at any column `v` that is the clamped start index. -/
private theorem gather_along_apply {R N w : Nat}
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (n : Fin R) (v : Fin N)
    (hv : v.val = min (idx (ix3 n (0 : Fin 1) (0 : Fin 1))).toInt.toNat (N - 1)) :
    Host.gather (alongDims R N wf) x idx (ix2 n (0 : Fin 1)) = x (ix2 n v) := by
  unfold Host.gather
  congr 1
  funext a
  refine Fin.ext ?_
  match a with
  | ⟨0, _⟩ => exact along_axis0 wf idx n
  | ⟨1, _⟩ => exact (along_axis1 wf idx n).trans hv.symm

end TakeAlong

/-! ## The reference's stages, row by row -/

section Stages
variable (x0 : Vec Ideal S2048x2048 .f32) (x1 : Vec Ideal S32000x2048 .f32) (x4 : Vec Ideal S2048 .i32) (n : Fin 2048)

/-- The mask: the label is not the ignore index. -/
private theorem v3_at : val_main_v3 (F := Ideal) x4 (ix1 n) = maskBit (x4 (ix1 n)) := by
  unfold maskBit
  rw [val_main_v3_apply, val_main_v2_apply, val_main_c_apply]

/-- The safe label: the label, or 0 where it is ignored. -/
private theorem v4_at : val_main_v4 (F := Ideal) x4 (ix1 n) = safeLabel (x4 (ix1 n)) := by
  unfold safeLabel
  rw [val_main_v4_apply, v3_at, val_main_call0_v1_apply, val_main_call0_v0_apply, val_main_c_0_apply]

/-- The safe labels as a column. -/
private theorem v6_at : val_main_v6 (F := Ideal) x4 (ix2 n (0 : Fin 1)) = safeLabel (x4 (ix1 n)) := by
  have e : idx_main_v6 (ix2 n (0 : Fin 1)) = ix1 n := funext fun c => Fin.ext (by
    match c with
    | ⟨0, _⟩ => rfl)
  rw [val_main_v6_apply, e, v4_at]

/-- The start indices of the gather: the wrapped safe label, whatever the two unit coordinates. -/
private theorem idx_at (a b : Fin 1) :
    val_main_call2_v5 (F := Ideal) x4 (ix3 n a b) = wrapIdx (safeLabel (x4 (ix1 n))) := by
  have e : idx_main_call2_v5 (ix3 n a b) = ix2 n (0 : Fin 1) := funext fun c => Fin.ext (by
    match c with
    | ⟨0, _⟩ =>
      show ((n.val * 1 + a.val) * 1 + b.val) / 1 = n.val
      have := a.isLt; have := b.isLt; omega
    | ⟨1, _⟩ => rfl)
  unfold wrapIdx
  rw [val_main_call2_v5_apply, e, val_main_call2_v4_apply, val_main_call2_v1_apply, val_main_call2_v3_apply, v6_at,
    val_main_call2_v0_apply, val_main_call2_c_apply, val_main_call2_v2_apply, val_main_call2_c_0_apply]

/-- The range test of the take-along-axis at one index: 0 ≤ index ≤ 31999. -/
private theorem inRange_at (a b : Fin 1) :
    val_main_call2_v11 (F := Ideal) x4 (ix3 n a b)
      = IntOp.andi (IntOp.cmpi .sge (wrapIdx (safeLabel (x4 (ix1 n)))) 0#32)
          (IntOp.cmpi .sle (wrapIdx (safeLabel (x4 (ix1 n)))) 31999#32) := by
  rw [val_main_call2_v11_apply, val_main_call2_v7_apply, val_main_call2_v10_apply, idx_at,
    val_main_call2_v6_apply, val_main_call2_c_2_apply, val_main_call2_v9_apply, val_main_call2_v8_apply,
    val_main_call2_c_1_apply]

end Stages

/-- For a counted admissible label the safe label is the label, and the wrapped index is the label too. -/
private theorem wrap_of_ok (l : BitVec 32) (hok : labelOk l) (hm : maskBit l = 1#1) :
    safeLabel l = l ∧ wrapIdx (safeLabel l) = l := by
  obtain ⟨h0, h1⟩ := range_of_mask l hok hm
  have hs : safeLabel l = l := by unfold safeLabel; rw [hm, select_one]
  refine ⟨hs, ?_⟩
  rw [hs]; unfold wrapIdx
  rw [(word_in_range l h0 h1).1, select_zero]

section Rows
variable (x0 : Vec Ideal S2048x2048 .f32) (x1 : Vec Ideal S32000x2048 .f32) (x4 : Vec Ideal S2048 .i32) (n : Fin 2048)

/-- For a counted admissible label the range test passes: the and-reduction over the unit axis meets only 1s. -/
private theorem v12_at (hok : labelOk (x4 (ix1 n))) (hm : maskBit (x4 (ix1 n)) = 1#1) :
    val_main_call2_v12 (F := Ideal) x4 (ix2 n (0 : Fin 1)) = 1#1 := by
  obtain ⟨h0, h1⟩ := range_of_mask _ hok hm
  have hw := (wrap_of_ok _ hok hm).2
  have hr := word_in_range _ h0 h1
  unfold val_main_call2_v12
  refine reduce_andi_one _ _ _ _ _ (val_main_call2_c_3_apply _) (fun i hi => ?_)
  obtain ⟨a, b, c, rfl⟩ : ∃ (a : Fin 2048) (b : Fin 1) (c : Fin 1), i = ix3 a b c := ⟨i 0, i 1, i 2, eq_ix3 i⟩
  have ha : a = n := Fin.ext (by
    have h := congrArg (fun j : S2048x1.Idx => (j 0).val) hi
    exact (Shape.ReducesTo.drop_apply_val_of_eq Gen.reducesTo_S2048x1x1_S2048x1_d2 (ix3 a b c) 0 0).symm.trans h)
  subst ha
  have e := inRange_at x4 a b c
  rw [hw, hr.2.1, hr.2.2.1] at e
  exact e.trans (by decide)

/-- The gathered entry: the log-probability of row `n` at any column that is the clamped start index. -/
private theorem v13_at (v : Fin 32000)
    (hv : v.val = min (val_main_call2_v5 (F := Ideal) x4 (ix3 n (0 : Fin 1) (0 : Fin 1))).toInt.toNat (32000 - 1)) :
    val_main_call2_v13 (F := Ideal) x0 x1 x4 (ix2 n (0 : Fin 1)) = val_main_v5 (F := Ideal) x0 x1 (ix2 n v) := by
  unfold val_main_call2_v13
  generalize val_main_v5 (F := Ideal) x0 x1 = X
  generalize val_main_call2_v5 (F := Ideal) x4 = I at hv ⊢
  exact gather_along_apply _ X I n v hv

/-- One row of the masked negated pick: minus the log-probability at the label, zero for an ignored row. -/
private theorem row_eq (hok : labelOk (x4 (ix1 n))) :
    val_main_v10 (F := Ideal) x0 x1 x4 (ix1 n) = hardPick (lpR (rowOf (logits x0 x1) n)) (x4 (ix1 n)) := by
  unfold hardPick
  rw [val_main_v10_apply, v3_at, val_main_call3_v1_apply, val_main_call3_v0_apply, val_main_cst_apply,
    Ideal.ofBits_def, Ideal.ofBits_zero_f32]
  by_cases hm : maskBit (x4 (ix1 n)) = 1#1
  · obtain ⟨h0, h1⟩ := range_of_mask _ hok hm
    obtain ⟨hs, hw⟩ := wrap_of_ok _ hok hm
    have hr := word_in_range _ h0 h1
    have e8 : idx_main_v8 (ix1 n) = ix2 n (0 : Fin 1) := funext fun c => Fin.ext (by
      match c with
      | ⟨0, _⟩ => show n.val / 1 = n.val; omega
      | ⟨1, _⟩ => rfl)
    have hv : (⟨(safeLabel (x4 (ix1 n))).toNat % 32000, Nat.mod_lt _ (by decide)⟩ : Fin 32000).val
        = min (val_main_call2_v5 (F := Ideal) x4 (ix3 n (0 : Fin 1) (0 : Fin 1))).toInt.toNat (32000 - 1) := by
      show (safeLabel (x4 (ix1 n))).toNat % 32000 = _
      rw [idx_at, hw, hs, hr.2.2.2.1]
      have := hr.2.2.2.2
      omega
    rw [hm, select_one, select_one, val_main_v9_apply, val_main_v8_apply, e8, val_main_v7_apply,
      v12_at x4 n hok hm, select_one]
    exact congrArg (fun z : EReal => -z) ((v13_at x0 x1 x4 n _ hv).trans (v5_apply x0 x1 n _))
  · rw [eq_zero_of_ne_one hm, select_zero, select_zero]

end Rows

end Hard

/-- The hard total, for admissible labels: the sum over the rows of minus the log-probability at the row's label
    (the label is in range, so the take-along-axis neither wraps nor fills), zero for an ignored row. -/
theorem v11_eq (x0 : Vec Ideal S2048x2048 .f32) (x1 : Vec Ideal S32000x2048 .f32) (x4 : Vec Ideal S2048 .i32)
    (hok : ∀ n : Fin 2048, labelOk (x4 (ix1 n))) (i : S_.Idx) :
    val_main_v11 (F := Ideal) x0 x1 x4 i
      = ∑ n : Fin 2048, hardPick (lpR (rowOf (logits x0 x1) n)) (x4 (ix1 n)) := by
  rw [val_main_v11_apply, val_main_cst_1_apply, Ideal.ofBits_def, Ideal.ofBits_zero_f32, zero_add,
    ← Equiv.sum_comp (idxEquiv1 (n := 2048)).symm]
  exact Finset.sum_congr rfl fun n _ => Hard.row_eq x0 x1 x4 n (hok n)

end Cert.ReferenceIdeal.RefValue

end
-- ==== Proof.RefResult.lean ====
import proofs.«417773_j10737418240013_1_alg».proof.Proof.RefSoft
import proofs.«417773_j10737418240013_1_alg».proof.Proof.RefHard

noncomputable section

namespace Cert.ReferenceIdeal.RefValue

open Idealize.ShloMosaic Idealize.ShloMosaic.ValueIdx Cert.ReferenceIdeal Cert.ReferenceIdeal.ReadP Cert.Jsd

/-- The reference's result: the tail of the two totals. -/
theorem v50_eq (x0 : Vec Ideal S2048x2048 .f32) (x1 : Vec Ideal S32000x2048 .f32) (x2 : Vec Ideal S2048x4096 .f32)
    (x3 : Vec Ideal S32000x4096 .f32) (x4 : Vec Ideal S2048 .i32) (hok : ∀ n : Fin 2048, labelOk (x4 (ix1 n))) :
    val_main_v50 (F := Ideal) x0 x1 x2 x3 x4
      = fun _ => tailFn
          (∑ n : Fin 2048, hardPick (lpR (rowOf (logits x0 x1) n)) (x4 (ix1 n)))
          (∑ n : Fin 2048, softRow (lpR (rowOf (logits x0 x1) n)) (lpR (rowOf (logits x2 x3) n)) (x4 (ix1 n))) := by
  funext i
  rw [val_main_v50_apply, val_main_v48_apply, val_main_v49_apply, val_main_v12_apply, val_main_v47_apply,
    v11_eq x0 x1 x4 hok i, v46_eq x0 x1 x2 x3 x4 i]
  rfl

end Cert.ReferenceIdeal.RefValue

end
-- ==== Proof.PreFacts.lean ====
import proofs.«417773_j10737418240013_1_alg».proof.Proof.Gen.Pre_finite_inputs
import proofs.«417773_j10737418240013_1_alg».proof.Proof.Spec
import Idealize.ShloMosaic.Lib.ReduceAll
import Idealize.ShloMosaic.Lib.StableHlo.Predicate

noncomputable section

namespace Cert.Jsd

open Idealize.ShloMosaic Idealize.ShloMosaic.ValueIdx Cert.Pre_finite_inputs

/-- The rank-0 shape has one index: a function out of the empty set of axes. -/
private instance subsingleton_scalar_idx : Subsingleton S_.Idx := ⟨fun a b => funext fun d => d.elim0⟩

/-- The f32 pattern with all exponent bits set and no fraction bit is +∞. -/
private theorem inf_word : Ideal.ofBits .f32 0x7F800000#32 = (⊤ : EReal) := by
  simp [Ideal.ofBits, Ideal.ieee]

/-- An extended real whose absolute value max x (−x) lies strictly below +∞ is neither infinity: it is a real. -/
private theorem real_of_abs_lt_inf (x : EReal)
    (h : Ideal.cmp .olt (max x (-x)) (Ideal.ofBits .f32 0x7F800000#32) = 1#1) : ∃ r : ℝ, x = (r : EReal) := by
  rw [inf_word] at h
  simp only [Ideal.cmp, StableHlo.Predicate.ofBool_eq_one_iff, decide_eq_true_eq] at h
  induction x using EReal.rec with
  | bot => simp at h
  | coe r => exact ⟨r, rfl⟩
  | top => simp at h

/-- An and of two i1 vectors is 1 at an index exactly when both are. -/
private theorem andi_at_eq_one {s : Shape} (x y : IVec s 1) (i : s.Idx) :
    andi x y i = 1#1 ↔ x i = 1#1 ∧ y i = 1#1 := IntOp.andi_eq_one

/-- "Every |a i| < +∞" as an and-reduction to a scalar, at any shape: the reduction being 1 makes the compare 1 at every
    index, the broadcast scalar reads +∞ everywhere, and |a i| < +∞ makes a i real. -/
private theorem all_real {s : Shape} {axes : List (Fin s.rank)} (a : FVec Ideal s .f32)
    (dims : Fin S_.rank → Fin s.rank) (hb : S_.BroadcastsInDim s dims) (hr : s.ReducesTo axes S_) (h0 : 0 < S_.numel)
    (e : Host.reduce IntOp.andi (cmpf .olt (Host.absf a) (broadcastInDim s dims hb (constant S_ .f32 0x7F800000#32)))
          (constantI S_ 1 1#1) hr h0 ix0 = 1#1) :
    ∀ i, ∃ r : ℝ, a i = (r : EReal) := by
  intro i
  have hi := Host.reduce_andi_all _ _ hr h0 ix0 e i
  exact real_of_abs_lt_inf (a i) hi

/-- One label's word of the printed predicate, (l == −100) | ((l >= 0) & (l < 32000)), read back: the signed
    compares are compares of the two's-complement values, and 0 and 32000 are their own values. -/
private theorem labelOk_of_word (l : BitVec 32)
    (h : IntOp.ori (IntOp.cmpi .eq l 4294967196#32)
          (IntOp.andi (IntOp.cmpi .sge l 0#32) (IntOp.cmpi .slt l 32000#32)) = 1#1) : labelOk l := by
  rw [IntOp.ori_eq_one, IntOp.andi_eq_one] at h
  rcases h with h | ⟨hge, hlt⟩
  · exact Or.inl (StableHlo.Predicate.cmpi_eq_iff.1 h)
  · have z : (0#32 : BitVec 32).toInt = 0 := by decide
    have t : (32000#32 : BitVec 32).toInt = 32000 := by decide
    simp only [IntOp.cmpi, StableHlo.Predicate.ofBool_eq_one_iff, BitVec.sle, BitVec.slt, decide_eq_true_eq, z, t]
      at hge hlt
    exact Or.inr ⟨hge, hlt⟩

/-- What the precondition says: every entry of the four float arrays is a real number, and every label is the
    ignore index or a class in [0, 32000). -/
theorem pre_facts [Cert.Pre_finite_inputs.Facts]
    (a0 : FVec Ideal S2048x2048 .f32) (a1 : FVec Ideal S32000x2048 .f32) (a2 : FVec Ideal S2048x4096 .f32)
    (a3 : FVec Ideal S32000x4096 .f32) (a4 : IVec S2048 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ n : Fin 2048, labelOk (a4 (ix1 n))) := by
  -- the scalar result at its one index, with the chain of lets opened: an and of the five reductions
  have e := congrFun h ix0
  dsimp only [Cert.Pre_finite_inputs.fn, Cert.Pre_finite_inputs.fn_part1] at e
  simp only [andi_at_eq_one] at e
  obtain ⟨⟨⟨⟨e0, e1⟩, e2⟩, e3⟩, e4⟩ := e
  refine ⟨all_real a0 _ _ _ _ e0, all_real a1 _ _ _ _ e1, all_real a2 _ _ _ _ e2, all_real a3 _ _ _ _ e3, fun n => ?_⟩
  exact labelOk_of_word _ (Host.reduce_andi_all _ _ _ _ ix0 e4 (ix1 n))

end Cert.Jsd

end
-- ==== Proof.Bridge.lean ====
import proofs.«417773_j10737418240013_1_alg».proof.Proof.Spec

noncomputable section

namespace Cert.Jsd

open Idealize.ShloMosaic Idealize.ShloMosaic.ValueIdx

/-- For an admissible label the masked sum over the vocabulary picks the one entry at the label. -/
theorem hardK_eq_hardPick (a : Fin 32000 → EReal) (l : BitVec 32) (h : labelOk l) : hardK a l = hardPick a l := by
  unfold hardK hardPick
  rcases h with rfl | ⟨h0, h1⟩
  · have hm : maskBit 4294967196#32 = 0#1 := by decide
    rw [hm, select_zero, select_zero]
  · have hne : l ≠ 4294967196#32 := by
      rintro rfl
      exact absurd h0 (by decide)
    have hm : maskBit l = 1#1 := by
      unfold maskBit IntOp.cmpi
      show BitVec.ofBool (l != 4294967196#32) = 1#1
      rw [show (l != 4294967196#32) = true from bne_iff_ne.mpr hne]
      rfl
    have hs : safeLabel l = l := by
      unfold safeLabel
      rw [hm, select_one]
    have hlt : l.toNat < 32000 := by
      have hl := l.isLt
      rw [BitVec.toInt_eq_toNat_cond] at h0 h1
      split at h0 <;> omega
    have hpick : (⟨(safeLabel l).toNat % 32000, Nat.mod_lt _ (by decide)⟩ : Fin 32000) = ⟨l.toNat, hlt⟩ :=
      Fin.ext (by show (safeLabel l).toNat % 32000 = l.toNat; rw [hs]; exact Nat.mod_eq_of_lt hlt)
    rw [hm, select_one, select_one, hpick, hs]
    rw [Finset.sum_eq_single (⟨l.toNat, hlt⟩ : Fin 32000)]
    · have e1 : BitVec.ofNat 32 l.toNat = l := by simp
      have he : IntOp.cmpi .eq (BitVec.ofNat 32 l.toNat) l = 1#1 := by
        rw [e1]
        unfold IntOp.cmpi
        show BitVec.ofBool (l == l) = 1#1
        rw [beq_self_eq_true]
        rfl
      show 0 - Scalar.select (IntOp.cmpi .eq (BitVec.ofNat 32 l.toNat) l) (a ⟨l.toNat, hlt⟩) 0 = _
      rw [he, select_one, zero_sub]
    · intro v _ hv
      have he : IntOp.cmpi .eq (BitVec.ofNat 32 v.val) l = 0#1 := by
        unfold IntOp.cmpi
        have : BitVec.ofNat 32 v.val ≠ l := by
          intro e
          apply hv
          apply Fin.ext
          have := congrArg BitVec.toNat e
          rw [BitVec.toNat_ofNat] at this
          have hv' := v.isLt
          show v.val = l.toNat
          omega
        show BitVec.ofBool (BitVec.ofNat 32 v.val == l) = 0#1
        rw [show (BitVec.ofNat 32 v.val == l) = false from beq_eq_false_iff_ne.mpr this]
        rfl
      rw [he, select_zero]
    · intro hn
      exact absurd (Finset.mem_univ _) hn

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Logits of arrays of real numbers are real numbers. -/
theorem logits_real {H : ℕ} (x : (⟨2, ![2048, H]⟩ : Shape).Idx → EReal) (w : (⟨2, ![32000, H]⟩ : Shape).Idx → EReal)
    (hx : ∀ i, ∃ r : ℝ, x i = (r : EReal)) (hw : ∀ i, ∃ r : ℝ, w i = (r : EReal)) :
    ∀ i, ∃ r : ℝ, logits x w i = (r : EReal) := by
  intro i
  choose rx hrx using hx
  choose rwv hrw using hw
  refine ⟨∑ k : Fin H, rx (ix2 (i 0) k) * rwv (ix2 (i 1) k), ?_⟩
  unfold logits
  rw [coe_sum]
  refine Finset.sum_congr rfl fun k _ => ?_
  rw [hrx, hrw, EReal.coe_mul]

/-- The two programs' results agree: row by row the two spellings of the log-probabilities agree on real logits,
    and the masked sum is the pick for an admissible label. -/
theorem result_eq {H1 H2 : ℕ} (x0 : (⟨2, ![2048, H1]⟩ : Shape).Idx → EReal) (x1 : (⟨2, ![32000, H1]⟩ : Shape).Idx → EReal)
    (x2 : (⟨2, ![2048, H2]⟩ : Shape).Idx → EReal) (x3 : (⟨2, ![32000, H2]⟩ : Shape).Idx → EReal) (x4 : SN.Idx → BitVec 32)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (h4 : ∀ n : Fin 2048, labelOk (x4 (ix1 n))) :
    tailFn (∑ n : Fin 2048, hardK (lpK (rowOf (logits x0 x1) n)) (x4 (ix1 n)))
        (∑ n : Fin 2048, softRow (lpK (rowOf (logits x0 x1) n)) (lpK (rowOf (logits x2 x3) n)) (x4 (ix1 n)))
      = tailFn (∑ n : Fin 2048, hardPick (lpR (rowOf (logits x0 x1) n)) (x4 (ix1 n)))
        (∑ n : Fin 2048, softRow (lpR (rowOf (logits x0 x1) n)) (lpR (rowOf (logits x2 x3) n)) (x4 (ix1 n))) := by
  have e0 : ∀ n, lpK (rowOf (logits x0 x1) n) = lpR (rowOf (logits x0 x1) n) := fun n =>
    lpK_eq_lpR (by decide) _ fun v => logits_real x0 x1 h0 h1 _
  have e1 : ∀ n, lpK (rowOf (logits x2 x3) n) = lpR (rowOf (logits x2 x3) n) := fun n =>
    lpK_eq_lpR (by decide) _ fun v => logits_real x2 x3 h2 h3 _
  simp only [e0, e1, fun n => hardK_eq_hardPick (lpR (rowOf (logits x0 x1) n)) _ (h4 n)]

end Cert.Jsd

end
-- ==== Proof.lean ====
/-
  The certificate of the fused linear Jensen–Shannon distillation loss.

  The kernel program computes the two [2048, 32000] arrays of logits by two tiled matrix products, then scans
  them sixteen rows at a time: each row's log-probabilities (logit minus log-sum-exp), its hard loss (minus the
  log-probability at its label, as a one-hot masked sum) and its soft loss (the Jensen–Shannon integrand summed over
  the vocabulary), accumulated into two entries of an [8, 128] block over the 128 grid points; the host then
  forms ½·(Σ hard / 2048) + ½·(Σ soft / 2048).  The reference computes the same quantities on whole arrays, the hard
  loss by a take-along-axis.  The two agree when every float input is a real number (the log-sum-exp shift then
  re-associates) and every label is the ignore index or a class in range (the one-hot sum is then the pick).

  The three frames: the two kernel programs' are generated; the reference's is its run (RefRun) with the result
  dropped.  The idealization rewrote nothing.  The value claim: the kernel's run with its result named (KernelRun),
  the result read back through the three regions (KernelValue), the reference's run read one operation at a time
  (RefResult), and the row-by-row equality (Bridge) under the precondition's facts (PreFacts).
-/
import proofs.«417773_j10737418240013_1_alg».proof.Defs
import proofs.«417773_j10737418240013_1_alg».proof.Proof.Gen.Kernel
import proofs.«417773_j10737418240013_1_alg».proof.Proof.Gen.Kernel.Skeleton
import proofs.«417773_j10737418240013_1_alg».proof.Proof.Gen.Kernel.Launch
import proofs.«417773_j10737418240013_1_alg».proof.Proof.Gen.Kernel.Points
import proofs.«417773_j10737418240013_1_alg».proof.Proof.Gen.Kernel.Frame
import proofs.«417773_j10737418240013_1_alg».proof.Proof.Gen.KernelIdeal
import proofs.«417773_j10737418240013_1_alg».proof.Proof.Gen.KernelIdeal.Skeleton
import proofs.«417773_j10737418240013_1_alg».proof.Proof.Gen.KernelIdeal.Launch
import proofs.«417773_j10737418240013_1_alg».proof.Proof.Gen.KernelIdeal.Points
import proofs.«417773_j10737418240013_1_alg».proof.Proof.Gen.KernelIdeal.Frame
import proofs.«417773_j10737418240013_1_alg».proof.Proof.Gen.ReferenceIdeal
import proofs.«417773_j10737418240013_1_alg».proof.Proof.RefRun
import proofs.«417773_j10737418240013_1_alg».proof.Proof.RefReadP
import proofs.«417773_j10737418240013_1_alg».proof.Proof.Gen.Pre_finite_inputs
import proofs.«417773_j10737418240013_1_alg».proof.Proof.KernelRun
import proofs.«417773_j10737418240013_1_alg».proof.Proof.KernelValue
import proofs.«417773_j10737418240013_1_alg».proof.Proof.RefResult
import proofs.«417773_j10737418240013_1_alg».proof.Proof.PreFacts
import proofs.«417773_j10737418240013_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the same scalar: the kernel's at the tail of its two accumulated totals, the reference's at
    the tail of its two whole-array totals, equal row by row under the precondition. -/
theorem algebraic : Cert.algebraic_KernelIdeal_ReferenceIdeal := by
  intro m ρ m' ρ' hpre hagree
  refine ⟨fun c => Cert.KernelIdeal.Gen.W5 m ρ c (Proc.devRef .tc Cert.KernelIdeal.main_v12),
    Cert.KernelIdeal.Gen.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨f0, f1, f2, f3, f4⟩ := Cert.Jsd.pre_facts _ _ _ _ _ (hpre c)
  rw [Cert.ReferenceIdeal.ReadP.val_main_v50_eq, (hagree c).1, (hagree c).2.1, (hagree c).2.2.1, (hagree c).2.2.2.1,
    (hagree c).2.2.2.2]
  refine (Cert.ReferenceIdeal.RefValue.v50_eq _ _ _ _ _ f4).trans ?_
  refine Eq.trans ?_ (Cert.KernelIdeal.Result.W5_result m ρ c).symm
  funext _
  exact (Cert.Jsd.result_eq _ _ _ _ _ f0 f1 f2 f3 f4).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
